-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x32 : Shape := ⟨2, ![100000, 32]⟩
abbrev S5000x128 : Shape := ⟨2, ![5000, 128]⟩
abbrev S5000x1 : Shape := ⟨2, ![5000, 1]⟩
abbrev S5000x32 : Shape := ⟨2, ![5000, 32]⟩
abbrev S3300000x32 : Shape := ⟨2, ![3300000, 32]⟩
abbrev S1x32 : Shape := ⟨2, ![1, 32]⟩
abbrev S1x1 : Shape := ⟨2, ![1, 1]⟩
abbrev S2048x1 : Shape := ⟨2, ![2048, 1]⟩
abbrev S2000x32 : Shape := ⟨2, ![2000, 32]⟩
abbrev S2000x1 : Shape := ⟨2, ![2000, 1]⟩
abbrev S2048x32 : Shape := ⟨2, ![2048, 32]⟩
abbrev S1x2048 : Shape := ⟨2, ![1, 2048]⟩
abbrev S2000x2048 : Shape := ⟨2, ![2000, 2048]⟩

abbrev nBuf : Space → Nat
  | .hbm => 64
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x32, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x32, .f32⟩
  | .hbm, ⟨41, _⟩ => ⟨S_, .f32⟩
  | .hbm, ⟨42, _⟩ => ⟨S100000x32, .f32⟩
  | .hbm, ⟨43, _⟩ => ⟨S3300000x1, .i32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S_, .f32⟩
  | .hbm, ⟨57, _⟩ => ⟨S100000x32, .f32⟩
  | .hbm, ⟨58, _⟩ => ⟨S3300000x1, .i32⟩
  | .hbm, ⟨59, _⟩ => ⟨S100000x32, .f32⟩
  | .hbm, ⟨60, _⟩ => ⟨S1x32, .f32⟩
  | .hbm, ⟨61, _⟩ => ⟨S100000x1, .i32⟩
  | .hbm, ⟨62, _⟩ => ⟨S1x1, .f32⟩
  | .hbm, ⟨63, _⟩ => ⟨S2048x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x1, .f32⟩
  | .local _ .vmem, ⟨4, _⟩ => ⟨S5000x1, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S32x32, .f32⟩
  | .local _ .vmem, ⟨13, _⟩ => ⟨S5000x32, .f32⟩
  | .local _ .vmem, ⟨14, _⟩ => ⟨S5000x32, .f32⟩
  | .local _ .vmem, ⟨15, _⟩ => ⟨S2000x32, .f32⟩
  | .local _ .vmem, ⟨16, _⟩ => ⟨S2000x32, .f32⟩
  | .local _ .vmem, ⟨17, _⟩ => ⟨S2000x1, .f32⟩
  | .local _ .vmem, ⟨18, _⟩ => ⟨S2000x1, .f32⟩
  | .local _ .vmem, ⟨19, _⟩ => ⟨S1x32, .f32⟩
  | .local _ .vmem, ⟨20, _⟩ => ⟨S2000x1, .i32⟩
  | .local _ .vmem, ⟨21, _⟩ => ⟨S2000x1, .i32⟩
  | .local _ .vmem, ⟨22, _⟩ => ⟨S32x1, .f32⟩
  | .local _ .vmem, ⟨23, _⟩ => ⟨S1x1, .f32⟩
  | .local _ .vmem, ⟨24, _⟩ => ⟨S2048x1, .f32⟩
  | .local _ .vmem, ⟨25, _⟩ => ⟨S2048x32, .f32⟩
  | .local _ .vmem, ⟨26, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_18 : BitVec 32 := 0#32
  let v38 : BitVec 1 := Scalar.cmpi .ne v37 c0_i32_18
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  broadcasts_S1x32_S2000x32 : S1x32.Broadcasts S2000x32
  iota_S1x2048_d1_w32 : S1x2048.Iotas .tc 32 [1]
  broadcasts_S2000x1_S2000x2048 : S2000x1.Broadcasts S2000x2048
  broadcasts_S1x2048_S2000x2048 : S1x2048.Broadcasts S2000x2048
  natLt_1_32 : 1 < 32
  broadcasts_S2048x1_S2048x32 : S2048x1.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S100000_S3300000x1_S3300000_n_0_0_1_wf : ScatterDims.WF S100000 S3300000x1 S3300000 [] [0] [0] 1
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  dot_S2000x2048_S2000x32_S2048x32_0_0_1_1_n_n_wf : DotDims.WF S2000x2048 S2000x32 S2048x32 [0] [0] [1] [1] [] []
  dot_S2000x2048_S2000x1_S2048x1_0_0_1_1_n_n_wf : DotDims.WF S2000x2048 S2000x1 S2048x1 [0] [0] [1] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x1.size a ≤ S32x1.size a
  hwx2_4 : ∀ i : grid2.Coords, EltTy.bits .f32 = 32 ∨ (Rect.block (s := S32x1) S32x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2048x1.size a ≤ S2048x1.size a
  hwx2_6 : ∀ i : grid2.Coords, EltTy.bits .f32 = 32 ∨ (Rect.block (s := S2048x1) S2048x1.size (cc2_transform_6 i) (hinb2_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S2000x2048_S2000x32_S2048x32_0_0_1_1_n_n : DotDims S2000x2048 S2000x32 S2048x32 where
  lhsContracting := [0]
  rhsContracting := [0]
  lhsNonContracting := [1]
  rhsNonContracting := [1]
  lhsBatch := []
  rhsBatch := []
  wf := dot_S2000x2048_S2000x32_S2048x32_0_0_1_1_n_n_wf
def dot_S2000x2048_S2000x1_S2048x1_0_0_1_1_n_n : DotDims S2000x2048 S2000x1 S2048x1 where
  lhsContracting := [0]
  rhsContracting := [0]
  lhsNonContracting := [1]
  rhsNonContracting := [1]
  lhsBatch := []
  rhsBatch := []
  wf := dot_S2000x2048_S2000x1_S2048x1_0_0_1_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S32x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2048x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S2048x32 : Shape := ⟨2, ![2048, 32]⟩
abbrev S100000x1 : Shape := ⟨2, ![100000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x1, .f32⟩
  | 8 => ⟨S1, .f32⟩
  | 9 => ⟨S1x3200000, .i32⟩
  | 10 => ⟨S3200000, .i32⟩
  | 11 => ⟨S1x3200000, .i32⟩
  | 12 => ⟨S3200000, .i32⟩
  | 13 => ⟨S100000x32, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x32, .f32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x32, .f32⟩
  | 118 => ⟨S3300000x1, .f32⟩
  | 119 => ⟨S3300000x32, .f32⟩
  | 120 => ⟨S3300000x32, .f32⟩
  | 121 => ⟨S_, .f32⟩
  | 122 => ⟨S100000x32, .f32⟩
  | 123 => ⟨S3300000x1, .i32⟩
  | 124 => ⟨S100000x32, .f32⟩
  | 125 => ⟨S1x32, .f32⟩
  | 126 => ⟨S100000x32, .f32⟩
  | 127 => ⟨S100000x32, .f32⟩
  | _ => ⟨S100000x128, .f32⟩

abbrev hbmTy0_1 (i : Nat) : BufTy := match i % 128 with
  | 0 => ⟨S_, .f32⟩
  | 1 => ⟨S2048x32, .f32⟩
  | 2 => ⟨S100000x1, .i32⟩
  | 3 => ⟨S2048x32, .f32⟩
  | 4 => ⟨S_, .f32⟩
  | 5 => ⟨S100000, .f32⟩
  | 6 => ⟨S_, .f32⟩
  | 7 => ⟨S2048, .f32⟩
  | 8 => ⟨S100000x1, .i32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x32, .f32⟩
  | 15 => ⟨S2048x32, .f32⟩
  | 16 => ⟨S2048x1, .f32⟩
  | 17 => ⟨S1x1, .f32⟩
  | 18 => ⟨S2048x1, .f32⟩
  | 19 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S2048x32 : S_.BroadcastsInDim S2048x32 (![] : Fin 0 → Fin S2048x32.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S2048x32_S100000x1_S100000x32_1_0_0_1_wf : ScatterDims.WF S2048x32 S100000x1 S100000x32 [1] [0] [0] 1
  scatter_S2048_S100000x1_S100000_n_0_0_1_wf : ScatterDims.WF S2048 S100000x1 S100000 [] [0] [0] 1
  dot_S2048x32_S32x1_S2048x1_1_0_0_1_n_n_wf : DotDims.WF S2048x32 S32x1 S2048x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S2048x32_S100000x1_S100000x32_1_0_0_1 : ScatterDims S2048x32 S100000x1 S100000x32 where
  updateWindowDims := [1]
  insertedWindowDims := [0]
  scatterDimsToOperandDims := [0]
  indexVectorDim := 1
  wf := scatter_S2048x32_S100000x1_S100000x32_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KwR0.lean ====
import proofs.«405506_j40140764349028_2_alg».proof.Proof.Gen.Kernel.Launch
import proofs.«405506_j40140764349028_2_alg».proof.Proof.Gen.Kernel.Skeleton
import proofs.«405506_j40140764349028_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! Region 0 (the first dense layer, x·W1 scaled row-wise by the degree factor), at any float instance:
what each window's staging buffer holds at a grid point, the body's triple, the pipeline's proof data and
the body obligation, all stated at a PARAMETER `V`: the buffers' contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one store of the body covers the whole output block. -/
abbrev rOut0 : Rect S5000x32 := Rect.unit (s := S5000x32) ![0, 0] S5000x32.size inb_S5000x32_S5000x32_0_0

/-- What the body leaves in the output window's buffer, from the three input blocks. -/
def out0_3 (x0 : Vec F S5000x128 .f32) (x1 : Vec F S128x32 .f32) (x2 : Vec F S5000x1 .f32) : Vec F S5000x32 .f32 :=
  k0_pay1 x0 x1 x2

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The zero offsets of a whole-block access, however they are spelt. -/
theorem zeroOff2 : (![0, 0] : Fin 2 → Nat) = fun _ => 0 := funext fun a => by fin_cases a <;> rfl

/-- An input window's staging buffer holds its block at every point, fetched there or not: unfetched, the block
    index has not moved (the weight matrix is fetched once, at the first point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

set_option maxHeartbeats 1000000 in
/-- The body on whole staging buffers, the three inputs' at contents `x0 x1 x2` and the output's at anything, runs to
    the continuation holding the inputs' as they were and the output's at the scaled product of the inputs. The
    output buffer is read once before it is overwritten; what is read is never used. -/
theorem sound_kernel0 (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S5000x1 .f32) (harg3 : arg3.IsWhole)
    (arg4 : Memref sig .tc .vmem S5000x32 .f32) (harg4 : arg4.IsWhole)
    (x0 : Vec F S5000x128 .f32) (x1 : Vec F S128x32 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
    (fun y => ⟨_, List.mem_singleton_self _, View.mem_set_unit_zero zeroOff2 inb_S5000x32_S5000x32_0_0 y⟩),
    View.canon_unit_zero zeroOff2]
  simp only [View.readAt_eq_ld, View.ld_unit_zero (S := S5000x128) zeroOff2,
    View.ld_unit_zero (S := S128x32) zeroOff2, View.ld_unit_zero (S := S5000x1) zeroOff2]
  rfl

/-- What the body is called with at point `t`: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KwR1.lean ====
import proofs.«405506_j40140764349028_2_alg».proof.Proof.Gen.Kernel.Launch
import proofs.«405506_j40140764349028_2_alg».proof.Proof.Gen.Kernel.Skeleton
import proofs.«405506_j40140764349028_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 1 (the first layer's epilogue — row scale, bias, relu — fused with the second dense layer and its own row scale), at any float instance: what each window's staging buffer holds at a grid point, the pipeline's proof data and the body obligation, at a PARAMETER `V`: the buffers' contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer, from the four input blocks (the row-scale block is
    loaded twice: once for the epilogue, once for the second layer's scale). -/
def out1_4 (x0 : Vec F S5000x32 .f32) (x1 : Vec F S5000x1 .f32) (x2 : Vec F S1x32 .f32) (x3 : Vec F S32x32 .f32) : Vec F S5000x32 .f32 :=
  k1_pay1 x0 x1 x2 x3 x1

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## Each input window's staging buffer holds its block -/

/-- The block of aggregated first-layer features is in its staging buffer at every point, fetched there or not: where
    a window is not fetched its block index has not moved. -/
theorem staged_sums_block (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The row-scale block (the reciprocal square roots of the in-degrees of the point's rows), likewise. -/
theorem staged_scale_block (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The first layer's bias row, fetched at the first point only and unmoved after, likewise. -/
theorem staged_bias_row (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The second layer's weight matrix, fetched at the first point only and unmoved after, likewise. -/
theorem staged_weight (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's triple -/

/-- The offsets of a whole-buffer access are zero on both axes. -/
theorem whole_offsets_zero : (![0, 0] : Fin 2 → Nat) = fun _ => 0 := funext fun a => by fin_cases a <;> rfl

/-- The one store of the body is through the whole rectangle of the output buffer, so it covers it. -/
theorem whole_store_covers (p : Vec F S5000x32 .f32) (y : S5000x32.Idx) :
    ∃ pc ∈ ([⟨Rect.unit (s := S5000x32) ![0, 0] S5000x32.size inb_S5000x32_S5000x32_0_0, p⟩] : List (View.Piece (Elt F) S5000x32 .f32)), y ∈ pc.1.set :=
  ⟨_, List.mem_singleton_self _, View.mem_set_unit_zero whole_offsets_zero inb_S5000x32_S5000x32_0_0 y⟩

set_option maxHeartbeats 1000000 in
/-- The body on whole staging buffers, the four inputs' at contents `x0 … x3` and the output's at anything, runs to
    the continuation holding the inputs' as they were and the output's at `out1_4` of them. -/
theorem epilogue_layer_triple (c : Dev nD) (E : Set ℕ) (i : grid1.Coords)
    (arg1 : Memref sig .tc .vmem S5000x32 .f32) (harg1 : arg1.IsWhole) (arg2 : Memref sig .tc .vmem S5000x1 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S5000x32 .f32) (harg5 : arg5.IsWhole)
    (x0 : Vec F S5000x32 .f32) (x1 : Vec F S5000x1 .f32) (x2 : Vec F S1x32 .f32) (x3 : Vec F S32x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__linear_epilogue_kernel i arg1 harg1 arg2 harg2 arg3 harg3 arg4 harg4 arg5 harg5) K := by
  simp only [cc1__linear_epilogue_kernel_eq_skeleton]; unfold cc1__linear_epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold out1_4
  rw [View.read_writes_eq_canon _ _ _ (whole_store_covers _), View.canon_unit_zero whole_offsets_zero]
  simp only [View.readAt_eq_ld, View.ld_unit_zero (S := S5000x32) whole_offsets_zero, View.ld_unit_zero (S := S5000x1) whole_offsets_zero,
    View.ld_unit_zero (S := S1x32) whole_offsets_zero, View.ld_unit_zero (S := S32x32) whole_offsets_zero]

/-! ## The body obligation, at a generic point -/

/-- What the body is called with at point `t`: the invariant, what the core owes, and each window's staging buffer, -/
def epilogue_layer_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def epilogue_layer_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem epilogue_layer_at_point (c : Dev nD) (t : Fin cfg1.N) :
    epilogue_layer_pre V c t ⊢ wp frame (wpE (defs₀ (F := F)) Variants.none c none) Set.univ (bodyAt1 t) (fun _ => epilogue_layer_post V c t) := by
  unfold epilogue_layer_pre epilogue_layer_post bodyAt1
  simp only [staged_sums_block, staged_scale_block, staged_bias_row, staged_weight]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (epilogue_layer_triple c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact epilogue_layer_at_point V c t

end Cert.Kernel.Hand

end
-- ==== Proof.KwR2.lean ====
import proofs.«405506_j40140764349028_2_alg».proof.Proof.Gen.Kernel.Launch
import proofs.«405506_j40140764349028_2_alg».proof.Proof.Gen.Kernel.Skeleton
import proofs.«405506_j40140764349028_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! Region 2 (the second layer's epilogue fused with mean pooling by a one-hot product accumulated over the 50 row blocks in two carried scratch accumulators, and the final projection at the last block), at any float instance: the blocks, the accumulators point by point, the pipeline's proof data (its invariant holds the two accumulators at named contents between points), the body obligation, at a PARAMETER `V`: the buffers' contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two carried accumulators (segment sums, segment counts) after the body at point `n`: the first point
    resets them to zero and adds its block's partial sums; every later point adds its own to what the point
    before left. -/
def acc2 (c : Dev nD) : (n : ℕ) → n < cfg2.N → Vec F S2048x32 .f32 × Vec F S2048x1 .f32
  | 0, hn =>
    (k2_pay5 (iblk2 V c 0 ⟨0, hn⟩) (iblk2 V c 1 ⟨0, hn⟩) (iblk2 V c 2 ⟨0, hn⟩) (iblk2 V c 3 ⟨0, hn⟩) (k2_pay2 (F := F)),
     k2_pay6 (iblk2 V c 3 ⟨0, hn⟩) (k2_pay3 (F := F)))
  | n + 1, hn =>
    (k2_pay5 (iblk2 V c 0 ⟨n + 1, hn⟩) (iblk2 V c 1 ⟨n + 1, hn⟩) (iblk2 V c 2 ⟨n + 1, hn⟩) (iblk2 V c 3 ⟨n + 1, hn⟩)
        (acc2 c n (Nat.lt_of_succ_lt hn)).1,
     k2_pay6 (iblk2 V c 3 ⟨n + 1, hn⟩) (acc2 c n (Nat.lt_of_succ_lt hn)).2)

/-- What the last point stores in the output window's buffer: the projection of the per-segment means. (The
    field is consulted only where the window is not idle, that is at the last point.) -/
def out2_6 (c : Dev nD) (t : Fin cfg2.N) : Vec F S2048x1 .f32 :=
  k2_pay1 (acc2 V c t.val t.isLt).1 (acc2 V c t.val t.isLt).2 (iblk2 V c 4 t) (iblk2 V c 5 t)

/-- The scoped buffers of the core that are neither staging buffers of this region's windows nor its two
    accumulators (the staging buffers of the other two regions' windows), each at some contents: carried unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region's invariant before point `n`: before the first point the class invariant (every scoped buffer that
    is no staging buffer at anything, the generator register at some state); before point `n + 1` the same with the
    segment sums and the segment counts named: the two accumulators at what point `n` left in them. -/
def Phi2 (c : Dev nD) : (n : ℕ) → n ≤ cfg2.N → sProp 𝕄
  | 0, _ => Pipeline.ΦA spec2 c
  | n + 1, hn => iprop(others2 (F := F) c
      ∗ owns (c : Thread nD τ) (Memref.whole cc2_scratch0) fullShare (acc2 V c n hn).1
      ∗ owns (c : Thread nD τ) (Memref.whole cc2_scratch1) fullShare (acc2 V c n hn).2 ∗ (∃ r, prngReg c r))

theorem Phi2_zero (c : Dev nD) (n : ℕ) (h : n ≤ cfg2.N) (hz : n = 0) : Phi2 V c n h = Pipeline.ΦA spec2 c := by
  subst hz; rfl

/-- After point `n`: the accumulators at that point's sums and counts. -/
theorem Phi2_succ (c : Dev nD) (n : ℕ) (hn : n < cfg2.N) :
    Phi2 V c (n + 1) hn = iprop(others2 (F := F) c
      ∗ owns (c : Thread nD τ) (Memref.whole cc2_scratch0) fullShare (acc2 V c n hn).1
      ∗ owns (c : Thread nD τ) (Memref.whole cc2_scratch1) fullShare (acc2 V c n hn).2 ∗ (∃ r, prngReg c r)) := rfl

/-- Before a point that is not the first: the accumulators at what the point before left. -/
theorem Phi2_pos (c : Dev nD) (n : ℕ) (h : n ≤ cfg2.N) (hz : n ≠ 0) :
    Phi2 V c n h = iprop(others2 (F := F) c
      ∗ owns (c : Thread nD τ) (Memref.whole cc2_scratch0) fullShare (acc2 V c (n - 1) (by omega)).1
      ∗ owns (c : Thread nD τ) (Memref.whole cc2_scratch1) fullShare (acc2 V c (n - 1) (by omega)).2 ∗ (∃ r, prngReg c r)) := by
  cases n with
  | zero => exact absurd rfl hz
  | succ n => rfl

/-- The class invariant with the two accumulators taken out of the scoped rest, each owned whole at some contents. -/
theorem PhiA2_eq (c : Dev nD) :
    (Pipeline.ΦA spec2 c : sProp 𝕄)
      = iprop(iprop(iprop((∃ d, owns (c : Thread nD τ) (Memref.whole cc2_scratch0) fullShare d)
            ∗ (∃ d, owns (c : Thread nD τ) (Memref.whole cc2_scratch1) fullShare d)) ∗ others2 (F := F) c)
          ∗ (∃ r, prngReg c r)) := by
  unfold Pipeline.ΦA
  rw [Pipeline.scopedRest_split_of_list spec2 c [cc2_scratch0, cc2_scratch1] (by decide) (by decide)]
  simp only [owns_whole, bigSepL_cons_cons, bigSepL_singleton]; try rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## The body's two conditions and where the output window is idle -/

/-- The body's first condition: the row block is the first one (the accumulators are then reset to zero). -/
abbrev isFirst2 (i : grid2.Coords) : Prop :=
  (Scalar.cmpi .ne (Scalar.extui (Scalar.cmpi .eq (BitVec.ofNat 32 (i 0).val) 0#32)) 0#32) = 1#1
/-- It holds at the first point only. -/
theorem hfirst2 : ∀ t : Fin cfg2.N, isFirst2 (grid2.coords t) ↔ t.val = 0 :=
  (by decide +kernel : ∀ t : Fin grid2.N, isFirst2 (grid2.coords t) ↔ t.val = 0)

/-- The body's second condition: the row block is the last one (the means are then projected and stored). -/
abbrev isLast2 (i : grid2.Coords) : Prop := k2_cond2 i = 1#1
/-- It holds at the last point only. -/
theorem hlast2 : ∀ t : Fin cfg2.N, isLast2 (grid2.coords t) ↔ t.val = 49 :=
  (by decide +kernel : ∀ t : Fin grid2.N, isLast2 (grid2.coords t) ↔ t.val = 49)

/-- The six input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
/-- Off the last row block the output window is idle (nothing is stored into it), -/
theorem idle2_6 : ∀ t : Fin cfg2.N, ¬isLast2 (grid2.coords t) → cfg2.idle 6 (grid2.coords t) = true := by decide +kernel
/-- and its block is not written back there; -/
theorem noFlush2_6 : ∀ t : Fin cfg2.N, ¬isLast2 (grid2.coords t) → (cfg2.win 6).flush t = false := by decide +kernel
/-- at the last row block it is live. -/
theorem live2_6 : ∀ t : Fin cfg2.N, isLast2 (grid2.coords t) → cfg2.idle 6 (grid2.coords t) = false := by decide +kernel

/-! ## The body on whole buffers, case by case -/

/-- Every access of this kernel is of a whole buffer: its offset is zero on both axes. -/
theorem off00 : (![0, 0] : Fin 2 → ℕ) = fun _ => 0 := by funext a; fin_cases a <;> rfl

/-- A list of stores whose LAST store (its head) is of the whole buffer covers every index, whatever was stored
    and whatever the earlier stores were. -/
theorem cover_whole_head {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A MIDDLE row block (neither the first nor the last): from the six input buffers at their blocks and the
    accumulators at the sums `s0` and counts `s1` so far, the body leaves the accumulators at the sums and counts with
    this block's added, every input buffer as it was, and the output buffer as it was (nothing is stored into it). -/
theorem run2_mid (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : ¬ isFirst2 i) (hl : ¬ isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hf | exact hl)
  have h8 : View.read (Elt F) arg8.view (arg8.view.writes (Elt F) (harg8.unread s0)
      [⟨Rect.unit ![0, 0] S2048x32.size inb_S2048x32_S2048x32_0_0,
          k2_pay5
            (View.readAt (Elt F) arg1.view (Rect.unit ![0, 0] S2000x32.size inb_S2000x32_S2000x32_0_0).toLoadRect (harg1.unread x0))
            (View.readAt (Elt F) arg2.view (Rect.unit ![0, 0] S2000x1.size inb_S2000x1_S2000x1_0_0).toLoadRect (harg2.unread x1))
            (View.readAt (Elt F) arg3.view (Rect.unit ![0, 0] S1x32.size inb_S1x32_S1x32_0_0).toLoadRect (harg3.unread x2))
            (View.readAt (Elt F) arg4.view (Rect.unit ![0, 0] S2000x1.size inb_S2000x1_S2000x1_0_0).toLoadRect (harg4.unread x3))
            (View.readAt (Elt F) arg8.view (Rect.unit ![0, 0] S2048x32.size inb_S2048x32_S2048x32_0_0).toLoadRect (harg8.unread s0))⟩])
      = k2_pay5 x0 x1 x2 x3 s0 := by
    rw [View.read_writes_eq_canon _ _ _ (View.cover_of_tiled _ S2048x32.size (by rfl)), View.canon_unit_zero off00]
    simp only [View.readAt_eq_ld, harg1.read_unread, harg2.read_unread, harg3.read_unread, harg4.read_unread, harg8.read_unread,
      View.ld_unit_zero (S := S2000x32) off00, View.ld_unit_zero (S := S2000x1) off00, View.ld_unit_zero (S := S1x32) off00,
      View.ld_unit_zero (S := S2048x32) off00]
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro; exact h8
  iexists _; isplitr
  swap; · iexact H9
  ipureintro
  refine (View.read_writes_eq_canon _ _ _ (View.cover_of_tiled _ S2048x1.size (by rfl))).trans ?_
  refine (View.canon_unit_zero (S := S2048x1) off00 _ _).trans ?_
  dsimp only
  simp only [View.readAt_eq_ld, harg4.read_unread, harg9.read_unread]
  exact congrArg₂ k2_pay6 (View.ld_unit_zero (S := S2000x1) off00 _ x3) (View.ld_unit_zero (S := S2048x1) off00 _ s1)

set_option maxHeartbeats 1000000 in
/-- The LAST row block: as a middle block for the accumulators (this block's partial sums and counts added to
    `s0`, `s1`), and then the output buffer, whatever it held, is left at the projection of the per-segment means
    computed from the accumulators as just stored and the two parameter blocks `x4`, `x5`; every input buffer as it was. -/
theorem run2_last (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : ¬ isFirst2 i) (hl : isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay1 (k2_pay5 x0 x1 x2 x3 s0) (k2_pay6 x3 s1) x4 x5) ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_eq_canon _ _ _ (View.cover_of_tiled _ S2048x1.size (by rfl))).trans ?_
    refine (View.canon_unit_zero (S := S2048x1) off00 _ _).trans ?_
    sl_unfold_words
    have a1 := (View.readCov_unit_zero (S := S2048x32) (Val := Elt F) arg8.view off00 inb_S2048x32_S2048x32_0_0
        (k2_pay5
          (View.readAt (Elt F) arg1.view (Rect.unit ![0, 0] S2000x32.size inb_S2000x32_S2000x32_0_0).toLoadRect (harg1.unread x0))
          (View.readAt (Elt F) arg2.view (Rect.unit ![0, 0] S2000x1.size inb_S2000x1_S2000x1_0_0).toLoadRect (harg2.unread x1))
          (View.readAt (Elt F) arg3.view (Rect.unit ![0, 0] S1x32.size inb_S1x32_S1x32_0_0).toLoadRect (harg3.unread x2))
          (View.readAt (Elt F) arg4.view (Rect.unit ![0, 0] S2000x1.size inb_S2000x1_S2000x1_0_0).toLoadRect (harg4.unread x3))
          (View.readAt (Elt F) arg8.view (Rect.unit ![0, 0] S2048x32.size inb_S2048x32_S2048x32_0_0).toLoadRect (harg8.unread s0)))).trans
      (show _ = k2_pay5 x0 x1 x2 x3 s0 by
        simp only [View.readAt_eq_ld, harg1.read_unread, harg2.read_unread, harg3.read_unread, harg4.read_unread, harg8.read_unread,
          View.ld_unit_zero (S := S2000x32) off00, View.ld_unit_zero (S := S2000x1) off00, View.ld_unit_zero (S := S1x32) off00,
          View.ld_unit_zero (S := S2048x32) off00])
    have a2 := (View.readCov_unit_zero (S := S2048x1) (Val := Elt F) arg9.view off00 inb_S2048x1_S2048x1_0_0
        (k2_pay6
          (View.readAt (Elt F) arg4.view (Rect.unit ![0, 0] S2000x1.size inb_S2000x1_S2000x1_0_0).toLoadRect (harg4.unread x3))
          (View.readAt (Elt F) arg9.view (Rect.unit ![0, 0] S2048x1.size inb_S2048x1_S2048x1_0_0).toLoadRect (harg9.unread s1)))).trans
      (show _ = k2_pay6 x3 s1 by
        simp only [View.readAt_eq_ld, harg4.read_unread, harg9.read_unread]
        exact congrArg₂ k2_pay6 (View.ld_unit_zero (S := S2000x1) off00 _ x3) (View.ld_unit_zero (S := S2048x1) off00 _ s1))
    have a3 : View.readAt (Elt F) arg5.view (Rect.unit ![0, 0] S32x1.size inb_S32x1_S32x1_0_0).toLoadRect (harg5.unread x4) = x4 := by
      rw [View.readAt_eq_ld, harg5.read_unread]; exact View.ld_unit_zero (S := S32x1) off00 _ x4
    have a4 : View.readAt (Elt F) arg6.view (Rect.unit ![0, 0] S1x1.size inb_S1x1_S1x1_0_0).toLoadRect (harg6.unread x5) = x5 := by
      rw [View.readAt_eq_ld, harg6.read_unread]; exact View.ld_unit_zero (S := S1x1) off00 _ x5
    exact (congrArg (fun a => k2_pay1 a _ _ _) a1).trans ((congrArg (fun b => k2_pay1 _ b _ _) a2).trans
      ((congrArg (fun d => k2_pay1 _ _ d _) a3).trans (congrArg (fun e => k2_pay1 _ _ _ e) a4)))
  isplitl [H8]
  · iexists _; isplitr
    swap; · iexact H8
    ipureintro
    sl_unfold_words
    refine (View.read_writes_eq_canon _ _ _ (View.cover_of_tiled _ S2048x32.size (by rfl))).trans ?_
    refine (View.canon_unit_zero (S := S2048x32) off00 _ _).trans ?_
    simp only [View.readAt_eq_ld, harg1.read_unread, harg2.read_unread, harg3.read_unread, harg4.read_unread, harg8.read_unread,
      View.ld_unit_zero (S := S2000x32) off00, View.ld_unit_zero (S := S2000x1) off00, View.ld_unit_zero (S := S1x32) off00,
      View.ld_unit_zero (S := S2048x32) off00]
  iexists _; isplitr
  swap; · iexact H9
  ipureintro
  sl_unfold_words
  refine (View.read_writes_eq_canon _ _ _ (View.cover_of_tiled _ S2048x1.size (by rfl))).trans ?_
  refine (View.canon_unit_zero (S := S2048x1) off00 _ _).trans ?_
  dsimp only
  simp only [View.readAt_eq_ld, harg4.read_unread, harg9.read_unread]
  exact congrArg₂ k2_pay6 (View.ld_unit_zero (S := S2000x1) off00 _ x3) (View.ld_unit_zero (S := S2048x1) off00 _ s1)

set_option maxHeartbeats 1000000 in
/-- The FIRST row block: whatever the accumulators held, they are reset to zero and left at this block's partial
    sums and counts (the sums and counts of the blocks so far, from zero); every input buffer as it was, and the
    output buffer as it was (nothing is stored into it). -/
theorem run2_first (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : isFirst2 i) (hl : ¬ isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k2_pay5 x0 x1 x2 x3 (k2_pay2 (F := F)))
            ∗ owns (c : Thread nD τ) arg9 fullShare (k2_pay6 x3 (k2_pay3 (F := F)))) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  have b1 : View.readAt (Elt F) arg1.view (Rect.unit ![0, 0] S2000x32.size inb_S2000x32_S2000x32_0_0).toLoadRect (harg1.unread x0) = x0 := by
    rw [View.readAt_eq_ld, harg1.read_unread]; exact View.ld_unit_zero (S := S2000x32) off00 _ x0
  have b2 : View.readAt (Elt F) arg2.view (Rect.unit ![0, 0] S2000x1.size inb_S2000x1_S2000x1_0_0).toLoadRect (harg2.unread x1) = x1 := by
    rw [View.readAt_eq_ld, harg2.read_unread]; exact View.ld_unit_zero (S := S2000x1) off00 _ x1
  have b3 : View.readAt (Elt F) arg3.view (Rect.unit ![0, 0] S1x32.size inb_S1x32_S1x32_0_0).toLoadRect (harg3.unread x2) = x2 := by
    rw [View.readAt_eq_ld, harg3.read_unread]; exact View.ld_unit_zero (S := S1x32) off00 _ x2
  have b4 : View.readAt (Elt F) arg4.view (Rect.unit ![0, 0] S2000x1.size inb_S2000x1_S2000x1_0_0).toLoadRect (harg4.unread x3) = x3 := by
    rw [View.readAt_eq_ld, harg4.read_unread]; exact View.ld_unit_zero (S := S2000x1) off00 _ x3
  have z8 := View.readCov_unit_zero (S := S2048x32) (Val := Elt F) arg8.view off00 inb_S2048x32_S2048x32_0_0 (k2_pay2 (F := F))
  have z9 := View.readCov_unit_zero (S := S2048x1) (Val := Elt F) arg9.view off00 inb_S2048x1_S2048x1_0_0 (k2_pay3 (F := F))
  isplitl [H8]
  · iexists _; isplitr
    swap; · iexact H8
    ipureintro
    refine (View.read_writes_eq_canon _ _ _ (cover_whole_head (S := S2048x32) off00 _ _ _)).trans ?_
    refine (View.canon_cons_unit_zero (S := S2048x32) off00 _ _ _).trans ?_
    sl_unfold_words
    exact (congrArg (fun a => k2_pay5 a _ _ _ _) b1).trans ((congrArg (fun a => k2_pay5 _ a _ _ _) b2).trans
      ((congrArg (fun a => k2_pay5 _ _ a _ _) b3).trans ((congrArg (fun a => k2_pay5 _ _ _ a _) b4).trans
        (congrArg (fun a => k2_pay5 _ _ _ _ a) z8))))
  iexists _; isplitr
  swap; · iexact H9
  ipureintro
  refine (View.read_writes_eq_canon _ _ _ (cover_whole_head (S := S2048x1) off00 _ _ _)).trans ?_
  refine (View.canon_cons_unit_zero (S := S2048x1) off00 _ _ _).trans ?_
  sl_unfold_words
  exact congrArg₂ k2_pay6 b4 z9

/-! ## The accumulators and the invariant, point by point -/

/-- After the first point: the first block's sums and counts, from zero. -/
theorem acc2_zero (c : Dev nD) (t : Fin cfg2.N) (hz : t.val = 0) :
    acc2 V c t.val t.isLt
      = (k2_pay5 (iblk2 V c 0 t) (iblk2 V c 1 t) (iblk2 V c 2 t) (iblk2 V c 3 t) (k2_pay2 (F := F)),
         k2_pay6 (iblk2 V c 3 t) (k2_pay3 (F := F))) := by
  obtain ⟨n, hn⟩ := t
  cases n with
  | zero => rfl
  | succ n => exact absurd hz (Nat.succ_ne_zero n)

/-- After a later point: this block's sums and counts added to what the point before left. -/
theorem acc2_pos (c : Dev nD) (t : Fin cfg2.N) (hz : t.val ≠ 0) :
    acc2 V c t.val t.isLt
      = (k2_pay5 (iblk2 V c 0 t) (iblk2 V c 1 t) (iblk2 V c 2 t) (iblk2 V c 3 t)
            (acc2 V c (t.val - 1) (Nat.lt_of_le_of_lt (Nat.sub_le _ _) t.isLt)).1,
         k2_pay6 (iblk2 V c 3 t) (acc2 V c (t.val - 1) (Nat.lt_of_le_of_lt (Nat.sub_le _ _) t.isLt)).2) := by
  obtain ⟨n, hn⟩ := t
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## Each input's current buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [show (dat2 V c).after 0 t = iblk2 V c 0 t from by dsimp only [dat2]]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [show (dat2 V c).after 1 t = iblk2 V c 1 t from by dsimp only [dat2]]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [show (dat2 V c).after 2 t = iblk2 V c 2 t from by dsimp only [dat2]]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [show (dat2 V c).after 3 t = iblk2 V c 3 t from by dsimp only [dat2]]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [show (dat2 V c).after 4 t = iblk2 V c 4 t from by dsimp only [dat2]]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [show (dat2 V c).after 5 t = iblk2 V c 5 t from by dsimp only [dat2]]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1000000 in
/-- The body at any point. The inputs' buffers hold their blocks; the point is the first, the last or a middle one
    (the two conditions in closed form), and that case's run applies: the invariant hands the body the accumulators
    at the sums and counts so far (at anything at the first point) and takes them back with this block's added; off
    the last point the output buffer goes back as it came; the other scoped buffers, the generator register and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [Phi2_castSucc V c t]
  by_cases h0 : t.val = 0
  · have hf : isFirst2 (grid2.coords t) := (hfirst2 t).mpr h0
    have hl : ¬ isLast2 (grid2.coords t) := fun h => by have := (hlast2 t).mp h; omega
    rw [Dat.leavesExact_idle (dat2 V c) 6 t (idle2_6 t hl) (noFlush2_6 t hl)]
    rw [Phi2_zero V c _ _ h0, PhiA2_eq, acc2_zero V c t h0]
    dsimp only
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run2_first c Set.univ (grid2.coords t) _ _ _ _ _ _ _ _ _ _ _ _ _ _ _ _ _ _ hf hl
      (iblk2 V c 0 t) (iblk2 V c 1 t) (iblk2 V c 2 t) (iblk2 V c 3 t) (iblk2 V c 4 t) (iblk2 V c 5 t)
      ((dat2 V c).before 6 t d6) e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h49 : t.val = 49
    · have hf : ¬ isFirst2 (grid2.coords t) := fun h => h0 ((hfirst2 t).mp h)
      have hl : isLast2 (grid2.coords t) := (hlast2 t).mpr h49
      rw [show (dat2 V c).leavesExact 6 t = owns (c : Thread nD τ) (st2_6 t) fullShare ((dat2 V c).after 6 t) from by
        unfold Dat.leavesExact; rw [live2_6 t hl], after2_6]
      unfold out2_6
      rw [Phi2_pos V c _ _ h0, acc2_pos V c t h0]
      dsimp only
      iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_last c Set.univ (grid2.coords t) _ _ _ _ _ _ _ _ _ _ _ _ _ _ _ _ _ _ hf hl
        (iblk2 V c 0 t) (iblk2 V c 1 t) (iblk2 V c 2 t) (iblk2 V c 3 t) (iblk2 V c 4 t) (iblk2 V c 5 t)
        ((dat2 V c).before 6 t d6) (acc2 V c (t.val - 1) _).1 (acc2 V c (t.val - 1) _).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      have hf : ¬ isFirst2 (grid2.coords t) := fun h => h0 ((hfirst2 t).mp h)
      have hl : ¬ isLast2 (grid2.coords t) := fun h => h49 ((hlast2 t).mp h)
      rw [Dat.leavesExact_idle (dat2 V c) 6 t (idle2_6 t hl) (noFlush2_6 t hl)]
      rw [Phi2_pos V c _ _ h0, acc2_pos V c t h0]
      dsimp only
      iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_mid c Set.univ (grid2.coords t) _ _ _ _ _ _ _ _ _ _ _ _ _ _ _ _ _ _ hf hl
        (iblk2 V c 0 t) (iblk2 V c 1 t) (iblk2 V c 2 t) (iblk2 V c 3 t) (iblk2 V c 4 t) (iblk2 V c 5 t)
        ((dat2 V c).before 6 t d6) (acc2 V c (t.val - 1) _).1 (acc2 V c (t.val - 1) _).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives the class invariant back: the sums and counts are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨Hr, HS0, HS1, Hg⟩
  isplitl [Hr HS0 HS1]
  · isplitl [HS0 HS1]
    · isplitl [HS0]
      · iexists _; iexact HS0
      iexists _; iexact HS1
    iexact Hr
  iexact Hg

/-- After the last point the invariant gives the class invariant back (the accumulators' contents forgotten). -/
theorem hout2 (c : Dev nD) : (dat2 V c).Φ (Fin.last cfg2.N) ⊢ Pipeline.ΦA spec2 c :=
  Phi2_out V c _ (by rw [Fin.val_last]; have : cfg2.N = 50 := N_2; omega)

end Cert.Kernel.Hand

end
-- ==== Proof.KwRun.lean ====
import proofs.«405506_j40140764349028_2_alg».proof.Proof.KwR0
import proofs.«405506_j40140764349028_2_alg».proof.Proof.KwR1
import proofs.«405506_j40140764349028_2_alg».proof.Proof.KwR2
import proofs.«405506_j40140764349028_2_alg».proof.Proof.Gen.Kernel.Regions

/-! The three regions as segments of @main, at any float instance. Between two items of @main the core's
unscoped buffers are held at the contents the items before have left: the launch memory, then each host
stretch applied, then — after a region — its output array at what the pipeline's write-backs leave
(`Dat.arrAt … N`). Each pipeline's proof data is taken at its region's entry contents; the thread state beside
the buffers is the generator register at some state and the core owing nothing. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## The contents at each region's entry, and what each region leaves -/

/-- Region 0's entry contents: the launch memory after the three host stretches before it. -/
abbrev E0 : (c : Dev nD) → (b : Ref sig .tc) → Buf (Elt F) ((c : Thread nD τ).loc b) := fun c b => Gen.V3 m c b

/-- What region 0's write-backs leave in its output array (the scaled first dense layer). -/
def res0 (c : Dev nD) : Buf (Elt F) ((c : Thread nD τ).loc main_v16) := (dat0 (E0 m) c).arrAt 3 cfg0.N

/-- The unknowns of the generated valuations with region 0's filled in (the later regions' not yet read). -/
def outsA : Gen.Outs (F := F) := fun _ r c =>
  if h : r = main_v16 then h ▸ res0 m c else m ((c : Thread nD τ).loc r)

/-- Region 1's entry contents. -/
abbrev E1 : (c : Dev nD) → (b : Ref sig .tc) → Buf (Elt F) ((c : Thread nD τ).loc b) := fun c b => Gen.V5 m (outsA m) c b

/-- What region 1 leaves in its output array (the scaled second dense layer). -/
def res1 (c : Dev nD) : Buf (Elt F) ((c : Thread nD τ).loc main_v28) := (dat1 (E1 m) c).arrAt 4 cfg1.N

def outsB : Gen.Outs (F := F) := fun _ r c =>
  if h : r = main_v16 then h ▸ res0 m c
  else if h : r = main_v28 then h ▸ res1 m c else m ((c : Thread nD τ).loc r)

/-- Region 2's entry contents. -/
abbrev E2 : (c : Dev nD) → (b : Ref sig .tc) → Buf (Elt F) ((c : Thread nD τ).loc b) := fun c b => Gen.V7 m (outsB m) c b

/-- What region 2 leaves in its output array: the program's result. -/
def res2 (c : Dev nD) : Buf (Elt F) ((c : Thread nD τ).loc main_v42) := (dat2 (E2 m) c).arrAt 6 cfg2.N

/-- Every region's unknown filled in. -/
def outs : Gen.Outs (F := F) := fun _ r c =>
  if h : r = main_v16 then h ▸ res0 m c
  else if h : r = main_v28 then h ▸ res1 m c
  else if h : r = main_v42 then h ▸ res2 m c else m ((c : Thread nD τ).loc r)

/-! ## The generated valuations at the filled-in unknowns are the staged entry contents -/

theorem V5_outs (c : Dev nD) : Gen.V5 m (outs m) c = Gen.V5 m (outsA m) c := by
  simp only [Gen.V5, Gen.V4, outs, outsA, dif_pos]

theorem V7_outs (c : Dev nD) : Gen.V7 m (outs m) c = Gen.V7 m (outsB m) c := by
  simp only [Gen.V7, Gen.V6, Gen.V5, Gen.V4, outs, outsB, dif_pos]

/-! ## The proof data family and the thread state -/

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- What rides beside the buffers through every item: the generator register at some state, the core owing nothing. -/
abbrev Beside (c : Dev nD) : sProp 𝕄 :=
  iprop((∃ r, prngReg c r) ∗ ∃ W, owes (c : Thread nD τ) (0 : CellTallies nD τ sig Unit) W)

abbrev besides : Fin 4 → Dev nD → sProp 𝕄 := fun _ c => Beside (F := F) c

/-- No level is assigned: no core owes another anything. -/
abbrev Lv0 : GSem nD τ sig → Finset Unit := fun _ => ∅
abbrev lv0 : GSem nD τ sig → Unit → ℕ := fun _ _ => 0

/-! ## Region 0 as a segment -/

/-- After region 0 every buffer but its output array is as the region found it. -/
theorem rest0 (c : Dev nD) : ∀ b, b ∉ Finset.univ.image (Pipeline.arrRef spec0) →
    (fun b : Ref sig .tc => Gen.V4 m (outs m) c b) b = E0 m c b := fun b hb =>
  Gen.V4_of m (outs m) c b (by
    intro h
    have hb' : b = main_v16 := by simpa using h
    exact hb (Finset.mem_image.mpr ⟨3, Finset.mem_univ _, hb'.symm ▸ rfl⟩))

/-- After region 0 each of its arrays holds what the pipeline leaves: the inputs as entered, the output at
    what the write-backs folded. -/
theorem left0 (c : Dev nD) (w : Fin cfg0.W) :
    (pdats m 0 c).arrAt w cfg0.N = (fun b : Ref sig .tc => Gen.V4 m (outs m) c b) (Pipeline.arrRef spec0 w) := by
  match w with
  | ⟨0, _⟩ => exact ((pdats m 0 c).arrAt_in 0 rfl _).trans ((A_eq0 (E0 m) c 0).trans (Gen.V4_of m (outs m) c _ (by decide)).symm)
  | ⟨1, _⟩ => exact ((pdats m 0 c).arrAt_in 1 rfl _).trans ((A_eq0 (E0 m) c 1).trans (Gen.V4_of m (outs m) c _ (by decide)).symm)
  | ⟨2, _⟩ => exact ((pdats m 0 c).arrAt_in 2 rfl _).trans ((A_eq0 (E0 m) c 2).trans (Gen.V4_of m (outs m) c _ (by decide)).symm)
  | ⟨3, _⟩ =>
    show res0 m c = Gen.V4 m (outs m) c main_v16
    simp only [Gen.V4, Function.update_self, outs, dif_pos]

-- the printed configuration is the library's pinned one once its definitions are unfolded
set_option backward.isDefEq.respectTransparency.types false in
/-- REGION 0 as a segment of @main: entered with every unscoped buffer at the contents after the first three host
    stretches, left with its output array at what its write-backs leave and every other buffer as entered. Its arrays
    are split out of the unscoped buffers at entry and put back at exit; the generator register passes through the
    invariant; nothing is owed; the kernel has no semaphore of its own. -/
def region0 : RegionSeg (pcfgs (F := F)) Gen.adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lv0 lv0 0 fun _ _ => rfl
  pre c := iprop(StableHlo.held (c : Thread nD τ) (Pipeline.ucRefs τ sig) (Gen.V3 m c) ∗ Beside (F := F) c)
  post c := iprop(StableHlo.held (c : Thread nD τ) (Pipeline.ucRefs τ sig) (Gen.V4 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b : Ref sig .tc => Gen.V4 m (outs m) c b) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem E1_eq (c : Dev nD) : (fun b : Ref sig .tc => Gen.V5 m (outs m) c b) = E1 m c := by
  funext b; exact congrFun (V5_outs m c) b

/-- After region 1 every buffer but its output array is as the region found it. -/
theorem rest1 (c : Dev nD) : ∀ b, b ∉ Finset.univ.image (Pipeline.arrRef spec1) →
    (fun b : Ref sig .tc => Gen.V6 m (outs m) c b) b = E1 m c b := fun b hb =>
  (Gen.V6_of m (outs m) c b (by
    intro h
    have hb' : b = main_v28 := by simpa using h
    exact hb (Finset.mem_image.mpr ⟨4, Finset.mem_univ _, hb'.symm ▸ rfl⟩))).trans (congrFun (E1_eq m c) b)

/-- After region 1 each of its arrays holds what the pipeline leaves. -/
theorem left1 (c : Dev nD) (w : Fin cfg1.W) :
    (pdats m 1 c).arrAt w cfg1.N = (fun b : Ref sig .tc => Gen.V6 m (outs m) c b) (Pipeline.arrRef spec1 w) := by
  have hin : ∀ w : Fin cfg1.W, (cfg1.win w).isOut = false → Pipeline.arrRef spec1 w ∉ ([main_v28] : List (Ref sig .tc)) →
      (pdats m 1 c).arrAt w cfg1.N = Gen.V6 m (outs m) c (Pipeline.arrRef spec1 w) := fun w hw hne =>
    ((pdats m 1 c).arrAt_in w hw _).trans ((A_eq1 (E1 m) c w).trans
      ((congrFun (E1_eq m c) _).symm.trans (Gen.V6_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show res1 m c = Gen.V6 m (outs m) c main_v28
    have h16 : ¬ ((main_v28 : Ref sig .tc) = main_v16) := by decide
    simp only [Gen.V6, Function.update_self, outs, dif_neg h16, dif_pos]

-- the printed configuration is the library's pinned one once its definitions are unfolded
set_option backward.isDefEq.respectTransparency.types false in
/-- REGION 1 as a segment of @main: entered with every unscoped buffer at the contents after the host stretch that
    follows region 0, left with its output array at what its write-backs leave and every other buffer as entered. Its arrays
    are split out of the unscoped buffers at entry and put back at exit; the generator register passes through the
    invariant; nothing is owed; the kernel has no semaphore of its own. -/
def region1 : RegionSeg (pcfgs (F := F)) Gen.adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lv0 lv0 1 fun _ _ => rfl
  pre c := iprop(StableHlo.held (c : Thread nD τ) (Pipeline.ucRefs τ sig) (Gen.V5 m (outs m) c) ∗ Beside (F := F) c)
  post c := iprop(StableHlo.held (c : Thread nD τ) (Pipeline.ucRefs τ sig) (Gen.V6 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, show Gen.V5 m (outs m) c = Gen.V5 m (outsA m) c from V5_outs m c]
    have hsplit := Pipeline.arrays_of_unscopedBufs (p := 1) (pcfgs (F := F)) Gen.adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b : Ref sig .tc => Gen.V6 m (outs m) c b) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem E2_eq (c : Dev nD) : (fun b : Ref sig .tc => Gen.V7 m (outs m) c b) = E2 m c := by
  funext b; exact congrFun (V7_outs m c) b

/-- After region 2 every buffer but its output array is as the region found it. -/
theorem rest2 (c : Dev nD) : ∀ b, b ∉ Finset.univ.image (Pipeline.arrRef spec2) →
    (fun b : Ref sig .tc => Gen.V8 m (outs m) c b) b = E2 m c b := fun b hb =>
  (Gen.V8_of m (outs m) c b (by
    intro h
    have hb' : b = main_v42 := by simpa using h
    exact hb (Finset.mem_image.mpr ⟨6, Finset.mem_univ _, hb'.symm ▸ rfl⟩))).trans (congrFun (E2_eq m c) b)

/-- After region 2 each of its arrays holds what the pipeline leaves. -/
theorem left2 (c : Dev nD) (w : Fin cfg2.W) :
    (pdats m 2 c).arrAt w cfg2.N = (fun b : Ref sig .tc => Gen.V8 m (outs m) c b) (Pipeline.arrRef spec2 w) := by
  have hin : ∀ w : Fin cfg2.W, (cfg2.win w).isOut = false → Pipeline.arrRef spec2 w ∉ ([main_v42] : List (Ref sig .tc)) →
      (pdats m 2 c).arrAt w cfg2.N = Gen.V8 m (outs m) c (Pipeline.arrRef spec2 w) := fun w hw hne =>
    ((pdats m 2 c).arrAt_in w hw _).trans ((A_eq2 (E2 m) c w).trans
      ((congrFun (E2_eq m c) _).symm.trans (Gen.V8_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    show res2 m c = Gen.V8 m (outs m) c main_v42
    have h16 : ¬ ((main_v42 : Ref sig .tc) = main_v16) := by decide
    have h28 : ¬ ((main_v42 : Ref sig .tc) = main_v28) := by decide
    simp only [Gen.V8, Function.update_self, outs, dif_neg h16, dif_neg h28, dif_pos]

-- the printed configuration is the library's pinned one once its definitions are unfolded
set_option backward.isDefEq.respectTransparency.types false in
/-- REGION 2 as a segment of @main: entered with every unscoped buffer at the contents after the host stretch that
    follows region 1, left with its output array at what its write-backs leave and every other buffer as entered. Its arrays
    are split out of the unscoped buffers at entry and put back at exit; the generator register and the scoped
    rest pass into the invariant, which holds the two accumulators at named contents between points and forgets them
    at the end; nothing is owed; the kernel has no semaphore of its own. -/
def region2 : RegionSeg (pcfgs (F := F)) Gen.adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ Lv0 lv0 2 fun _ _ => rfl
  pre c := iprop(StableHlo.held (c : Thread nD τ) (Pipeline.ucRefs τ sig) (Gen.V7 m (outs m) c) ∗ Beside (F := F) c)
  post c := iprop(StableHlo.held (c : Thread nD τ) (Pipeline.ucRefs τ sig) (Gen.V8 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, show Gen.V7 m (outs m) c = Gen.V7 m (outsB m) c from V7_outs m c]
    have hsplit := Pipeline.arrays_of_unscopedBufs (p := 2) (pcfgs (F := F)) Gen.adm (pdats m) launch2.win launch2.arr_whole c
      ((pdats m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (Gen.adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (E2 m) c)
  hout c := by
    have h2 : (Pipeline.ΦA spec2 c : sProp 𝕄)
        ⊢ iprop((∃ r, prngReg c r) ∗ Pipeline.ownSems0 (fun k : PEmpty => k.elim) c ∗ Pipeline.scopedRest spec2 c) := by
      rw [Pipeline.ownSems0_none]; unfold Pipeline.ΦA
      iintro ⟨Hr, Hp⟩
      isplitl [Hp]; · iexact Hp
      isplitr; · iempintro
      iexact Hr
    exact (hout2 (E2 m) c).trans h2
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b : Ref sig .tc => Gen.V8 m (outs m) c b) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame: every weakly fair execution of @main ends, nothing faulting, the arguments as launched -/

/-- The launch's ghost element yields the pipeline library's, and nothing else is dealt. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the state beside the buffers: the generator register as launched, the
    core owing nothing. -/
theorem launch_beside (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lv0 lv0)
      ⊢ (|={Set.univ}=> bigSep Finset.univ (besides (F := F) 0) : sProp 𝕄) := by
  refine Pipeline.initEach Lv0 lv0 fun c => ?_
  iintro ⟨⟨-, HO, -, Hp, -⟩, -⟩
  imodintro
  isplitl [Hp]; · iexists _; iexact Hp
  iexists ∅; iexact HO

-- the conditional frame at this program's three regions: its records are read off the conclusion
set_option backward.isDefEq.respectTransparency.types false in
/-- THE FRAME of the program at any float instance: from any memory with zero counters every weakly fair execution of
    @main terminates, nothing faulting, and each argument array ends as launched — the generated conditional frame at
    the three regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (F := F) m emb₁ () Variants.none Lv0 lv0 (fun _ _ => rfl) ρ (outs m) (pdats m) 0 (fun _ => iprop(emp))
    (initOf (Pipeline.cells cfgs cellOf_inj) (Pipeline.launchToks cfgs cellOf_inj)) launch_elem
    besides (launch_beside ρ) (fun c => by iintro ⟨-, H⟩; iexact H)
    (region0 m) (fun _ => .rfl) (fun _ => .rfl) (region1 m) (fun _ => .rfl) (fun _ => .rfl) (region2 m) (fun _ => .rfl) (fun _ => .rfl)

end Cert.Kernel.Hand

end
-- ==== Proof.KiR0.lean ====
import proofs.«405506_j40140764349028_2_alg».proof.Proof.Gen.KernelIdeal.Launch
import proofs.«405506_j40140764349028_2_alg».proof.Proof.Gen.KernelIdeal.Skeleton
import proofs.«405506_j40140764349028_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! Region 0 (the first dense layer, x·W1 scaled row-wise by the degree factor), at any float instance:
what each window's staging buffer holds at a grid point, the body's triple, the pipeline's proof data and
the body obligation, all stated at a PARAMETER `V`: the buffers' contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one store of the body covers the whole output block. -/
abbrev rOut0 : Rect S5000x32 := Rect.unit (s := S5000x32) ![0, 0] S5000x32.size inb_S5000x32_S5000x32_0_0

/-- What the body leaves in the output window's buffer, from the three input blocks. -/
def out0_3 (x0 : Vec F S5000x128 .f32) (x1 : Vec F S128x32 .f32) (x2 : Vec F S5000x1 .f32) : Vec F S5000x32 .f32 :=
  k0_pay1 x0 x1 x2

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The zero offsets of a whole-block access, however they are spelt. -/
theorem zeroOff2 : (![0, 0] : Fin 2 → Nat) = fun _ => 0 := funext fun a => by fin_cases a <;> rfl

/-- An input window's staging buffer holds its block at every point, fetched there or not: unfetched, the block
    index has not moved (the weight matrix is fetched once, at the first point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

set_option maxHeartbeats 1000000 in
/-- The body on whole staging buffers, the three inputs' at contents `x0 x1 x2` and the output's at anything, runs to
    the continuation holding the inputs' as they were and the output's at the scaled product of the inputs. The
    output buffer is read once before it is overwritten; what is read is never used. -/
theorem sound_kernel0 (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S5000x1 .f32) (harg3 : arg3.IsWhole)
    (arg4 : Memref sig .tc .vmem S5000x32 .f32) (harg4 : arg4.IsWhole)
    (x0 : Vec F S5000x128 .f32) (x1 : Vec F S128x32 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
    (fun y => ⟨_, List.mem_singleton_self _, View.mem_set_unit_zero zeroOff2 inb_S5000x32_S5000x32_0_0 y⟩),
    View.canon_unit_zero zeroOff2]
  simp only [View.readAt_eq_ld, View.ld_unit_zero (S := S5000x128) zeroOff2,
    View.ld_unit_zero (S := S128x32) zeroOff2, View.ld_unit_zero (S := S5000x1) zeroOff2]
  rfl

/-- What the body is called with at point `t`: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
import proofs.«405506_j40140764349028_2_alg».proof.Proof.Gen.KernelIdeal.Launch
import proofs.«405506_j40140764349028_2_alg».proof.Proof.Gen.KernelIdeal.Skeleton
import proofs.«405506_j40140764349028_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 1 (the first layer's epilogue — row scale, bias, relu — fused with the second dense layer and its own row scale), at any float instance: what each window's staging buffer holds at a grid point, the pipeline's proof data and the body obligation, at a PARAMETER `V`: the buffers' contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer, from the four input blocks (the row-scale block is
    loaded twice: once for the epilogue, once for the second layer's scale). -/
def out1_4 (x0 : Vec F S5000x32 .f32) (x1 : Vec F S5000x1 .f32) (x2 : Vec F S1x32 .f32) (x3 : Vec F S32x32 .f32) : Vec F S5000x32 .f32 :=
  k1_pay1 x0 x1 x2 x3 x1

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## Each input window's staging buffer holds its block -/

/-- The block of aggregated first-layer features is in its staging buffer at every point, fetched there or not: where
    a window is not fetched its block index has not moved. -/
theorem staged_sums_block (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The row-scale block (the reciprocal square roots of the in-degrees of the point's rows), likewise. -/
theorem staged_scale_block (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The first layer's bias row, fetched at the first point only and unmoved after, likewise. -/
theorem staged_bias_row (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The second layer's weight matrix, fetched at the first point only and unmoved after, likewise. -/
theorem staged_weight (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's triple -/

/-- The offsets of a whole-buffer access are zero on both axes. -/
theorem whole_offsets_zero : (![0, 0] : Fin 2 → Nat) = fun _ => 0 := funext fun a => by fin_cases a <;> rfl

/-- The one store of the body is through the whole rectangle of the output buffer, so it covers it. -/
theorem whole_store_covers (p : Vec F S5000x32 .f32) (y : S5000x32.Idx) :
    ∃ pc ∈ ([⟨Rect.unit (s := S5000x32) ![0, 0] S5000x32.size inb_S5000x32_S5000x32_0_0, p⟩] : List (View.Piece (Elt F) S5000x32 .f32)), y ∈ pc.1.set :=
  ⟨_, List.mem_singleton_self _, View.mem_set_unit_zero whole_offsets_zero inb_S5000x32_S5000x32_0_0 y⟩

set_option maxHeartbeats 1000000 in
/-- The body on whole staging buffers, the four inputs' at contents `x0 … x3` and the output's at anything, runs to
    the continuation holding the inputs' as they were and the output's at `out1_4` of them. -/
theorem epilogue_layer_triple (c : Dev nD) (E : Set ℕ) (i : grid1.Coords)
    (arg1 : Memref sig .tc .vmem S5000x32 .f32) (harg1 : arg1.IsWhole) (arg2 : Memref sig .tc .vmem S5000x1 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S5000x32 .f32) (harg5 : arg5.IsWhole)
    (x0 : Vec F S5000x32 .f32) (x1 : Vec F S5000x1 .f32) (x2 : Vec F S1x32 .f32) (x3 : Vec F S32x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__linear_epilogue_kernel i arg1 harg1 arg2 harg2 arg3 harg3 arg4 harg4 arg5 harg5) K := by
  simp only [cc1__linear_epilogue_kernel_eq_skeleton]; unfold cc1__linear_epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold out1_4
  rw [View.read_writes_eq_canon _ _ _ (whole_store_covers _), View.canon_unit_zero whole_offsets_zero]
  simp only [View.readAt_eq_ld, View.ld_unit_zero (S := S5000x32) whole_offsets_zero, View.ld_unit_zero (S := S5000x1) whole_offsets_zero,
    View.ld_unit_zero (S := S1x32) whole_offsets_zero, View.ld_unit_zero (S := S32x32) whole_offsets_zero]

/-! ## The body obligation, at a generic point -/

/-- What the body is called with at point `t`: the invariant, what the core owes, and each window's staging buffer, -/
def epilogue_layer_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def epilogue_layer_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem epilogue_layer_at_point (c : Dev nD) (t : Fin cfg1.N) :
    epilogue_layer_pre V c t ⊢ wp frame (wpE (defs₀ (F := F)) Variants.none c none) Set.univ (bodyAt1 t) (fun _ => epilogue_layer_post V c t) := by
  unfold epilogue_layer_pre epilogue_layer_post bodyAt1
  simp only [staged_sums_block, staged_scale_block, staged_bias_row, staged_weight]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (epilogue_layer_triple c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact epilogue_layer_at_point V c t

end Cert.KernelIdeal.Hand

end
-- ==== Proof.KiR2.lean ====
import proofs.«405506_j40140764349028_2_alg».proof.Proof.Gen.KernelIdeal.Launch
import proofs.«405506_j40140764349028_2_alg».proof.Proof.Gen.KernelIdeal.Skeleton
import proofs.«405506_j40140764349028_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! Region 2 (the second layer's epilogue fused with mean pooling by a one-hot product accumulated over the 50 row blocks in two carried scratch accumulators, and the final projection at the last block), at any float instance: the blocks, the accumulators point by point, the pipeline's proof data (its invariant holds the two accumulators at named contents between points), the body obligation, at a PARAMETER `V`: the buffers' contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows of its array the point works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two carried accumulators (segment sums, segment counts) after the body at point `n`: the first point
    resets them to zero and adds its block's partial sums; every later point adds its own to what the point
    before left. -/
def acc2 (c : Dev nD) : (n : ℕ) → n < cfg2.N → Vec F S2048x32 .f32 × Vec F S2048x1 .f32
  | 0, hn =>
    (k2_pay5 (iblk2 V c 0 ⟨0, hn⟩) (iblk2 V c 1 ⟨0, hn⟩) (iblk2 V c 2 ⟨0, hn⟩) (iblk2 V c 3 ⟨0, hn⟩) (k2_pay2 (F := F)),
     k2_pay6 (iblk2 V c 3 ⟨0, hn⟩) (k2_pay3 (F := F)))
  | n + 1, hn =>
    (k2_pay5 (iblk2 V c 0 ⟨n + 1, hn⟩) (iblk2 V c 1 ⟨n + 1, hn⟩) (iblk2 V c 2 ⟨n + 1, hn⟩) (iblk2 V c 3 ⟨n + 1, hn⟩)
        (acc2 c n (Nat.lt_of_succ_lt hn)).1,
     k2_pay6 (iblk2 V c 3 ⟨n + 1, hn⟩) (acc2 c n (Nat.lt_of_succ_lt hn)).2)

/-- What the last point stores in the output window's buffer: the projection of the per-segment means. (The
    field is consulted only where the window is not idle, that is at the last point.) -/
def out2_6 (c : Dev nD) (t : Fin cfg2.N) : Vec F S2048x1 .f32 :=
  k2_pay1 (acc2 V c t.val t.isLt).1 (acc2 V c t.val t.isLt).2 (iblk2 V c 4 t) (iblk2 V c 5 t)

/-- The scoped buffers of the core that are neither staging buffers of this region's windows nor its two
    accumulators (the staging buffers of the other two regions' windows), each at some contents: carried unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region's invariant before point `n`: before the first point the class invariant (every scoped buffer that
    is no staging buffer at anything, the generator register at some state); before point `n + 1` the same with the
    segment sums and the segment counts named: the two accumulators at what point `n` left in them. -/
def Phi2 (c : Dev nD) : (n : ℕ) → n ≤ cfg2.N → sProp 𝕄
  | 0, _ => Pipeline.ΦA spec2 c
  | n + 1, hn => iprop(others2 (F := F) c
      ∗ owns (c : Thread nD τ) (Memref.whole cc2_scratch0) fullShare (acc2 V c n hn).1
      ∗ owns (c : Thread nD τ) (Memref.whole cc2_scratch1) fullShare (acc2 V c n hn).2 ∗ (∃ r, prngReg c r))

theorem Phi2_zero (c : Dev nD) (n : ℕ) (h : n ≤ cfg2.N) (hz : n = 0) : Phi2 V c n h = Pipeline.ΦA spec2 c := by
  subst hz; rfl

/-- After point `n`: the accumulators at that point's sums and counts. -/
theorem Phi2_succ (c : Dev nD) (n : ℕ) (hn : n < cfg2.N) :
    Phi2 V c (n + 1) hn = iprop(others2 (F := F) c
      ∗ owns (c : Thread nD τ) (Memref.whole cc2_scratch0) fullShare (acc2 V c n hn).1
      ∗ owns (c : Thread nD τ) (Memref.whole cc2_scratch1) fullShare (acc2 V c n hn).2 ∗ (∃ r, prngReg c r)) := rfl

/-- Before a point that is not the first: the accumulators at what the point before left. -/
theorem Phi2_pos (c : Dev nD) (n : ℕ) (h : n ≤ cfg2.N) (hz : n ≠ 0) :
    Phi2 V c n h = iprop(others2 (F := F) c
      ∗ owns (c : Thread nD τ) (Memref.whole cc2_scratch0) fullShare (acc2 V c (n - 1) (by omega)).1
      ∗ owns (c : Thread nD τ) (Memref.whole cc2_scratch1) fullShare (acc2 V c (n - 1) (by omega)).2 ∗ (∃ r, prngReg c r)) := by
  cases n with
  | zero => exact absurd rfl hz
  | succ n => rfl

/-- The class invariant with the two accumulators taken out of the scoped rest, each owned whole at some contents. -/
theorem PhiA2_eq (c : Dev nD) :
    (Pipeline.ΦA spec2 c : sProp 𝕄)
      = iprop(iprop(iprop((∃ d, owns (c : Thread nD τ) (Memref.whole cc2_scratch0) fullShare d)
            ∗ (∃ d, owns (c : Thread nD τ) (Memref.whole cc2_scratch1) fullShare d)) ∗ others2 (F := F) c)
          ∗ (∃ r, prngReg c r)) := by
  unfold Pipeline.ΦA
  rw [Pipeline.scopedRest_split_of_list spec2 c [cc2_scratch0, cc2_scratch1] (by decide) (by decide)]
  simp only [owns_whole, bigSepL_cons_cons, bigSepL_singleton]; try rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## The body's two conditions and where the output window is idle -/

/-- The body's first condition: the row block is the first one (the accumulators are then reset to zero). -/
abbrev isFirst2 (i : grid2.Coords) : Prop :=
  (Scalar.cmpi .ne (Scalar.extui (Scalar.cmpi .eq (BitVec.ofNat 32 (i 0).val) 0#32)) 0#32) = 1#1
/-- It holds at the first point only. -/
theorem hfirst2 : ∀ t : Fin cfg2.N, isFirst2 (grid2.coords t) ↔ t.val = 0 :=
  (by decide +kernel : ∀ t : Fin grid2.N, isFirst2 (grid2.coords t) ↔ t.val = 0)

/-- The body's second condition: the row block is the last one (the means are then projected and stored). -/
abbrev isLast2 (i : grid2.Coords) : Prop := k2_cond2 i = 1#1
/-- It holds at the last point only. -/
theorem hlast2 : ∀ t : Fin cfg2.N, isLast2 (grid2.coords t) ↔ t.val = 49 :=
  (by decide +kernel : ∀ t : Fin grid2.N, isLast2 (grid2.coords t) ↔ t.val = 49)

/-- The six input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
/-- Off the last row block the output window is idle (nothing is stored into it), -/
theorem idle2_6 : ∀ t : Fin cfg2.N, ¬isLast2 (grid2.coords t) → cfg2.idle 6 (grid2.coords t) = true := by decide +kernel
/-- and its block is not written back there; -/
theorem noFlush2_6 : ∀ t : Fin cfg2.N, ¬isLast2 (grid2.coords t) → (cfg2.win 6).flush t = false := by decide +kernel
/-- at the last row block it is live. -/
theorem live2_6 : ∀ t : Fin cfg2.N, isLast2 (grid2.coords t) → cfg2.idle 6 (grid2.coords t) = false := by decide +kernel

/-! ## The body on whole buffers, case by case -/

/-- Every access of this kernel is of a whole buffer: its offset is zero on both axes. -/
theorem off00 : (![0, 0] : Fin 2 → ℕ) = fun _ => 0 := by funext a; fin_cases a <;> rfl

/-- A list of stores whose LAST store (its head) is of the whole buffer covers every index, whatever was stored
    and whatever the earlier stores were. -/
theorem cover_whole_head {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A MIDDLE row block (neither the first nor the last): from the six input buffers at their blocks and the
    accumulators at the sums `s0` and counts `s1` so far, the body leaves the accumulators at the sums and counts with
    this block's added, every input buffer as it was, and the output buffer as it was (nothing is stored into it). -/
theorem run2_mid (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : ¬ isFirst2 i) (hl : ¬ isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hf | exact hl)
  have h8 : View.read (Elt F) arg8.view (arg8.view.writes (Elt F) (harg8.unread s0)
      [⟨Rect.unit ![0, 0] S2048x32.size inb_S2048x32_S2048x32_0_0,
          k2_pay5
            (View.readAt (Elt F) arg1.view (Rect.unit ![0, 0] S2000x32.size inb_S2000x32_S2000x32_0_0).toLoadRect (harg1.unread x0))
            (View.readAt (Elt F) arg2.view (Rect.unit ![0, 0] S2000x1.size inb_S2000x1_S2000x1_0_0).toLoadRect (harg2.unread x1))
            (View.readAt (Elt F) arg3.view (Rect.unit ![0, 0] S1x32.size inb_S1x32_S1x32_0_0).toLoadRect (harg3.unread x2))
            (View.readAt (Elt F) arg4.view (Rect.unit ![0, 0] S2000x1.size inb_S2000x1_S2000x1_0_0).toLoadRect (harg4.unread x3))
            (View.readAt (Elt F) arg8.view (Rect.unit ![0, 0] S2048x32.size inb_S2048x32_S2048x32_0_0).toLoadRect (harg8.unread s0))⟩])
      = k2_pay5 x0 x1 x2 x3 s0 := by
    rw [View.read_writes_eq_canon _ _ _ (View.cover_of_tiled _ S2048x32.size (by rfl)), View.canon_unit_zero off00]
    simp only [View.readAt_eq_ld, harg1.read_unread, harg2.read_unread, harg3.read_unread, harg4.read_unread, harg8.read_unread,
      View.ld_unit_zero (S := S2000x32) off00, View.ld_unit_zero (S := S2000x1) off00, View.ld_unit_zero (S := S1x32) off00,
      View.ld_unit_zero (S := S2048x32) off00]
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro; exact h8
  iexists _; isplitr
  swap; · iexact H9
  ipureintro
  refine (View.read_writes_eq_canon _ _ _ (View.cover_of_tiled _ S2048x1.size (by rfl))).trans ?_
  refine (View.canon_unit_zero (S := S2048x1) off00 _ _).trans ?_
  dsimp only
  simp only [View.readAt_eq_ld, harg4.read_unread, harg9.read_unread]
  exact congrArg₂ k2_pay6 (View.ld_unit_zero (S := S2000x1) off00 _ x3) (View.ld_unit_zero (S := S2048x1) off00 _ s1)

set_option maxHeartbeats 1000000 in
/-- The LAST row block: as a middle block for the accumulators (this block's partial sums and counts added to
    `s0`, `s1`), and then the output buffer, whatever it held, is left at the projection of the per-segment means
    computed from the accumulators as just stored and the two parameter blocks `x4`, `x5`; every input buffer as it was. -/
theorem run2_last (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : ¬ isFirst2 i) (hl : isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay1 (k2_pay5 x0 x1 x2 x3 s0) (k2_pay6 x3 s1) x4 x5) ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_eq_canon _ _ _ (View.cover_of_tiled _ S2048x1.size (by rfl))).trans ?_
    refine (View.canon_unit_zero (S := S2048x1) off00 _ _).trans ?_
    sl_unfold_words
    have a1 := (View.readCov_unit_zero (S := S2048x32) (Val := Elt F) arg8.view off00 inb_S2048x32_S2048x32_0_0
        (k2_pay5
          (View.readAt (Elt F) arg1.view (Rect.unit ![0, 0] S2000x32.size inb_S2000x32_S2000x32_0_0).toLoadRect (harg1.unread x0))
          (View.readAt (Elt F) arg2.view (Rect.unit ![0, 0] S2000x1.size inb_S2000x1_S2000x1_0_0).toLoadRect (harg2.unread x1))
          (View.readAt (Elt F) arg3.view (Rect.unit ![0, 0] S1x32.size inb_S1x32_S1x32_0_0).toLoadRect (harg3.unread x2))
          (View.readAt (Elt F) arg4.view (Rect.unit ![0, 0] S2000x1.size inb_S2000x1_S2000x1_0_0).toLoadRect (harg4.unread x3))
          (View.readAt (Elt F) arg8.view (Rect.unit ![0, 0] S2048x32.size inb_S2048x32_S2048x32_0_0).toLoadRect (harg8.unread s0)))).trans
      (show _ = k2_pay5 x0 x1 x2 x3 s0 by
        simp only [View.readAt_eq_ld, harg1.read_unread, harg2.read_unread, harg3.read_unread, harg4.read_unread, harg8.read_unread,
          View.ld_unit_zero (S := S2000x32) off00, View.ld_unit_zero (S := S2000x1) off00, View.ld_unit_zero (S := S1x32) off00,
          View.ld_unit_zero (S := S2048x32) off00])
    have a2 := (View.readCov_unit_zero (S := S2048x1) (Val := Elt F) arg9.view off00 inb_S2048x1_S2048x1_0_0
        (k2_pay6
          (View.readAt (Elt F) arg4.view (Rect.unit ![0, 0] S2000x1.size inb_S2000x1_S2000x1_0_0).toLoadRect (harg4.unread x3))
          (View.readAt (Elt F) arg9.view (Rect.unit ![0, 0] S2048x1.size inb_S2048x1_S2048x1_0_0).toLoadRect (harg9.unread s1)))).trans
      (show _ = k2_pay6 x3 s1 by
        simp only [View.readAt_eq_ld, harg4.read_unread, harg9.read_unread]
        exact congrArg₂ k2_pay6 (View.ld_unit_zero (S := S2000x1) off00 _ x3) (View.ld_unit_zero (S := S2048x1) off00 _ s1))
    have a3 : View.readAt (Elt F) arg5.view (Rect.unit ![0, 0] S32x1.size inb_S32x1_S32x1_0_0).toLoadRect (harg5.unread x4) = x4 := by
      rw [View.readAt_eq_ld, harg5.read_unread]; exact View.ld_unit_zero (S := S32x1) off00 _ x4
    have a4 : View.readAt (Elt F) arg6.view (Rect.unit ![0, 0] S1x1.size inb_S1x1_S1x1_0_0).toLoadRect (harg6.unread x5) = x5 := by
      rw [View.readAt_eq_ld, harg6.read_unread]; exact View.ld_unit_zero (S := S1x1) off00 _ x5
    exact (congrArg (fun a => k2_pay1 a _ _ _) a1).trans ((congrArg (fun b => k2_pay1 _ b _ _) a2).trans
      ((congrArg (fun d => k2_pay1 _ _ d _) a3).trans (congrArg (fun e => k2_pay1 _ _ _ e) a4)))
  isplitl [H8]
  · iexists _; isplitr
    swap; · iexact H8
    ipureintro
    sl_unfold_words
    refine (View.read_writes_eq_canon _ _ _ (View.cover_of_tiled _ S2048x32.size (by rfl))).trans ?_
    refine (View.canon_unit_zero (S := S2048x32) off00 _ _).trans ?_
    simp only [View.readAt_eq_ld, harg1.read_unread, harg2.read_unread, harg3.read_unread, harg4.read_unread, harg8.read_unread,
      View.ld_unit_zero (S := S2000x32) off00, View.ld_unit_zero (S := S2000x1) off00, View.ld_unit_zero (S := S1x32) off00,
      View.ld_unit_zero (S := S2048x32) off00]
  iexists _; isplitr
  swap; · iexact H9
  ipureintro
  sl_unfold_words
  refine (View.read_writes_eq_canon _ _ _ (View.cover_of_tiled _ S2048x1.size (by rfl))).trans ?_
  refine (View.canon_unit_zero (S := S2048x1) off00 _ _).trans ?_
  dsimp only
  simp only [View.readAt_eq_ld, harg4.read_unread, harg9.read_unread]
  exact congrArg₂ k2_pay6 (View.ld_unit_zero (S := S2000x1) off00 _ x3) (View.ld_unit_zero (S := S2048x1) off00 _ s1)

set_option maxHeartbeats 1000000 in
/-- The FIRST row block: whatever the accumulators held, they are reset to zero and left at this block's partial
    sums and counts (the sums and counts of the blocks so far, from zero); every input buffer as it was, and the
    output buffer as it was (nothing is stored into it). -/
theorem run2_first (c : Dev nD) (E : Set ℕ) (i : grid2.Coords)
    (arg1 : Memref sig .tc .vmem S2000x32 .f32) (harg1 : arg1.IsWhole) (arg2 : Memref sig .tc .vmem S2000x1 .f32) (harg2 : arg2.IsWhole)
    (arg3 : Memref sig .tc .vmem S1x32 .f32) (harg3 : arg3.IsWhole) (arg4 : Memref sig .tc .vmem S2000x1 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S2048x1 .f32) (harg7 : arg7.IsWhole) (arg8 : Memref sig .tc .vmem S2048x32 .f32) (harg8 : arg8.IsWhole)
    (arg9 : Memref sig .tc .vmem S2048x1 .f32) (harg9 : arg9.IsWhole)
    (hf : isFirst2 i) (hl : ¬ isLast2 i)
    (x0 : Vec F S2000x32 .f32) (x1 : Vec F S2000x1 .f32) (x2 : Vec F S1x32 .f32) (x3 : Vec F S2000x1 .i32)
    (x4 : Vec F S32x1 .f32) (x5 : Vec F S1x1 .f32) (xi6 : Vec F S2048x1 .f32) (s0 : Vec F S2048x32 .f32) (s1 : Vec F S2048x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k2_pay5 x0 x1 x2 x3 (k2_pay2 (F := F)))
            ∗ owns (c : Thread nD τ) arg9 fullShare (k2_pay6 x3 (k2_pay3 (F := F)))) -∗ K ⟨⟩))
      ⊢ wp frame (wpE (defs₀ (F := F)) Variants.none c none) E
          (cc2__agg_pool_kernel i arg1 harg1 arg2 harg2 arg3 harg3 arg4 harg4 arg5 harg5 arg6 harg6 arg7 harg7 arg8 harg8 arg9 harg9) K := by
  simp only [cc2__agg_pool_kernel_eq_skeleton]; unfold cc2__agg_pool_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  have b1 : View.readAt (Elt F) arg1.view (Rect.unit ![0, 0] S2000x32.size inb_S2000x32_S2000x32_0_0).toLoadRect (harg1.unread x0) = x0 := by
    rw [View.readAt_eq_ld, harg1.read_unread]; exact View.ld_unit_zero (S := S2000x32) off00 _ x0
  have b2 : View.readAt (Elt F) arg2.view (Rect.unit ![0, 0] S2000x1.size inb_S2000x1_S2000x1_0_0).toLoadRect (harg2.unread x1) = x1 := by
    rw [View.readAt_eq_ld, harg2.read_unread]; exact View.ld_unit_zero (S := S2000x1) off00 _ x1
  have b3 : View.readAt (Elt F) arg3.view (Rect.unit ![0, 0] S1x32.size inb_S1x32_S1x32_0_0).toLoadRect (harg3.unread x2) = x2 := by
    rw [View.readAt_eq_ld, harg3.read_unread]; exact View.ld_unit_zero (S := S1x32) off00 _ x2
  have b4 : View.readAt (Elt F) arg4.view (Rect.unit ![0, 0] S2000x1.size inb_S2000x1_S2000x1_0_0).toLoadRect (harg4.unread x3) = x3 := by
    rw [View.readAt_eq_ld, harg4.read_unread]; exact View.ld_unit_zero (S := S2000x1) off00 _ x3
  have z8 := View.readCov_unit_zero (S := S2048x32) (Val := Elt F) arg8.view off00 inb_S2048x32_S2048x32_0_0 (k2_pay2 (F := F))
  have z9 := View.readCov_unit_zero (S := S2048x1) (Val := Elt F) arg9.view off00 inb_S2048x1_S2048x1_0_0 (k2_pay3 (F := F))
  isplitl [H8]
  · iexists _; isplitr
    swap; · iexact H8
    ipureintro
    refine (View.read_writes_eq_canon _ _ _ (cover_whole_head (S := S2048x32) off00 _ _ _)).trans ?_
    refine (View.canon_cons_unit_zero (S := S2048x32) off00 _ _ _).trans ?_
    sl_unfold_words
    exact (congrArg (fun a => k2_pay5 a _ _ _ _) b1).trans ((congrArg (fun a => k2_pay5 _ a _ _ _) b2).trans
      ((congrArg (fun a => k2_pay5 _ _ a _ _) b3).trans ((congrArg (fun a => k2_pay5 _ _ _ a _) b4).trans
        (congrArg (fun a => k2_pay5 _ _ _ _ a) z8))))
  iexists _; isplitr
  swap; · iexact H9
  ipureintro
  refine (View.read_writes_eq_canon _ _ _ (cover_whole_head (S := S2048x1) off00 _ _ _)).trans ?_
  refine (View.canon_cons_unit_zero (S := S2048x1) off00 _ _ _).trans ?_
  sl_unfold_words
  exact congrArg₂ k2_pay6 b4 z9

/-! ## The accumulators and the invariant, point by point -/

/-- After the first point: the first block's sums and counts, from zero. -/
theorem acc2_zero (c : Dev nD) (t : Fin cfg2.N) (hz : t.val = 0) :
    acc2 V c t.val t.isLt
      = (k2_pay5 (iblk2 V c 0 t) (iblk2 V c 1 t) (iblk2 V c 2 t) (iblk2 V c 3 t) (k2_pay2 (F := F)),
         k2_pay6 (iblk2 V c 3 t) (k2_pay3 (F := F))) := by
  obtain ⟨n, hn⟩ := t
  cases n with
  | zero => rfl
  | succ n => exact absurd hz (Nat.succ_ne_zero n)

/-- After a later point: this block's sums and counts added to what the point before left. -/
theorem acc2_pos (c : Dev nD) (t : Fin cfg2.N) (hz : t.val ≠ 0) :
    acc2 V c t.val t.isLt
      = (k2_pay5 (iblk2 V c 0 t) (iblk2 V c 1 t) (iblk2 V c 2 t) (iblk2 V c 3 t)
            (acc2 V c (t.val - 1) (Nat.lt_of_le_of_lt (Nat.sub_le _ _) t.isLt)).1,
         k2_pay6 (iblk2 V c 3 t) (acc2 V c (t.val - 1) (Nat.lt_of_le_of_lt (Nat.sub_le _ _) t.isLt)).2) := by
  obtain ⟨n, hn⟩ := t
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## Each input's current buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [show (dat2 V c).after 0 t = iblk2 V c 0 t from by dsimp only [dat2]]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [show (dat2 V c).after 1 t = iblk2 V c 1 t from by dsimp only [dat2]]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [show (dat2 V c).after 2 t = iblk2 V c 2 t from by dsimp only [dat2]]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [show (dat2 V c).after 3 t = iblk2 V c 3 t from by dsimp only [dat2]]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [show (dat2 V c).after 4 t = iblk2 V c 4 t from by dsimp only [dat2]]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [show (dat2 V c).after 5 t = iblk2 V c 5 t from by dsimp only [dat2]]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1000000 in
/-- The body at any point. The inputs' buffers hold their blocks; the point is the first, the last or a middle one
    (the two conditions in closed form), and that case's run applies: the invariant hands the body the accumulators
    at the sums and counts so far (at anything at the first point) and takes them back with this block's added; off
    the last point the output buffer goes back as it came; the other scoped buffers, the generator register and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [Phi2_castSucc V c t]
  by_cases h0 : t.val = 0
  · have hf : isFirst2 (grid2.coords t) := (hfirst2 t).mpr h0
    have hl : ¬ isLast2 (grid2.coords t) := fun h => by have := (hlast2 t).mp h; omega
    rw [Dat.leavesExact_idle (dat2 V c) 6 t (idle2_6 t hl) (noFlush2_6 t hl)]
    rw [Phi2_zero V c _ _ h0, PhiA2_eq, acc2_zero V c t h0]
    dsimp only
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run2_first c Set.univ (grid2.coords t) _ _ _ _ _ _ _ _ _ _ _ _ _ _ _ _ _ _ hf hl
      (iblk2 V c 0 t) (iblk2 V c 1 t) (iblk2 V c 2 t) (iblk2 V c 3 t) (iblk2 V c 4 t) (iblk2 V c 5 t)
      ((dat2 V c).before 6 t d6) e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h49 : t.val = 49
    · have hf : ¬ isFirst2 (grid2.coords t) := fun h => h0 ((hfirst2 t).mp h)
      have hl : isLast2 (grid2.coords t) := (hlast2 t).mpr h49
      rw [show (dat2 V c).leavesExact 6 t = owns (c : Thread nD τ) (st2_6 t) fullShare ((dat2 V c).after 6 t) from by
        unfold Dat.leavesExact; rw [live2_6 t hl], after2_6]
      unfold out2_6
      rw [Phi2_pos V c _ _ h0, acc2_pos V c t h0]
      dsimp only
      iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_last c Set.univ (grid2.coords t) _ _ _ _ _ _ _ _ _ _ _ _ _ _ _ _ _ _ hf hl
        (iblk2 V c 0 t) (iblk2 V c 1 t) (iblk2 V c 2 t) (iblk2 V c 3 t) (iblk2 V c 4 t) (iblk2 V c 5 t)
        ((dat2 V c).before 6 t d6) (acc2 V c (t.val - 1) _).1 (acc2 V c (t.val - 1) _).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      have hf : ¬ isFirst2 (grid2.coords t) := fun h => h0 ((hfirst2 t).mp h)
      have hl : ¬ isLast2 (grid2.coords t) := fun h => h49 ((hlast2 t).mp h)
      rw [Dat.leavesExact_idle (dat2 V c) 6 t (idle2_6 t hl) (noFlush2_6 t hl)]
      rw [Phi2_pos V c _ _ h0, acc2_pos V c t h0]
      dsimp only
      iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_mid c Set.univ (grid2.coords t) _ _ _ _ _ _ _ _ _ _ _ _ _ _ _ _ _ _ hf hl
        (iblk2 V c 0 t) (iblk2 V c 1 t) (iblk2 V c 2 t) (iblk2 V c 3 t) (iblk2 V c 4 t) (iblk2 V c 5 t)
        ((dat2 V c).before 6 t d6) (acc2 V c (t.val - 1) _).1 (acc2 V c (t.val - 1) _).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives the class invariant back: the sums and counts are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨Hr, HS0, HS1, Hg⟩
  isplitl [Hr HS0 HS1]
  · isplitl [HS0 HS1]
    · isplitl [HS0]
      · iexists _; iexact HS0
      iexists _; iexact HS1
    iexact Hr
  iexact Hg

/-- After the last point the invariant gives the class invariant back (the accumulators' contents forgotten). -/
theorem hout2 (c : Dev nD) : (dat2 V c).Φ (Fin.last cfg2.N) ⊢ Pipeline.ΦA spec2 c :=
  Phi2_out V c _ (by rw [Fin.val_last]; have : cfg2.N = 50 := N_2; omega)

end Cert.KernelIdeal.Hand

end
-- ==== Proof.KiRun.lean ====
import proofs.«405506_j40140764349028_2_alg».proof.Proof.KiR0
import proofs.«405506_j40140764349028_2_alg».proof.Proof.KiR1
import proofs.«405506_j40140764349028_2_alg».proof.Proof.KiR2
import proofs.«405506_j40140764349028_2_alg».proof.Proof.Gen.KernelIdeal.Regions

/-! The three regions as segments of @main, at any float instance. Between two items of @main the core's
unscoped buffers are held at the contents the items before have left: the launch memory, then each host
stretch applied, then — after a region — its output array at what the pipeline's write-backs leave
(`Dat.arrAt … N`). Each pipeline's proof data is taken at its region's entry contents; the thread state beside
the buffers is the generator register at some state and the core owing nothing. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## The contents at each region's entry, and what each region leaves -/

/-- Region 0's entry contents: the launch memory after the three host stretches before it. -/
abbrev E0 : (c : Dev nD) → (b : Ref sig .tc) → Buf (Elt F) ((c : Thread nD τ).loc b) := fun c b => Gen.V3 m c b

/-- What region 0's write-backs leave in its output array (the scaled first dense layer). -/
def res0 (c : Dev nD) : Buf (Elt F) ((c : Thread nD τ).loc main_v16) := (dat0 (E0 m) c).arrAt 3 cfg0.N

/-- The unknowns of the generated valuations with region 0's filled in (the later regions' not yet read). -/
def outsA : Gen.Outs (F := F) := fun _ r c =>
  if h : r = main_v16 then h ▸ res0 m c else m ((c : Thread nD τ).loc r)

/-- Region 1's entry contents. -/
abbrev E1 : (c : Dev nD) → (b : Ref sig .tc) → Buf (Elt F) ((c : Thread nD τ).loc b) := fun c b => Gen.V5 m (outsA m) c b

/-- What region 1 leaves in its output array (the scaled second dense layer). -/
def res1 (c : Dev nD) : Buf (Elt F) ((c : Thread nD τ).loc main_v28) := (dat1 (E1 m) c).arrAt 4 cfg1.N

def outsB : Gen.Outs (F := F) := fun _ r c =>
  if h : r = main_v16 then h ▸ res0 m c
  else if h : r = main_v28 then h ▸ res1 m c else m ((c : Thread nD τ).loc r)

/-- Region 2's entry contents. -/
abbrev E2 : (c : Dev nD) → (b : Ref sig .tc) → Buf (Elt F) ((c : Thread nD τ).loc b) := fun c b => Gen.V7 m (outsB m) c b

/-- What region 2 leaves in its output array: the program's result. -/
def res2 (c : Dev nD) : Buf (Elt F) ((c : Thread nD τ).loc main_v42) := (dat2 (E2 m) c).arrAt 6 cfg2.N

/-- Every region's unknown filled in. -/
def outs : Gen.Outs (F := F) := fun _ r c =>
  if h : r = main_v16 then h ▸ res0 m c
  else if h : r = main_v28 then h ▸ res1 m c
  else if h : r = main_v42 then h ▸ res2 m c else m ((c : Thread nD τ).loc r)

/-! ## The generated valuations at the filled-in unknowns are the staged entry contents -/

theorem V5_outs (c : Dev nD) : Gen.V5 m (outs m) c = Gen.V5 m (outsA m) c := by
  simp only [Gen.V5, Gen.V4, outs, outsA, dif_pos]

theorem V7_outs (c : Dev nD) : Gen.V7 m (outs m) c = Gen.V7 m (outsB m) c := by
  simp only [Gen.V7, Gen.V6, Gen.V5, Gen.V4, outs, outsB, dif_pos]

/-! ## The proof data family and the thread state -/

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- What rides beside the buffers through every item: the generator register at some state, the core owing nothing. -/
abbrev Beside (c : Dev nD) : sProp 𝕄 :=
  iprop((∃ r, prngReg c r) ∗ ∃ W, owes (c : Thread nD τ) (0 : CellTallies nD τ sig Unit) W)

abbrev besides : Fin 4 → Dev nD → sProp 𝕄 := fun _ c => Beside (F := F) c

/-- No level is assigned: no core owes another anything. -/
abbrev Lv0 : GSem nD τ sig → Finset Unit := fun _ => ∅
abbrev lv0 : GSem nD τ sig → Unit → ℕ := fun _ _ => 0

/-! ## Region 0 as a segment -/

/-- After region 0 every buffer but its output array is as the region found it. -/
theorem rest0 (c : Dev nD) : ∀ b, b ∉ Finset.univ.image (Pipeline.arrRef spec0) →
    (fun b : Ref sig .tc => Gen.V4 m (outs m) c b) b = E0 m c b := fun b hb =>
  Gen.V4_of m (outs m) c b (by
    intro h
    have hb' : b = main_v16 := by simpa using h
    exact hb (Finset.mem_image.mpr ⟨3, Finset.mem_univ _, hb'.symm ▸ rfl⟩))

/-- After region 0 each of its arrays holds what the pipeline leaves: the inputs as entered, the output at
    what the write-backs folded. -/
theorem left0 (c : Dev nD) (w : Fin cfg0.W) :
    (pdats m 0 c).arrAt w cfg0.N = (fun b : Ref sig .tc => Gen.V4 m (outs m) c b) (Pipeline.arrRef spec0 w) := by
  match w with
  | ⟨0, _⟩ => exact ((pdats m 0 c).arrAt_in 0 rfl _).trans ((A_eq0 (E0 m) c 0).trans (Gen.V4_of m (outs m) c _ (by decide)).symm)
  | ⟨1, _⟩ => exact ((pdats m 0 c).arrAt_in 1 rfl _).trans ((A_eq0 (E0 m) c 1).trans (Gen.V4_of m (outs m) c _ (by decide)).symm)
  | ⟨2, _⟩ => exact ((pdats m 0 c).arrAt_in 2 rfl _).trans ((A_eq0 (E0 m) c 2).trans (Gen.V4_of m (outs m) c _ (by decide)).symm)
  | ⟨3, _⟩ =>
    show res0 m c = Gen.V4 m (outs m) c main_v16
    simp only [Gen.V4, Function.update_self, outs, dif_pos]

-- the printed configuration is the library's pinned one once its definitions are unfolded
set_option backward.isDefEq.respectTransparency.types false in
/-- REGION 0 as a segment of @main: entered with every unscoped buffer at the contents after the first three host
    stretches, left with its output array at what its write-backs leave and every other buffer as entered. Its arrays
    are split out of the unscoped buffers at entry and put back at exit; the generator register passes through the
    invariant; nothing is owed; the kernel has no semaphore of its own. -/
def region0 : RegionSeg (pcfgs (F := F)) Gen.adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lv0 lv0 0 fun _ _ => rfl
  pre c := iprop(StableHlo.held (c : Thread nD τ) (Pipeline.ucRefs τ sig) (Gen.V3 m c) ∗ Beside (F := F) c)
  post c := iprop(StableHlo.held (c : Thread nD τ) (Pipeline.ucRefs τ sig) (Gen.V4 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b : Ref sig .tc => Gen.V4 m (outs m) c b) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem E1_eq (c : Dev nD) : (fun b : Ref sig .tc => Gen.V5 m (outs m) c b) = E1 m c := by
  funext b; exact congrFun (V5_outs m c) b

/-- After region 1 every buffer but its output array is as the region found it. -/
theorem rest1 (c : Dev nD) : ∀ b, b ∉ Finset.univ.image (Pipeline.arrRef spec1) →
    (fun b : Ref sig .tc => Gen.V6 m (outs m) c b) b = E1 m c b := fun b hb =>
  (Gen.V6_of m (outs m) c b (by
    intro h
    have hb' : b = main_v28 := by simpa using h
    exact hb (Finset.mem_image.mpr ⟨4, Finset.mem_univ _, hb'.symm ▸ rfl⟩))).trans (congrFun (E1_eq m c) b)

/-- After region 1 each of its arrays holds what the pipeline leaves. -/
theorem left1 (c : Dev nD) (w : Fin cfg1.W) :
    (pdats m 1 c).arrAt w cfg1.N = (fun b : Ref sig .tc => Gen.V6 m (outs m) c b) (Pipeline.arrRef spec1 w) := by
  have hin : ∀ w : Fin cfg1.W, (cfg1.win w).isOut = false → Pipeline.arrRef spec1 w ∉ ([main_v28] : List (Ref sig .tc)) →
      (pdats m 1 c).arrAt w cfg1.N = Gen.V6 m (outs m) c (Pipeline.arrRef spec1 w) := fun w hw hne =>
    ((pdats m 1 c).arrAt_in w hw _).trans ((A_eq1 (E1 m) c w).trans
      ((congrFun (E1_eq m c) _).symm.trans (Gen.V6_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show res1 m c = Gen.V6 m (outs m) c main_v28
    have h16 : ¬ ((main_v28 : Ref sig .tc) = main_v16) := by decide
    simp only [Gen.V6, Function.update_self, outs, dif_neg h16, dif_pos]

-- the printed configuration is the library's pinned one once its definitions are unfolded
set_option backward.isDefEq.respectTransparency.types false in
/-- REGION 1 as a segment of @main: entered with every unscoped buffer at the contents after the host stretch that
    follows region 0, left with its output array at what its write-backs leave and every other buffer as entered. Its arrays
    are split out of the unscoped buffers at entry and put back at exit; the generator register passes through the
    invariant; nothing is owed; the kernel has no semaphore of its own. -/
def region1 : RegionSeg (pcfgs (F := F)) Gen.adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lv0 lv0 1 fun _ _ => rfl
  pre c := iprop(StableHlo.held (c : Thread nD τ) (Pipeline.ucRefs τ sig) (Gen.V5 m (outs m) c) ∗ Beside (F := F) c)
  post c := iprop(StableHlo.held (c : Thread nD τ) (Pipeline.ucRefs τ sig) (Gen.V6 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, show Gen.V5 m (outs m) c = Gen.V5 m (outsA m) c from V5_outs m c]
    have hsplit := Pipeline.arrays_of_unscopedBufs (p := 1) (pcfgs (F := F)) Gen.adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b : Ref sig .tc => Gen.V6 m (outs m) c b) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem E2_eq (c : Dev nD) : (fun b : Ref sig .tc => Gen.V7 m (outs m) c b) = E2 m c := by
  funext b; exact congrFun (V7_outs m c) b

/-- After region 2 every buffer but its output array is as the region found it. -/
theorem rest2 (c : Dev nD) : ∀ b, b ∉ Finset.univ.image (Pipeline.arrRef spec2) →
    (fun b : Ref sig .tc => Gen.V8 m (outs m) c b) b = E2 m c b := fun b hb =>
  (Gen.V8_of m (outs m) c b (by
    intro h
    have hb' : b = main_v42 := by simpa using h
    exact hb (Finset.mem_image.mpr ⟨6, Finset.mem_univ _, hb'.symm ▸ rfl⟩))).trans (congrFun (E2_eq m c) b)

/-- After region 2 each of its arrays holds what the pipeline leaves. -/
theorem left2 (c : Dev nD) (w : Fin cfg2.W) :
    (pdats m 2 c).arrAt w cfg2.N = (fun b : Ref sig .tc => Gen.V8 m (outs m) c b) (Pipeline.arrRef spec2 w) := by
  have hin : ∀ w : Fin cfg2.W, (cfg2.win w).isOut = false → Pipeline.arrRef spec2 w ∉ ([main_v42] : List (Ref sig .tc)) →
      (pdats m 2 c).arrAt w cfg2.N = Gen.V8 m (outs m) c (Pipeline.arrRef spec2 w) := fun w hw hne =>
    ((pdats m 2 c).arrAt_in w hw _).trans ((A_eq2 (E2 m) c w).trans
      ((congrFun (E2_eq m c) _).symm.trans (Gen.V8_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    show res2 m c = Gen.V8 m (outs m) c main_v42
    have h16 : ¬ ((main_v42 : Ref sig .tc) = main_v16) := by decide
    have h28 : ¬ ((main_v42 : Ref sig .tc) = main_v28) := by decide
    simp only [Gen.V8, Function.update_self, outs, dif_neg h16, dif_neg h28, dif_pos]

-- the printed configuration is the library's pinned one once its definitions are unfolded
set_option backward.isDefEq.respectTransparency.types false in
/-- REGION 2 as a segment of @main: entered with every unscoped buffer at the contents after the host stretch that
    follows region 1, left with its output array at what its write-backs leave and every other buffer as entered. Its arrays
    are split out of the unscoped buffers at entry and put back at exit; the generator register and the scoped
    rest pass into the invariant, which holds the two accumulators at named contents between points and forgets them
    at the end; nothing is owed; the kernel has no semaphore of its own. -/
def region2 : RegionSeg (pcfgs (F := F)) Gen.adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ Lv0 lv0 2 fun _ _ => rfl
  pre c := iprop(StableHlo.held (c : Thread nD τ) (Pipeline.ucRefs τ sig) (Gen.V7 m (outs m) c) ∗ Beside (F := F) c)
  post c := iprop(StableHlo.held (c : Thread nD τ) (Pipeline.ucRefs τ sig) (Gen.V8 m (outs m) c) ∗ Beside (F := F) c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, show Gen.V7 m (outs m) c = Gen.V7 m (outsB m) c from V7_outs m c]
    have hsplit := Pipeline.arrays_of_unscopedBufs (p := 2) (pcfgs (F := F)) Gen.adm (pdats m) launch2.win launch2.arr_whole c
      ((pdats m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (Gen.adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (E2 m) c)
  hout c := by
    have h2 : (Pipeline.ΦA spec2 c : sProp 𝕄)
        ⊢ iprop((∃ r, prngReg c r) ∗ Pipeline.ownSems0 (fun k : PEmpty => k.elim) c ∗ Pipeline.scopedRest spec2 c) := by
      rw [Pipeline.ownSems0_none]; unfold Pipeline.ΦA
      iintro ⟨Hr, Hp⟩
      isplitl [Hp]; · iexact Hp
      isplitr; · iempintro
      iexact Hr
    exact (hout2 (E2 m) c).trans h2
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b : Ref sig .tc => Gen.V8 m (outs m) c b) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame: every weakly fair execution of @main ends, nothing faulting, the arguments as launched -/

/-- The launch's ghost element yields the pipeline library's, and nothing else is dealt. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the state beside the buffers: the generator register as launched, the
    core owing nothing. -/
theorem launch_beside (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lv0 lv0)
      ⊢ (|={Set.univ}=> bigSep Finset.univ (besides (F := F) 0) : sProp 𝕄) := by
  refine Pipeline.initEach Lv0 lv0 fun c => ?_
  iintro ⟨⟨-, HO, -, Hp, -⟩, -⟩
  imodintro
  isplitl [Hp]; · iexists _; iexact Hp
  iexists ∅; iexact HO

-- the conditional frame at this program's three regions: its records are read off the conclusion
set_option backward.isDefEq.respectTransparency.types false in
/-- THE FRAME of the program at any float instance: from any memory with zero counters every weakly fair execution of
    @main terminates, nothing faulting, and each argument array ends as launched — the generated conditional frame at
    the three regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (F := F) m emb₁ () Variants.none Lv0 lv0 (fun _ _ => rfl) ρ (outs m) (pdats m) 0 (fun _ => iprop(emp))
    (initOf (Pipeline.cells cfgs cellOf_inj) (Pipeline.launchToks cfgs cellOf_inj)) launch_elem
    besides (launch_beside ρ) (fun c => by iintro ⟨-, H⟩; iexact H)
    (region0 m) (fun _ => .rfl) (fun _ => .rfl) (region1 m) (fun _ => .rfl) (fun _ => .rfl) (region2 m) (fun _ => .rfl) (fun _ => .rfl)

end Cert.KernelIdeal.Hand

end
-- ==== Proof.KiRunNamed.lean ====
import proofs.«405506_j40140764349028_2_alg».proof.Proof.KiRun

/-! The run of @main with its RESULT NAMED, at any float instance: the same launch over the same segments as the
frame, read at the end for one more buffer — besides each argument array as launched, the result array holds what
region 2's one write-back leaves. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the launch theorem at this program's records, read off the conclusion
set_option backward.isDefEq.respectTransparency.types false in
/-- Given, per region, a segment record entered from and left at the generated thread states: every weakly fair
    execution of @main from memory `m` with zero counters terminates, and every final memory holds the result array at
    the last valuation's contents and each argument as launched. -/
theorem named_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v42) = V8 m outs c main_v42
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, hpre0 c, hpost0 c, hpre1 c, hpost1 c, hpre2 c, (hpost2 c).trans (sep_mono .rfl (hE3 c))⟩)
    (hinit := ?_) (QY := fun c s => s.mem ((c.tc : Thread nD τ).loc main_v42) = V8 m outs c main_v42 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v42) (Finset.mem_filter.mpr ⟨StableHlo.devRef_mem_tcRefs main_v42, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

-- the conditional run at this program's records, read off the conclusion
set_option backward.isDefEq.respectTransparency.types false in
/-- THE RUN WITH THE RESULT NAMED: every weakly fair execution of @main terminates, nothing faulting, the result array
    at what region 2's write-back leaves (`res2`), each argument array as launched. -/
theorem named (ρ : Dev nD → PrngReg) :
    θ_run defs (onTc (τ := τ) (main (F := F))) ⟨m, fun _ => 0, ρ⟩ (fun r => ∀ c : Dev nD,
      r.2.mem ((c.tc : Thread nD τ).loc main_v42) = res2 m c
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (left2 m c 6).symm, (h c).2⟩)
    (named_cond (F := F) m emb₁ () Variants.none Lv0 lv0 (fun _ _ => rfl) ρ (outs m) (pdats m) 0 (fun _ => iprop(emp))
      (initOf (Pipeline.cells cfgs cellOf_inj) (Pipeline.launchToks cfgs cellOf_inj)) launch_elem
      besides (launch_beside ρ) (fun c => by iintro ⟨-, H⟩; iexact H)
      (region0 m) (fun _ => .rfl) (fun _ => .rfl) (region1 m) (fun _ => .rfl) (fun _ => .rfl) (region2 m) (fun _ => .rfl) (fun _ => .rfl))

end Cert.KernelIdeal.Hand

end
-- ==== Proof.KiHost.lean ====
import proofs.«405506_j40140764349028_2_alg».proof.Proof.KiRun

/-! The host stages of the kernel program between its three regions, read off the buffers' contents at any float
instance. The edge array `ei : [2, 3200000]` gives every stage that is not a region's output: its two rows, each
extended by the self loops `0 … 99999`, are the source and destination node of the 3300000 edges; the in-degree of a
node is the scatter-add of ones by destination, and the row factor is `rsqrt` of the degree where it is positive, else 0.
Each layer's aggregation is the scatter-add by destination of the rows gathered by (wrapped) source. A region is
entered with its windows' arrays at these stages of the launch memory and of the region before. -/

set_option maxRecDepth 16384

noncomputable section

namespace Cert.KernelIdeal.Hand

open Cert.KernelIdeal Cert.KernelIdeal.Facts₀
open Idealize.ShloMosaic Idealize.ShloMosaic.TcCoe Idealize.ShloMosaic.Tactic

variable {F : FTy → Type} [FloatOps F]

/-! ## The stages as functions of the edge array -/

/-- The edges' source nodes: row 0 of the edge array, then the self loops. -/
def srcIdx (ei : IVec S2x3200000 32) : IVec S3300000 32 :=
  concatenate S3300000 0
    [⟨S3200000, shapeCast S3200000 (extractStridedSlice S1x3200000 ![0, 0] ei slices_S2x3200000_S1x3200000_0_0) shapeCasts_S1x3200000_S3200000⟩,
     ⟨S100000, iotaInDim S100000 32 0⟩] concatenates_S3200000_S100000_S3300000_d0

/-- The edges' destination nodes: row 1 of the edge array, then the self loops. -/
def dstIdx (ei : IVec S2x3200000 32) : IVec S3300000 32 :=
  concatenate S3300000 0
    [⟨S3200000, shapeCast S3200000 (extractStridedSlice S1x3200000 ![1, 0] ei slices_S2x3200000_S1x3200000_1_0) shapeCasts_S1x3200000_S3200000⟩,
     ⟨S100000, iotaInDim S100000 32 0⟩] concatenates_S3200000_S100000_S3300000_d0

/-- A node index wrapped once: a negative index has the node count added. -/
def wrapped (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- An index list as the one column of start indices a gather or a scatter takes. -/
def asColumn (s : IVec S3300000 32) : IVec S3300000x1 32 := broadcastInDim S3300000x1 ![0] bcast_S3300000_S3300000x1_0 s

/-- The in-degree of every node (self loop included): ones summed by destination. -/
def degree (ei : IVec S2x3200000 32) : FVec F S100000 .f32 :=
  Host.scatterAdd scatter_S100000_S3300000x1_S3300000_n_0_0_1
    (broadcastInDim S100000 ![] bcast_S_S100000 (constant (F := F) S_ .f32 0x00000000#32))
    (asColumn (dstIdx ei))
    (broadcastInDim S3300000 ![] bcast_S_S3300000 (constant (F := F) S_ .f32 0x3F800000#32))

/-- The row factor of the symmetric normalisation: the reciprocal square root of the degree where it is positive, else 0. -/
def rowFactor (ei : IVec S2x3200000 32) : FVec F S100000 .f32 :=
  select (cmpf (F := F) .ogt (degree ei) (broadcastInDim S100000 ![] bcast_S_S100000 (constant (F := F) S_ .f32 0x00000000#32)))
    (Host.rsqrt (degree (F := F) ei))
    (broadcastInDim S100000 ![] bcast_S_S100000 (constant (F := F) S_ .f32 0x00000000#32))

/-- One layer's aggregation: every node's row is the sum, over the edges into it, of the row of the edge's (wrapped) source. -/
def aggregate (ei : IVec S2x3200000 32) (h : FVec F S100000x32 .f32) : FVec F S100000x32 .f32 :=
  Host.scatterAdd scatter_S100000x32_S3300000x1_S3300000x32_1_0_0_1
    (broadcastInDim S100000x32 ![] bcast_S_S100000x32 (constant (F := F) S_ .f32 0x00000000#32))
    (asColumn (dstIdx ei))
    (Host.gather gather_S100000x32_S3300000x1_S3300000x32_1_0_n_n_0_1_132 h (asColumn (wrapped (srcIdx ei))))

variable (m : (ℓ : Loc nD τ sig) → Buf (Elt F) ℓ)

/-- The launch's edge array on core c. -/
abbrev edges (c : Dev nD) : IVec S2x3200000 32 := m ((c : Thread nD τ).loc main_arg1)

/-! ## Before region 0 -/

theorem V1_v5 (c : Dev nD) : (Gen.V1 m c main_v5 : IVec S3300000 32) = srcIdx (edges m c) := by
  show StableHlo.after Gen.hostOps0 _ (Proc.devRef .tc main_v5) = _
  after_results
  rfl

theorem V1_v6 (c : Dev nD) : (Gen.V1 m c main_v6 : IVec S3300000 32) = dstIdx (edges m c) := by
  show StableHlo.after Gen.hostOps0 _ (Proc.devRef .tc main_v6) = _
  after_results
  rfl

theorem V1_v10 (c : Dev nD) : (Gen.V1 m c main_v10 : FVec F S100000 .f32) = degree (F := F) (edges m c) := by
  show StableHlo.after Gen.hostOps0 _ (Proc.devRef .tc main_v10) = _
  after_results
  rfl

theorem V1_v12 (c : Dev nD) : (Gen.V1 m c main_v12 : IVec S100000 1)
    = cmpf (F := F) .ogt (degree (F := F) (edges m c)) (broadcastInDim S100000 ![] bcast_S_S100000 (constant (F := F) S_ .f32 0x00000000#32)) := by
  show StableHlo.after Gen.hostOps0 _ (Proc.devRef .tc main_v12) = _
  after_results
  rfl

theorem V1_v13 (c : Dev nD) : (Gen.V1 m c main_v13 : FVec F S100000 .f32) = Host.rsqrt (degree (F := F) (edges m c)) := by
  show StableHlo.after Gen.hostOps0 _ (Proc.devRef .tc main_v13) = _
  after_results
  rfl

theorem V1_cst_2 (c : Dev nD) : (Gen.V1 m c main_cst_2 : FVec F S_ .f32) = constant (F := F) S_ .f32 0x00000000#32 := by
  show StableHlo.after Gen.hostOps0 _ (Proc.devRef .tc main_cst_2) = _
  after_results

theorem V2_v14 (c : Dev nD) : (Gen.V2 m c main_v14 : FVec F S100000 .f32) = rowFactor (F := F) (edges m c) := by
  show StableHlo.after Gen.hostOps0_1 (Gen.V1 m c) (Proc.devRef .tc main_v14) = _
  after_results
  simp only [StableHlo.TRef.ofBuf, StableHlo.TRef.toBuf, cast_eq]
  rfl

/-- Region 0 is entered with the row factor as a column. -/
theorem V3_v15 (c : Dev nD) :
    (Gen.V3 m c main_v15 : FVec F S100000x1 .f32) = shapeCast S100000x1 (rowFactor (F := F) (edges m c)) shapeCasts_S100000_S100000x1 := by
  show StableHlo.after Gen.hostOps0_2 (Gen.V2 m c) (Proc.devRef .tc main_v15) = _
  rw [StableHlo.after_cons, StableHlo.after_nil, StableHlo.reshape_result]
  funext i
  show shapeCast S100000x1 (Gen.V2 m c main_v14) _ i = _
  rw [V2_v14]

/-! ## Between the regions, for any contents the regions leave -/

section AnyOuts
variable (outs : Gen.Outs (F := F))

theorem V4_v5 (c : Dev nD) : (Gen.V4 m outs c main_v5 : IVec S3300000 32) = srcIdx (edges m c) :=
  (Gen.V4_of m outs c main_v5 (by decide)).trans <| (Gen.V3_of m c main_v5 (by decide)).trans <|
    (Gen.V2_of m c main_v5 (by decide)).trans (V1_v5 m c)

theorem V4_v6 (c : Dev nD) : (Gen.V4 m outs c main_v6 : IVec S3300000 32) = dstIdx (edges m c) :=
  (Gen.V4_of m outs c main_v6 (by decide)).trans <| (Gen.V3_of m c main_v6 (by decide)).trans <|
    (Gen.V2_of m c main_v6 (by decide)).trans (V1_v6 m c)

theorem V4_v16 (c : Dev nD) : Gen.V4 m outs c main_v16 = outs 4 main_v16 c := by
  simp only [Gen.V4, Function.update_self]

theorem V4_arg4 (c : Dev nD) : Gen.V4 m outs c main_arg4 = m ((c : Thread nD τ).loc main_arg4) :=
  (Gen.V4_of m outs c main_arg4 (by decide)).trans <| (Gen.V3_of m c main_arg4 (by decide)).trans <|
    (Gen.V2_of m c main_arg4 (by decide)).trans <| (Gen.V1_of m c main_arg4 (by decide)).trans rfl

/-- Region 1 is entered with the aggregation of what region 0 left. -/
theorem V5_v26 (c : Dev nD) :
    (Gen.V5 m outs c main_v26 : FVec F S100000x32 .f32) = aggregate (F := F) (edges m c) (outs 4 main_v16 c) := by
  have h5 : (Gen.V4 m outs c main_v5 : IVec S3300000 32) = srcIdx (edges m c) := V4_v5 m outs c
  have h6 : (Gen.V4 m outs c main_v6 : IVec S3300000 32) = dstIdx (edges m c) := V4_v6 m outs c
  have h16 : Gen.V4 m outs c main_v16 = outs 4 main_v16 c := V4_v16 m outs c
  show StableHlo.after Gen.hostOps1 (Gen.V4 m outs c) (Proc.devRef .tc main_v26) = _
  generalize Gen.V4 m outs c = W at h5 h6 h16 ⊢
  after_results
  rw [h5, h6, h16]
  rfl

theorem V5_v27 (c : Dev nD) :
    (Gen.V5 m outs c main_v27 : FVec F S1x32 .f32) = shapeCast S1x32 (m ((c : Thread nD τ).loc main_arg4) : FVec F S32 .f32) shapeCasts_S32_S1x32 := by
  have h4 : Gen.V4 m outs c main_arg4 = m ((c : Thread nD τ).loc main_arg4) := V4_arg4 m outs c
  show StableHlo.after Gen.hostOps1 (Gen.V4 m outs c) (Proc.devRef .tc main_v27) = _
  generalize Gen.V4 m outs c = W at h4 ⊢
  after_results
  rw [h4]
  rfl

/-- The row-factor column is not written again: region 1 and region 2 are entered with region 0's. -/
theorem V5_v15 (c : Dev nD) : Gen.V5 m outs c main_v15 = Gen.V3 m c main_v15 :=
  (Gen.V5_of m outs c main_v15 (by decide)).trans (Gen.V4_of m outs c main_v15 (by decide))

theorem V5_arg5 (c : Dev nD) : Gen.V5 m outs c main_arg5 = m ((c : Thread nD τ).loc main_arg5) :=
  (Gen.V5_of m outs c main_arg5 (by decide)).trans <| (Gen.V4_of m outs c main_arg5 (by decide)).trans <|
    (Gen.V3_of m c main_arg5 (by decide)).trans <| (Gen.V2_of m c main_arg5 (by decide)).trans <|
    (Gen.V1_of m c main_arg5 (by decide)).trans rfl

theorem V6_v5 (c : Dev nD) : (Gen.V6 m outs c main_v5 : IVec S3300000 32) = srcIdx (edges m c) :=
  (Gen.V6_of m outs c main_v5 (by decide)).trans <| (Gen.V5_of m outs c main_v5 (by decide)).trans (V4_v5 m outs c)

theorem V6_v6 (c : Dev nD) : (Gen.V6 m outs c main_v6 : IVec S3300000 32) = dstIdx (edges m c) :=
  (Gen.V6_of m outs c main_v6 (by decide)).trans <| (Gen.V5_of m outs c main_v6 (by decide)).trans (V4_v6 m outs c)

theorem V6_v28 (c : Dev nD) : Gen.V6 m outs c main_v28 = outs 6 main_v28 c := by
  simp only [Gen.V6, Function.update_self]

theorem V6_arg (c : Dev nD) (r : Ref sig .tc) (h6 : r ∉ ([main_v28] : List (Ref sig .tc))) (h5 : r ∉ Gen.hostOps1_W)
    (h4 : r ∉ ([main_v16] : List (Ref sig .tc))) (h3 : r ∉ Gen.hostOps0_2_W) (h2 : r ∉ Gen.hostOps0_1_W) (h1 : r ∉ Gen.hostOps0_W) :
    Gen.V6 m outs c r = m ((c : Thread nD τ).loc r) :=
  (Gen.V6_of m outs c r h6).trans <| (Gen.V5_of m outs c r h5).trans <| (Gen.V4_of m outs c r h4).trans <|
    (Gen.V3_of m c r h3).trans <| (Gen.V2_of m c r h2).trans <| (Gen.V1_of m c r h1).trans rfl

/-- Region 2 is entered with the aggregation of what region 1 left. -/
theorem V7_v38 (c : Dev nD) :
    (Gen.V7 m outs c main_v38 : FVec F S100000x32 .f32) = aggregate (F := F) (edges m c) (outs 6 main_v28 c) := by
  have h5 : (Gen.V6 m outs c main_v5 : IVec S3300000 32) = srcIdx (edges m c) := V6_v5 m outs c
  have h6 : (Gen.V6 m outs c main_v6 : IVec S3300000 32) = dstIdx (edges m c) := V6_v6 m outs c
  have h28 : Gen.V6 m outs c main_v28 = outs 6 main_v28 c := V6_v28 m outs c
  show StableHlo.after Gen.hostOps2 (Gen.V6 m outs c) (Proc.devRef .tc main_v38) = _
  generalize Gen.V6 m outs c = W at h5 h6 h28 ⊢
  after_results
  rw [h5, h6, h28]
  rfl

theorem V7_v39 (c : Dev nD) :
    (Gen.V7 m outs c main_v39 : FVec F S1x32 .f32) = shapeCast S1x32 (m ((c : Thread nD τ).loc main_arg6) : FVec F S32 .f32) shapeCasts_S32_S1x32 := by
  have h : Gen.V6 m outs c main_arg6 = m ((c : Thread nD τ).loc main_arg6) :=
    V6_arg m outs c main_arg6 (by decide) (by decide) (by decide) (by decide) (by decide) (by decide)
  show StableHlo.after Gen.hostOps2 (Gen.V6 m outs c) (Proc.devRef .tc main_v39) = _
  generalize Gen.V6 m outs c = W at h ⊢
  after_results
  rw [h]
  rfl

theorem V7_v40 (c : Dev nD) :
    (Gen.V7 m outs c main_v40 : IVec S100000x1 32) = shapeCast S100000x1 (m ((c : Thread nD τ).loc main_arg2) : IVec S100000 32) shapeCasts_S100000_S100000x1 := by
  have h : Gen.V6 m outs c main_arg2 = m ((c : Thread nD τ).loc main_arg2) :=
    V6_arg m outs c main_arg2 (by decide) (by decide) (by decide) (by decide) (by decide) (by decide)
  show StableHlo.after Gen.hostOps2 (Gen.V6 m outs c) (Proc.devRef .tc main_v40) = _
  generalize Gen.V6 m outs c = W at h ⊢
  after_results
  rw [h]
  rfl

theorem V7_v41 (c : Dev nD) :
    (Gen.V7 m outs c main_v41 : FVec F S1x1 .f32) = shapeCast S1x1 (m ((c : Thread nD τ).loc main_arg8) : FVec F S1 .f32) shapeCasts_S1_S1x1 := by
  have h : Gen.V6 m outs c main_arg8 = m ((c : Thread nD τ).loc main_arg8) :=
    V6_arg m outs c main_arg8 (by decide) (by decide) (by decide) (by decide) (by decide) (by decide)
  show StableHlo.after Gen.hostOps2 (Gen.V6 m outs c) (Proc.devRef .tc main_v41) = _
  generalize Gen.V6 m outs c = W at h ⊢
  after_results
  rw [h]
  rfl

theorem V7_v15 (c : Dev nD) : Gen.V7 m outs c main_v15 = Gen.V3 m c main_v15 :=
  (Gen.V7_of m outs c main_v15 (by decide)).trans <| (Gen.V6_of m outs c main_v15 (by decide)).trans (V5_v15 m outs c)

theorem V7_arg7 (c : Dev nD) : Gen.V7 m outs c main_arg7 = m ((c : Thread nD τ).loc main_arg7) :=
  (Gen.V7_of m outs c main_arg7 (by decide)).trans
    (V6_arg m outs c main_arg7 (by decide) (by decide) (by decide) (by decide) (by decide) (by decide))

end AnyOuts

/-! ## The three regions' entry contents -/

/-- Region 0: the two arguments it reads are the launch's, the row-factor column is the edge array's. -/
theorem E0_arg0 (c : Dev nD) : E0 m c main_arg0 = m ((c : Thread nD τ).loc main_arg0) :=
  (Gen.V3_of m c main_arg0 (by decide)).trans <| (Gen.V2_of m c main_arg0 (by decide)).trans <|
    (Gen.V1_of m c main_arg0 (by decide)).trans rfl
theorem E0_arg3 (c : Dev nD) : E0 m c main_arg3 = m ((c : Thread nD τ).loc main_arg3) :=
  (Gen.V3_of m c main_arg3 (by decide)).trans <| (Gen.V2_of m c main_arg3 (by decide)).trans <|
    (Gen.V1_of m c main_arg3 (by decide)).trans rfl
theorem E0_v15 (c : Dev nD) :
    (E0 m c main_v15 : FVec F S100000x1 .f32) = shapeCast S100000x1 (rowFactor (F := F) (edges m c)) shapeCasts_S100000_S100000x1 :=
  V3_v15 m c

/-- Region 1: the aggregation of region 0's result, the same row-factor column, the first bias as a row, the second
    layer's weights. -/
theorem E1_v26 (c : Dev nD) : (E1 m c main_v26 : FVec F S100000x32 .f32) = aggregate (F := F) (edges m c) (res0 m c) := by
  have h := V5_v26 m (outsA m) c
  simp only [outsA, dif_pos] at h
  exact h
theorem E1_v15 (c : Dev nD) : E1 m c main_v15 = E0 m c main_v15 := V5_v15 m (outsA m) c
theorem E1_v27 (c : Dev nD) :
    (E1 m c main_v27 : FVec F S1x32 .f32) = shapeCast S1x32 (m ((c : Thread nD τ).loc main_arg4) : FVec F S32 .f32) shapeCasts_S32_S1x32 :=
  V5_v27 m (outsA m) c
theorem E1_arg5 (c : Dev nD) : E1 m c main_arg5 = m ((c : Thread nD τ).loc main_arg5) := V5_arg5 m (outsA m) c

/-- Region 2: the aggregation of region 1's result, the same row-factor column, the second bias as a row, the graph ids
    as a column, the last layer's weights, its bias as a [1, 1] array. -/
theorem E2_v38 (c : Dev nD) : (E2 m c main_v38 : FVec F S100000x32 .f32) = aggregate (F := F) (edges m c) (res1 m c) := by
  have h := V7_v38 m (outsB m) c
  simp only [outsB, dif_pos, dif_neg, reduceCtorEq] at h
  exact h
theorem E2_v15 (c : Dev nD) : E2 m c main_v15 = E0 m c main_v15 := V7_v15 m (outsB m) c
theorem E2_v39 (c : Dev nD) :
    (E2 m c main_v39 : FVec F S1x32 .f32) = shapeCast S1x32 (m ((c : Thread nD τ).loc main_arg6) : FVec F S32 .f32) shapeCasts_S32_S1x32 :=
  V7_v39 m (outsB m) c
theorem E2_v40 (c : Dev nD) :
    (E2 m c main_v40 : IVec S100000x1 32) = shapeCast S100000x1 (m ((c : Thread nD τ).loc main_arg2) : IVec S100000 32) shapeCasts_S100000_S100000x1 :=
  V7_v40 m (outsB m) c
theorem E2_v41 (c : Dev nD) :
    (E2 m c main_v41 : FVec F S1x1 .f32) = shapeCast S1x1 (m ((c : Thread nD τ).loc main_arg8) : FVec F S1 .f32) shapeCasts_S1_S1x1 :=
  V7_v41 m (outsB m) c
theorem E2_arg7 (c : Dev nD) : E2 m c main_arg7 = m ((c : Thread nD τ).loc main_arg7) := V7_arg7 m (outsB m) c

end Cert.KernelIdeal.Hand

end
-- ==== Proof.JoinDefs.lean ====
import proofs.«405506_j40140764349028_2_alg».proof.Proof.KiRun
import Idealize.ShloMosaic.Lib.ValueIdx

/-! The shared vocabulary of the join: a node's aggregated row scaled by its factor and biased, as a function of
three extended-real arrays, and what "every float argument has real entries" says of a launch memory. -/

noncomputable section

namespace Cert.Join

open Idealize.ShloMosaic Idealize.ShloMosaic.TcCoe Idealize.ShloMosaic.ValueIdx
open Idealize.SL Idealize.SL.Sem

/-- s[v,k]·d[v] + b[k]: a layer's aggregate at node v and feature k, scaled by the node's factor, plus the bias. -/
def affineRow (s : Cert.KernelIdeal.S100000x32.Idx → EReal) (d : Cert.KernelIdeal.S100000x1.Idx → EReal)
    (b : Cert.KernelIdeal.S1x32.Idx → EReal) (v : Fin 100000) (k : Fin 32) : EReal :=
  s (ix2 v k) * d (ix2 v 0) + b (ix2 0 k)

/-- Every entry of every float argument of the launch memory is a real number. -/
abbrev RealArgs (m : (ℓ : Loc Cert.KernelIdeal.nD Cert.KernelIdeal.τ Cert.KernelIdeal.sig) → Buf (Elt Ideal) ℓ)
    (c : Dev Cert.KernelIdeal.nD) : Prop :=
  (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg3) i = (r : EReal))
  ∧ (∀ i, ∃ r : ℝ, m ((c.tc : Thread Cert.KernelIdeal.nD Cert.KernelIdeal.τ).loc Cert.KernelIdeal.main_arg4) i = (r : EReal))
  ∧ (∀ i, ∃ r : ℝ, m ((c.tc : Thread Cert.KernelIdeal.nD Cert.KernelIdeal.τ).loc Cert.KernelIdeal.main_arg5) i = (r : EReal))
  ∧ (∀ i, ∃ r : ℝ, m ((c.tc : Thread Cert.KernelIdeal.nD Cert.KernelIdeal.τ).loc Cert.KernelIdeal.main_arg6) i = (r : EReal))
  ∧ (∀ i, ∃ r : ℝ, m ((c.tc : Thread Cert.KernelIdeal.nD Cert.KernelIdeal.τ).loc Cert.KernelIdeal.main_arg7) i = (r : EReal))
  ∧ (∀ i, ∃ r : ℝ, m ((c.tc : Thread Cert.KernelIdeal.nD Cert.KernelIdeal.τ).loc Cert.KernelIdeal.main_arg8) i = (r : EReal))

end Cert.Join

end
-- ==== Proof.KiVal0.lean ====
import proofs.«405506_j40140764349028_2_alg».proof.Proof.KiR0
import Idealize.ShloMosaic.Lib.ValueIdx
import Idealize.ShloMosaic.Lib.ValueLayout
import Idealize.ShloMosaic.Lib.Pipeline.Value
import Idealize.ShloMosaic.PureOps.Ideal.Laws

/-! Region 0 at the exact instance: the array its write-backs leave is ONE function of the three arrays it
reads — row r, column j holds (Σ_k x[r,k]·w[k,j]) · d[r], the dense layer's entry scaled by its row's factor.
Each of the 20 grid points writes the 5000 rows of its block; the blocks tile the array. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-- A dense layer's entry scaled by its row's factor: (Σ_k x[r,k]·w[k,j]) · d[r], over the extended reals. -/
def scaledDense0 (x : S100000x128.Idx → EReal) (w : S128x32.Idx → EReal) (d : S100000x1.Idx → EReal) :
    S100000x32.Idx → EReal :=
  fun i => (∑ k : Fin 128, x (ix2 (i 0) k) * w (ix2 k (i 1))) * d (ix2 (i 0) 0)

variable (V : (c : Dev nD) → (b : Ref sig .tc) → Buf (Elt Ideal) ((c : Thread nD τ).loc b))

/-! ## The body's arithmetic at an index -/

/-- The product's operand indices, axis by axis: the left operand is read at (row of the output, contraction index), -/
theorem dense0_lhs_row (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  rfl
theorem dense0_lhs_contr (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- the right operand at (contraction index, column of the output). -/
theorem dense0_rhs_contr (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem dense0_rhs_col (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  rfl

/-- The block product into a zero accumulator, entry (p, q): Σ_k a[p,k]·b[k,q]. -/
theorem dense0_matmul_apply {φ₁ φ₂ : FTy} (a : FVec Ideal S5000x128 φ₁) (b : FVec Ideal S128x32 φ₂) (p : Fin 5000) (q : Fin 32) :
    matmul (F := Ideal) dot_S5000x128_S128x32_S5000x32_1_0_0_1_n_n none a b (constant (F := Ideal) S5000x32 .f32 0x00000000#32) (ix2 p q)
      = ∑ k : Fin 128, a (ix2 p k) * b (ix2 k q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact dense0_lhs_row _ _
    | ⟨1, _⟩ => exact (dense0_lhs_contr _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (dense0_rhs_contr _ _).trans hk
    | ⟨1, _⟩ => exact dense0_rhs_col _ _)
  rw [el, er]

/-- A column of row factors spread over the 32 columns, entry (p, q): the factor of row p. -/
theorem rowFactor0_apply {α : Type} (d : S5000x1.Idx → α) (p : Fin 5000) (q : Fin 32) :
    broadcastTo S5000x32 d broadcasts_S5000x1_S5000x32 (ix2 p q) = d (ix2 p 0) :=
  broadcastTo_apply d broadcasts_S5000x1_S5000x32 (ix2 p q) (ix2 p 0) (fun a => by
    match a with
    | ⟨0, _⟩ => rfl
    | ⟨1, _⟩ => rfl)

/-- The body's result at entry (p, q): the dense layer's entry scaled by its row's factor. -/
theorem pay0_apply (x0 : Vec Ideal S5000x128 .f32) (x1 : Vec Ideal S128x32 .f32) (x2 : Vec Ideal S5000x1 .f32)
    (p : Fin 5000) (q : Fin 32) :
    k0_pay1 x0 x1 x2 (ix2 p q) = (∑ k : Fin 128, x0 (ix2 p k) * x1 (ix2 k q)) * x2 (ix2 p 0) := by
  unfold k0_pay1
  rw [mulf_apply, dense0_matmul_apply, shapeCast_self, rowFactor0_apply]
  rfl

/-! ## What a point writes back -/

/-- The windows' block indices, decided over the 20 points: the rows' windows move with the point, the weight
    matrix stays; no window moves along the columns. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled dense layer of the arrays as the region finds them. -/
theorem flushed0_eq (c : Dev nD) (t : Fin cfg0.N) :
    (dat0 V c).flushed 3 t
      = ((cfg0.win 3).blk t).view.read (Elt Ideal) (scaledDense0 (V c main_arg0) (V c main_arg3) (V c main_v15)) := by
  show (cfg0.win 3).cut (grid0.coords t) ((dat0 V c).after 3 t) = _
  rw [after0_3]
  unfold out0_3
  obtain ⟨e00, e01, e10, e11, e20, e21, e30, e31⟩ := blockIdx0 t
  funext j
  show k0_pay1 (iblk0 V c 0 t) (iblk0 V c 1 t) (iblk0 V c 2 t) j
    = scaledDense0 (V c main_arg0) (V c main_arg3) (V c main_v15) (((cfg0.win 3).blk t).view.emb j)
  obtain ⟨p, q, rfl⟩ : ∃ (p : Fin 5000) (q : Fin 32), j = ix2 p q := ⟨j 0, j 1, eq_ix2 j⟩
  rw [pay0_apply]
  unfold scaledDense0
  have hx : ∀ k : Fin 128, iblk0 V c 0 t (ix2 p k)
      = V c main_arg0 (ix2 (((cfg0.win 3).blk t).view.emb (ix2 p q) 0) k) := fun k => by
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ∀ k : Fin 128, iblk0 V c 1 t (ix2 k q)
      = V c main_arg3 (ix2 k (((cfg0.win 3).blk t).view.emb (ix2 p q) 1)) := fun k => by
    show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 32 + 1 * q.val = win0_3.index t (1 : Fin 2) * 32 + 1 * q.val; omega
  have hd : iblk0 V c 2 t (ix2 p 0)
      = V c main_v15 (ix2 (((cfg0.win 3).blk t).view.emb (ix2 p q) 0) 0) := by
    show V c main_v15 (((cfg0.win 2).blk t).view.emb (ix2 p 0)) = V c main_v15 _
    refine congrArg (V c main_v15) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [hd]
  exact congrArg (· * _) (Finset.sum_congr rfl fun k _ => by rw [hx k, hw k])

/-! ## The blocks tile the array -/

/-- A row-and-column index of the output array is in point `t`'s block iff each coordinate is in the block's range. -/
theorem mem_outBlock0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v16).slice (win0_3.rect t)).set ↔ _
  rw [View.set_slice_whole, Rect.mem_set_unit]
  exact Iff.rfl

/-- Row r lies in the block of point r / 5000, and every point writes its block back. -/
theorem outBlocks_cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : (i 0).val / 5000 < cfg0.N := by show (i 0).val / 5000 < 20; omega
  refine ⟨⟨(i 0).val / 5000, hN⟩, flush0_3 _, ?_⟩
  obtain ⟨-, -, -, -, -, -, e30, e31⟩ := blockIdx0 ⟨(i 0).val / 5000, hN⟩
  have e30' : win0_3.index ⟨(i 0).val / 5000, hN⟩ (0 : Fin 2) = (i 0).val / 5000 := e30
  rw [mem_outBlock0]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 32 ≤ (i 1).val
      ∧ (i 1).val < win0_3.index ⟨(i 0).val / 5000, hN⟩ (1 : Fin 2) * 32 + 32
    omega

/-- What region 0 leaves in its output array, as one function of the arrays it read. -/
theorem final0 (c : Dev nD) :
    (dat0 V c).arrAt 3 cfg0.N = scaledDense0 (V c main_arg0) (V c main_arg3) (V c main_v15) :=
  (dat0 V c).arrAt_eq_of_cover 3 (scaledDense0 (V c main_arg0) (V c main_arg3) (V c main_v15))
    (fun t _ => flushed0_eq V c t) outBlocks_cover0

end Cert.KernelIdeal.Hand

end
-- ==== Proof.KiVal1.lean ====
import proofs.«405506_j40140764349028_2_alg».proof.Proof.KiR1
import Idealize.ShloMosaic.Lib.ValueIdx
import Idealize.ShloMosaic.Lib.ValueLayout
import Idealize.ShloMosaic.Lib.Pipeline.Value
import Idealize.ShloMosaic.PureOps.Ideal.Laws

/-! Region 1 at the exact instance: the array its write-backs leave is ONE function of the four arrays it reads — row r, column j holds (Σ_k max(s[r,k]·d[r] + b[k], 0) · w[k,j]) · d[r]: the aggregated first layer scaled back by its row's factor, biased and rectified, through the second dense layer, scaled by the row's factor again. Each of the 20 grid points writes the 5000 rows of its block; the blocks tile the array. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-- (Σ_k max(s[r,k]·d[r] + b[k], 0) · w[k,j]) · d[r], over the extended reals. -/
def scaledDense1 (s : S100000x32.Idx → EReal) (d : S100000x1.Idx → EReal) (b : S1x32.Idx → EReal) (w : S32x32.Idx → EReal) :
    S100000x32.Idx → EReal :=
  fun i => (∑ k : Fin 32, max (s (ix2 (i 0) k) * d (ix2 (i 0) 0) + b (ix2 0 k)) 0 * w (ix2 k (i 1))) * d (ix2 (i 0) 0)

/-- The one function at row r, column q, written out. -/
theorem scaledDense1_apply (s : S100000x32.Idx → EReal) (d : S100000x1.Idx → EReal) (b : S1x32.Idx → EReal) (w : S32x32.Idx → EReal)
    (r : Fin 100000) (q : Fin 32) :
    scaledDense1 s d b w (ix2 r q)
      = (∑ k : Fin 32, max (s (ix2 r k) * d (ix2 r 0) + b (ix2 0 k)) 0 * w (ix2 k q)) * d (ix2 r 0) := rfl

variable (V : (c : Dev nD) → (b : Ref sig .tc) → Buf (Elt Ideal) ((c : Thread nD τ).loc b))

/-! ## The body's arithmetic at an index -/

/-- The second layer's product reads its operands axis by axis: the left operand at (row of the output, contraction index), -/
theorem dense1_lhs_row (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
theorem dense1_lhs_contr (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- the right operand at (contraction index, column of the output). -/
theorem dense1_rhs_contr (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem dense1_rhs_col (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The block product into a zero accumulator, entry (p, q): Σ_k a[p,k]·b[k,q], over the 32 hidden features. -/
theorem dense1_matmul_apply {φ₁ φ₂ : FTy} (a : FVec Ideal S5000x32 φ₁) (b : FVec Ideal S32x32 φ₂) (p : Fin 5000) (q : Fin 32) :
    matmul (F := Ideal) dot_S5000x32_S32x32_S5000x32_1_0_0_1_n_n none a b (constant (F := Ideal) S5000x32 .f32 0x00000000#32) (ix2 p q)
      = ∑ k : Fin 32, a (ix2 p k) * b (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun a => Fin.ext (by
    match a with
    | ⟨0, _⟩ => exact dense1_lhs_row _ _
    | ⟨1, _⟩ => exact (dense1_lhs_contr _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun a => Fin.ext (by
    match a with
    | ⟨0, _⟩ => exact (dense1_rhs_contr _ _).trans hk
    | ⟨1, _⟩ => exact dense1_rhs_col _ _)
  rw [el, er]

/-- A column of row factors spread over the 32 columns, entry (p, q): the factor of row p. -/
theorem rowFactor1_apply {α : Type} (d : S5000x1.Idx → α) (p : Fin 5000) (q : Fin 32) :
    broadcastTo S5000x32 d broadcasts_S5000x1_S5000x32 (ix2 p q) = d (ix2 p 0) :=
  broadcastTo_apply d broadcasts_S5000x1_S5000x32 (ix2 p q) (ix2 p 0) (fun a => by
    match a with
    | ⟨0, _⟩ => rfl
    | ⟨1, _⟩ => rfl)

/-- The bias row spread over the 5000 rows, entry (p, q): the bias of column q. -/
theorem biasRow1_apply {α : Type} (b : S1x32.Idx → α) (p : Fin 5000) (q : Fin 32) :
    broadcastTo S5000x32 b broadcasts_S1x32_S5000x32 (ix2 p q) = b (ix2 0 q) :=
  broadcastTo_apply b broadcasts_S1x32_S5000x32 (ix2 p q) (ix2 0 q) (fun a => by
    match a with
    | ⟨0, _⟩ => rfl
    | ⟨1, _⟩ => rfl)

/-- The rectified, biased, row-scaled first layer at entry (p, k). -/
theorem rectified1_apply (x0 : Vec Ideal S5000x32 .f32) (x1 : Vec Ideal S5000x1 .f32) (x2 : Vec Ideal S1x32 .f32) (p : Fin 5000) (k : Fin 32) :
    maximumf (addf (mulf x0 (broadcastTo S5000x32 x1 broadcasts_S5000x1_S5000x32))
        (broadcastTo S5000x32 x2 broadcasts_S1x32_S5000x32))
      (broadcast S5000x32 (Scalar.ofBits (F := Ideal) .f32 0x00000000#32)) (ix2 p k)
      = max (x0 (ix2 p k) * x1 (ix2 p 0) + x2 (ix2 0 k)) 0 := by
  rw [maximumf_apply, addf_apply, mulf_apply, rowFactor1_apply, biasRow1_apply, broadcast_apply]
  congr 1
  exact Ideal.ofBits_zero_f32

/-- The body's result at entry (p, q): the rectified first layer through the second dense layer, scaled by its row's factor. -/
theorem pay1_apply (x0 : Vec Ideal S5000x32 .f32) (x1 : Vec Ideal S5000x1 .f32) (x2 : Vec Ideal S1x32 .f32) (x3 : Vec Ideal S32x32 .f32)
    (p : Fin 5000) (q : Fin 32) :
    k1_pay1 x0 x1 x2 x3 x1 (ix2 p q)
      = (∑ k : Fin 32, max (x0 (ix2 p k) * x1 (ix2 p 0) + x2 (ix2 0 k)) 0 * x3 (ix2 k q)) * x1 (ix2 p 0) := by
  unfold k1_pay1
  simp only [shapeCast_self]
  rw [mulf_apply, dense1_matmul_apply, rowFactor1_apply]
  congr 1
  refine Finset.sum_congr rfl fun k _ => ?_
  rw [truncf_apply, truncf_apply, rectified1_apply]

/-! ## Each point's write-back is a block of the one function -/

/-- The block indices at grid point t, decided over the 20 points: the three row-blocked windows (aggregated features,
    row factors, output) sit at block row t, block column 0; the bias row and the weight matrix at their one block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of aggregated features is row 5000·t + p of the array. -/
theorem sums_block_apply (c : Dev nD) (t : Fin cfg1.N) (p : Fin 5000) (k : Fin 32) (r : Fin 100000)
    (hr : r.val = t.val * 5000 + p.val) :
    (iblk1 V c 0 t : Vec Ideal S5000x32 .f32) (ix2 p k) = (V c main_v26 : S100000x32.Idx → EReal) (ix2 r k) := by
  obtain ⟨e0, e1, -⟩ := blockIndex1 t
  unfold iblk1
  rw [View.read_apply]
  show V c main_v26 (((cfg1.win 0).blk t).view.emb (ix2 p k)) = V c main_v26 (ix2 r k)
  congr 1
  funext a; apply Fin.ext
  match a with
  | ⟨0, _⟩ => show win1_0.index t (0 : Fin 2) * 5000 + 1 * p.val = r.val; omega
  | ⟨1, _⟩ => show win1_0.index t (1 : Fin 2) * 32 + 1 * k.val = k.val; omega

/-- Row p of point t's block of row factors is the factor of row 5000·t + p. -/
theorem scale_block_apply (c : Dev nD) (t : Fin cfg1.N) (p : Fin 5000) (r : Fin 100000)
    (hr : r.val = t.val * 5000 + p.val) :
    (iblk1 V c 1 t : Vec Ideal S5000x1 .f32) (ix2 p 0) = (V c main_v15 : S100000x1.Idx → EReal) (ix2 r 0) := by
  obtain ⟨-, -, e0, e1, -⟩ := blockIndex1 t
  unfold iblk1
  rw [View.read_apply]
  show V c main_v15 (((cfg1.win 1).blk t).view.emb (ix2 p 0)) = V c main_v15 (ix2 r 0)
  congr 1
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- The bias row's one block is the row itself. -/
theorem bias_block_apply (c : Dev nD) (t : Fin cfg1.N) (k : Fin 32) :
    (iblk1 V c 2 t : Vec Ideal S1x32 .f32) (ix2 0 k) = (V c main_v27 : S1x32.Idx → EReal) (ix2 0 k) := by
  obtain ⟨-, -, -, -, e0, e1, -⟩ := blockIndex1 t
  unfold iblk1
  rw [View.read_apply]
  show V c main_v27 (((cfg1.win 2).blk t).view.emb (ix2 0 k)) = V c main_v27 (ix2 0 k)
  congr 1
  funext a; apply Fin.ext
  match a with
  | ⟨0, _⟩ => show win1_2.index t (0 : Fin 2) * 1 + 1 * 0 = 0; omega
  | ⟨1, _⟩ => show win1_2.index t (1 : Fin 2) * 32 + 1 * k.val = k.val; omega

/-- The weight matrix's one block is the matrix itself. -/
theorem weight_block_apply (c : Dev nD) (t : Fin cfg1.N) (k q : Fin 32) :
    (iblk1 V c 3 t : Vec Ideal S32x32 .f32) (ix2 k q) = (V c main_arg5 : S32x32.Idx → EReal) (ix2 k q) := by
  obtain ⟨-, -, -, -, -, -, e0, e1, -⟩ := blockIndex1 t
  unfold iblk1
  rw [View.read_apply]
  show V c main_arg5 (((cfg1.win 3).blk t).view.emb (ix2 k q)) = V c main_arg5 (ix2 k q)
  congr 1
  funext a; apply Fin.ext
  match a with
  | ⟨0, _⟩ => show win1_3.index t (0 : Fin 2) * 32 + 1 * k.val = k.val; omega
  | ⟨1, _⟩ => show win1_3.index t (1 : Fin 2) * 32 + 1 * q.val = q.val; omega

/-- What point t writes back is block t of the one function: rows 5000·t … 5000·t + 4999. -/
theorem writeback1_eq (c : Dev nD) (t : Fin cfg1.N) :
    (dat1 V c).flushed 4 t = ((cfg1.win 4).blk t).view.read (Elt Ideal)
      (scaledDense1 (V c main_v26) (V c main_v15) (V c main_v27) (V c main_arg5)) := by
  show (cfg1.win 4).cut (grid1.coords t) ((dat1 V c).after 4 t) = _
  rw [after1_4]
  unfold out1_4
  obtain ⟨-, -, -, -, -, -, -, -, e0, e1⟩ := blockIndex1 t
  have hN : cfg1.N = 20 := N_1
  funext j
  obtain ⟨p, q, rfl⟩ : ∃ (p : Fin 5000) (q : Fin 32), j = ix2 p q := ⟨j 0, j 1, eq_ix2 j⟩
  have ht : t.val < 20 := hN ▸ t.isLt
  obtain ⟨r, hr⟩ : ∃ r : Fin 100000, r.val = t.val * 5000 + p.val := ⟨⟨t.val * 5000 + p.val, by have := p.isLt; omega⟩, rfl⟩
  rw [View.read_apply]
  have hemb : ((cfg1.win 4).blk t).view.emb (ix2 p q) = ix2 r q := by
    funext a; apply Fin.ext
    match a with
    | ⟨0, _⟩ => show win1_4.index t (0 : Fin 2) * 5000 + 1 * p.val = r.val; omega
    | ⟨1, _⟩ => show win1_4.index t (1 : Fin 2) * 32 + 1 * q.val = q.val; omega
  show k1_pay1 (iblk1 V c 0 t) (iblk1 V c 1 t) (iblk1 V c 2 t) (iblk1 V c 3 t) (iblk1 V c 1 t) (ix2 p q)
    = scaledDense1 (V c main_v26) (V c main_v15) (V c main_v27) (V c main_arg5) (((cfg1.win 4).blk t).view.emb (ix2 p q))
  refine ((pay1_apply _ _ _ _ p q).trans ?_).trans ((scaledDense1_apply _ _ _ _ r q).symm.trans
    (congrArg (scaledDense1 (V c main_v26) (V c main_v15) (V c main_v27) (V c main_arg5)) hemb.symm))
  refine congrArg₂ (· * ·) (Finset.sum_congr rfl fun k _ => ?_) (scale_block_apply V c t p r hr)
  exact congrArg₂ (· * ·) (congrArg₂ max (congrArg₂ (· + ·) (congrArg₂ (· * ·) (sums_block_apply V c t p k r hr)
    (scale_block_apply V c t p r hr)) (bias_block_apply V c t k)) rfl) (weight_block_apply V c t k q)

/-! ## The blocks tile the array -/

/-- A row-column pair is in point t's block iff each coordinate is in the block's range on its axis. -/
theorem mem_block1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v28).slice (win1_4.rect t)).set ↔ _
  rw [View.set_slice_whole, Rect.mem_set_unit]
  exact Iff.rfl

/-- Row r lies in the block of point r / 5000, and every point writes back. -/
theorem rows_covered1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := blockIndex1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- What region 1 leaves in its output array, as one function of the arrays it read. -/
theorem final1 (c : Dev nD) :
    (dat1 V c).arrAt 4 cfg1.N = scaledDense1 (V c main_v26) (V c main_v15) (V c main_v27) (V c main_arg5) :=
  (dat1 V c).arrAt_eq_of_cover 4 (scaledDense1 (V c main_v26) (V c main_v15) (V c main_v27) (V c main_arg5))
    (fun t _ => writeback1_eq V c t) rows_covered1

end Cert.KernelIdeal.Hand

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.HostIndexing.lean ====
import proofs.«405506_j40140764349028_2_alg».proof.KernelIdeal
import proofs.«405506_j40140764349028_2_alg».proof.ReferenceIdeal
import proofs.«405506_j40140764349028_2_alg».proof.Proof.LibSegmentScatter
import Idealize.ShloMosaic.Lib.ValueIdx
import Idealize.ShloMosaic.Lib.StableHlo.Predicate
import Idealize.ShloMosaic.PureOps.Ideal.Laws

/-! The host's row gather and accumulating scatter of the two programs, READ AT AN INDEX over the extended reals.
A gathered row is the table's row at the start index read signed and clamped into the table; a scatter-add's
entry is the operand's entry plus the sum of the updates whose start index, read signed and NOT clamped, is that
entry's row — an update whose index falls outside the operand adds nothing. Each reading is the general one of
LibSegmentScatter (any extents N, E, C) at this program's extents: the printed dimension records are those records. -/

set_option maxRecDepth 16384

noncomputable section

namespace Cert.HostIndexing

open Idealize.ShloMosaic Idealize.ShloMosaic.ValueIdx
open scoped BigOperators

/-- A start index read as a signed integer and clamped into the rows `0 … N−1` of a table. -/
def clampRow (N : Nat) (hN : 0 < N) (b : BitVec 32) : Fin N := ⟨min b.toInt.toNat (N - 1), by omega⟩

variable {α : Type}

-- the dimension records carry their program's stated side conditions (well-formedness of the dimension numbers):
-- the lemmas hold for any witness of them
variable [Cert.KernelIdeal.Facts₀] [Cert.ReferenceIdeal.Facts₀]

/-- A row gather of a [100000, 32] table by [3300000, 1] start indices: entry (e, k) is the table's at the
    clamped row and column k. -/
theorem gather_rows_apply (x : Cert.KernelIdeal.S100000x32.Idx → α) (idx : IVec Cert.KernelIdeal.S3300000x1 32)
    (e : Fin 3300000) (k : Fin 32) :
    Host.gather Cert.KernelIdeal.gather_S100000x32_S3300000x1_S3300000x32_1_0_n_n_0_1_132 x idx (ix2 e k)
      = x (ix2 (clampRow 100000 (by decide) (idx (ix2 e 0))) k) :=
  Cert.LibSegmentScatter.gather_rows_apply (N := 100000) (E := 3300000) (C := 32) (by decide)
    Cert.KernelIdeal.Facts₀.gather_S100000x32_S3300000x1_S3300000x32_1_0_n_n_0_1_132_wf x idx e k

/-- An entry gather of a [100000] table by [3300000, 1] start indices. -/
theorem gather_entries_apply (x : Cert.ReferenceIdeal.S100000.Idx → α) (idx : IVec Cert.ReferenceIdeal.S3300000x1 32)
    (e : Fin 3300000) :
    Host.gather Cert.ReferenceIdeal.gather_S100000_S3300000x1_S3300000_n_0_n_n_0_1_1 x idx (ix1 e)
      = x (ix1 (clampRow 100000 (by decide) (idx (ix2 e 0)))) :=
  Cert.LibSegmentScatter.gather_entries_apply (N := 100000) (E := 3300000) (by decide)
    Cert.ReferenceIdeal.Facts₀.gather_S100000_S3300000x1_S3300000_n_0_n_n_0_1_1_wf x idx e

/-- The edge scatter-add into a [100000, 32] operand: entry (v, k) gains the updates' column k over the edges whose
    start index, read signed, is v. -/
theorem scatterAdd_rows_apply (x : Cert.KernelIdeal.S100000x32.Idx → EReal) (idx : IVec Cert.KernelIdeal.S3300000x1 32)
    (upd : Cert.KernelIdeal.S3300000x32.Idx → EReal) (v : Fin 100000) (k : Fin 32) :
    Ideal.hostScatterAdd Cert.KernelIdeal.scatter_S100000x32_S3300000x1_S3300000x32_1_0_0_1 x idx upd (ix2 v k)
      = x (ix2 v k) + ∑ e : Fin 3300000, if (idx (ix2 e 0)).toInt = (v.val : ℤ) then upd (ix2 e k) else 0 :=
  Cert.LibSegmentScatter.scatterAdd_rows_apply (N := 100000) (E := 3300000) (C := 32)
    Cert.KernelIdeal.Facts₀.scatter_S100000x32_S3300000x1_S3300000x32_1_0_0_1_wf x idx upd v k

/-- The pooling scatter-add of node rows into a [2048, 32] operand by [100000, 1] graph ids. -/
theorem scatterAdd_pool_rows_apply (x : Cert.ReferenceIdeal.S2048x32.Idx → EReal) (idx : IVec Cert.ReferenceIdeal.S100000x1 32)
    (upd : Cert.ReferenceIdeal.S100000x32.Idx → EReal) (g : Fin 2048) (k : Fin 32) :
    Ideal.hostScatterAdd Cert.ReferenceIdeal.scatter_S2048x32_S100000x1_S100000x32_1_0_0_1 x idx upd (ix2 g k)
      = x (ix2 g k) + ∑ n : Fin 100000, if (idx (ix2 n 0)).toInt = (g.val : ℤ) then upd (ix2 n k) else 0 :=
  Cert.LibSegmentScatter.scatterAdd_rows_apply (N := 2048) (E := 100000) (C := 32)
    Cert.ReferenceIdeal.Facts₀.scatter_S2048x32_S100000x1_S100000x32_1_0_0_1_wf x idx upd g k

/-- The pooling scatter-add of node entries into a [2048] operand by [100000, 1] graph ids. -/
theorem scatterAdd_pool_entries_apply (x : Cert.ReferenceIdeal.S2048.Idx → EReal) (idx : IVec Cert.ReferenceIdeal.S100000x1 32)
    (upd : Cert.ReferenceIdeal.S100000.Idx → EReal) (g : Fin 2048) :
    Ideal.hostScatterAdd Cert.ReferenceIdeal.scatter_S2048_S100000x1_S100000_n_0_0_1 x idx upd (ix1 g)
      = x (ix1 g) + ∑ n : Fin 100000, if (idx (ix2 n 0)).toInt = (g.val : ℤ) then upd (ix1 n) else 0 :=
  Cert.LibSegmentScatter.scatterAdd_entries_apply (N := 2048) (E := 100000)
    Cert.ReferenceIdeal.Facts₀.scatter_S2048_S100000x1_S100000_n_0_0_1_wf x idx upd g

/-- The two programs print one and the same row gather and edge scatter. -/
theorem ref_gather_rows_eq : Cert.ReferenceIdeal.gather_S100000x32_S3300000x1_S3300000x32_1_0_n_n_0_1_132
    = Cert.KernelIdeal.gather_S100000x32_S3300000x1_S3300000x32_1_0_n_n_0_1_132 := rfl
theorem ref_scatter_rows_eq : Cert.ReferenceIdeal.scatter_S100000x32_S3300000x1_S3300000x32_1_0_0_1
    = Cert.KernelIdeal.scatter_S100000x32_S3300000x1_S3300000x32_1_0_0_1 := rfl

end Cert.HostIndexing

end
-- ==== Proof.LayerAlgebra.lean ====
import Idealize.ShloMosaic.PureOps.Ideal

/-! Two laws over the extended reals that join the kernel's arithmetic to the reference's.

THE LAYER LAW. A graph-convolution layer sums, into node v, the rows h[s] of the edges s → v weighted by
dis[s]·dis[v]. The reference multiplies each edge's row by that product and then sums; the kernel scales every
row by its own factor first, sums, and scales the sum by dis[v]. The two agree because every edge summed into v
has target v and multiplication by a FINITE factor distributes over a finite sum of FINITE terms — on the
extended reals it need not otherwise, so the entries are taken with real witnesses.

THE POOLING LAW. Summing the rows of the nodes of graph g is the sum over all nodes of the row times the 0/1
indicator "this node's graph id is g" (0·x = 0 and 1·x = x for every extended real x, finite or not). -/

noncomputable section

namespace Cert.LayerAlgebra

open scoped BigOperators

/-- A finite sum of real numbers, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {ι : Type} [Fintype ι] {N : Type}

/-- THE LAYER LAW at one node `v` and one column: `hs e` the gathered row entry of edge `e`, `ds e` its
    source's factor, `dt e` its target's factor as the reference gathers it, `into e` whether the edge is summed
    into `v`; every edge summed into `v` has the factor `dv` of `v` as its target's. -/
theorem layer_law (hs ds dt : ι → ℝ) (dv : ℝ) (into : ι → Prop) [DecidablePred into]
    (htarget : ∀ e, into e → dt e = dv) :
    ((0 : EReal) + ∑ e, if into e then ((hs e : ℝ) : EReal) * ((ds e : ℝ) : EReal) else 0) * ((dv : ℝ) : EReal)
      = (0 : EReal) + ∑ e, if into e then ((hs e : ℝ) : EReal) * (((ds e : ℝ) : EReal) * ((dt e : ℝ) : EReal)) else 0 := by
  have hL : ∀ e, (if into e then ((hs e : ℝ) : EReal) * ((ds e : ℝ) : EReal) else 0) = (((if into e then hs e * ds e else 0 : ℝ)) : EReal) := by
    intro e; split <;> simp [EReal.coe_mul]
  have hR : ∀ e, (if into e then ((hs e : ℝ) : EReal) * (((ds e : ℝ) : EReal) * ((dt e : ℝ) : EReal)) else 0)
      = (((if into e then hs e * (ds e * dv) else 0 : ℝ)) : EReal) := by
    intro e; split
    · rename_i h; rw [htarget e h]; simp [EReal.coe_mul]
    · simp
  simp only [hL, hR]
  rw [coe_sum, coe_sum, zero_add, zero_add, ← EReal.coe_mul]
  congr 1
  rw [Finset.sum_mul]
  refine Finset.sum_congr rfl fun e _ => ?_
  split <;> ring

/-- A 32-bit word is the word of a small natural exactly when it reads, signed, as that natural. -/
theorem word_eq_iff_toInt (b : BitVec 32) (g : ℕ) (hg : g < 2 ^ 31) : b = BitVec.ofNat 32 g ↔ b.toInt = (g : ℤ) := by
  have hmod : g % 2 ^ 32 = g := Nat.mod_eq_of_lt (by omega)
  constructor
  · rintro rfl
    rw [BitVec.toInt_eq_toNat_cond, BitVec.toNat_ofNat, hmod]
    split <;> omega
  · intro h
    apply BitVec.eq_of_toNat_eq
    rw [BitVec.toNat_ofNat, hmod]
    have hb := b.isLt
    rw [BitVec.toInt_eq_toNat_cond] at h
    split at h <;> omega

/-- THE POOLING LAW, rows: the indicator-weighted sum over all nodes is the sum over the graph's nodes. -/
theorem pool_rows (bt : ι → BitVec 32) (g : ℕ) (hg : g < 2 ^ 31) (a : ι → EReal) :
    (∑ n, (if bt n = BitVec.ofNat 32 g then (1 : EReal) else 0) * a n)
      = (0 : EReal) + ∑ n, if (bt n).toInt = (g : ℤ) then a n else 0 := by
  rw [zero_add]
  refine Finset.sum_congr rfl fun n _ => ?_
  by_cases h : bt n = BitVec.ofNat 32 g
  · rw [if_pos h, if_pos ((word_eq_iff_toInt _ g hg).mp h), one_mul]
  · rw [if_neg h, if_neg (fun h' => h ((word_eq_iff_toInt _ g hg).mpr h')), zero_mul]

/-- THE POOLING LAW, counts. -/
theorem pool_counts (bt : ι → BitVec 32) (g : ℕ) (hg : g < 2 ^ 31) :
    (∑ n, (if bt n = BitVec.ofNat 32 g then (1 : EReal) else 0))
      = (0 : EReal) + ∑ n, if (bt n).toInt = (g : ℤ) then (1 : EReal) else 0 := by
  rw [zero_add]
  refine Finset.sum_congr rfl fun n _ => ?_
  by_cases h : bt n = BitVec.ofNat 32 g
  · rw [if_pos h, if_pos ((word_eq_iff_toInt _ g hg).mp h)]
  · rw [if_neg h, if_neg (fun h' => h ((word_eq_iff_toInt _ g hg).mpr h'))]

end Cert.LayerAlgebra

end
-- ==== Proof.JoinCore.lean ====
import proofs.«405506_j40140764349028_2_alg».proof.Proof.HostIndexing
import proofs.«405506_j40140764349028_2_alg».proof.Proof.LayerAlgebra

/-! The kernel's folded normalisation against the reference's per-edge one, over the host's own gather and
scatter-add, at the exact instance. The kernel gathers the rows h[s]·dis[s] (already scaled by the source's factor),
scatter-adds them by the raw target index into zeros and scales row v of the result by dis[v]; the reference
gathers h[s], multiplies by dis[s]·dis[t] with t the target index as a gather reads it, and scatter-adds by the
same raw target index. An edge is summed into v exactly when its raw target index is v, and then the target's
gathered factor is dis[v]: with real entries the two are one number, by the layer law. -/

set_option maxRecDepth 16384

noncomputable section

namespace Cert.JoinCore

open Idealize.ShloMosaic Idealize.ShloMosaic.ValueIdx Cert.HostIndexing Cert.LayerAlgebra
open scoped BigOperators

variable [Cert.KernelIdeal.Facts₀] [Cert.ReferenceIdeal.Facts₀]

/-- One graph-convolution layer: the kernel's aggregate at (v, k), scaled by v's factor, is the reference's
    per-edge weighted sum there. `h` the dense layer's rows, `d` the column of row factors, `tcol` the column of
    raw target indices the scatter reads, `scol` the column of wrapped source indices the gather reads, `tW e`
    the wrapped target word at which the reference gathers edge e's target factor. -/
theorem layer_join (h : Cert.KernelIdeal.S100000x32.Idx → EReal) (d : Cert.KernelIdeal.S100000x1.Idx → EReal)
    (hh : ∀ i, ∃ r : ℝ, h i = (r : EReal)) (hd : ∀ i, ∃ r : ℝ, d i = (r : EReal))
    (zeros : Cert.KernelIdeal.S100000x32.Idx → EReal) (hz : ∀ i, zeros i = 0)
    (tcol scol : IVec Cert.KernelIdeal.S3300000x1 32) (tW : Fin 3300000 → BitVec 32)
    (htarget : ∀ (e : Fin 3300000) (v : Fin 100000), (tcol (ix2 e 0)).toInt = (v.val : ℤ) →
      clampRow 100000 (by decide) (tW e) = v)
    (v : Fin 100000) (k : Fin 32) :
    Ideal.hostScatterAdd Cert.KernelIdeal.scatter_S100000x32_S3300000x1_S3300000x32_1_0_0_1 zeros tcol
        (Host.gather Cert.KernelIdeal.gather_S100000x32_S3300000x1_S3300000x32_1_0_n_n_0_1_132
          (fun i : Cert.KernelIdeal.S100000x32.Idx => h i * d (ix2 (i 0) 0)) scol) (ix2 v k) * d (ix2 v 0)
      = (0 : EReal) + ∑ e : Fin 3300000, if (tcol (ix2 e 0)).toInt = (v.val : ℤ)
          then h (ix2 (clampRow 100000 (by decide) (scol (ix2 e 0))) k)
            * (d (ix2 (clampRow 100000 (by decide) (scol (ix2 e 0))) 0) * d (ix2 (clampRow 100000 (by decide) (tW e)) 0))
          else 0 := by
  classical
  choose hr hhr using hh
  choose dr hdr using hd
  rw [scatterAdd_rows_apply, hz]
  have hg : ∀ e : Fin 3300000,
      Host.gather Cert.KernelIdeal.gather_S100000x32_S3300000x1_S3300000x32_1_0_n_n_0_1_132
          (fun i : Cert.KernelIdeal.S100000x32.Idx => h i * d (ix2 (i 0) 0)) scol (ix2 e k)
        = ((hr (ix2 (clampRow 100000 (by decide) (scol (ix2 e 0))) k) : ℝ) : EReal)
          * ((dr (ix2 (clampRow 100000 (by decide) (scol (ix2 e 0))) 0) : ℝ) : EReal) := by
    intro e
    rw [gather_rows_apply, hhr, hdr]
  simp only [hg]
  have hL := layer_law (ι := Fin 3300000)
    (fun e => hr (ix2 (clampRow 100000 (by decide) (scol (ix2 e 0))) k))
    (fun e => dr (ix2 (clampRow 100000 (by decide) (scol (ix2 e 0))) 0))
    (fun e => dr (ix2 (clampRow 100000 (by decide) (tW e)) 0))
    (dr (ix2 v 0)) (fun e => (tcol (ix2 e 0)).toInt = (v.val : ℤ))
    (fun e he => by rw [htarget e v he])
  rw [hdr (ix2 v 0)]
  refine hL.trans ?_
  refine congrArg ((0 : EReal) + ·) (Finset.sum_congr rfl fun e _ => ?_)
  split
  · rw [hhr, hdr, hdr]
  · rfl

/-- Pooling, rows: the one-hot weighted sum over all nodes is the sum over the nodes whose graph id reads g. -/
theorem pool_rows_join (a : Cert.KernelIdeal.S100000x32.Idx → EReal) (bt : Cert.KernelIdeal.S100000x1.Idx → BitVec 32)
    (g : Fin 2048) (k : Fin 32) :
    (∑ n : Fin 100000, (if bt (ix2 n 0) = BitVec.ofNat 32 g.val then (1 : EReal) else 0) * a (ix2 n k))
      = (0 : EReal) + ∑ n : Fin 100000, if (bt (ix2 n 0)).toInt = (g.val : ℤ) then a (ix2 n k) else 0 :=
  pool_rows (fun n : Fin 100000 => bt (ix2 n 0)) g.val (by have := g.isLt; omega) (fun n => a (ix2 n k))

/-- Pooling, counts. -/
theorem pool_counts_join (bt : Cert.KernelIdeal.S100000x1.Idx → BitVec 32) (g : Fin 2048) :
    (∑ n : Fin 100000, (if bt (ix2 n 0) = BitVec.ofNat 32 g.val then (1 : EReal) else 0))
      = (0 : EReal) + ∑ n : Fin 100000, if (bt (ix2 n 0)).toInt = (g.val : ℤ) then (1 : EReal) else 0 :=
  pool_counts (fun n : Fin 100000 => bt (ix2 n 0)) g.val (by have := g.isLt; omega)

end Cert.JoinCore

end
-- ==== Proof.RefFormula.lean ====
import proofs.«405506_j40140764349028_2_alg».proof.Proof.RefReadP
import proofs.«405506_j40140764349028_2_alg».proof.Proof.HostIndexing
import Idealize.ShloMosaic.Lib.IdealHost

/-! The reference network read at an index, over the extended reals: each graph-convolution layer's output entry
as one sum over the edges (self-loops included) of the gathered, doubly row-scaled features of the edges that
point at the entry's node, plus the bias; and the network's result per graph as the mean-pooled second layer's
row against the final weight column, plus the final bias. The second layer recomputes the edge lists, the
in-degrees and the row factors with fresh buffers: they are the first layer's. -/

set_option maxRecDepth 16384

noncomputable section

namespace Cert.ReferenceIdeal.Formula

open Cert.ReferenceIdeal Cert.ReferenceIdeal.ReadP Cert.HostIndexing
open Idealize.ShloMosaic Idealize.ShloMosaic.ValueIdx
open scoped BigOperators

/-! ## The second layer's recomputed edge lists and row factors are the first layer's -/

section Recomputed

variable {F : FTy → Type} [FloatOps F]

/-- The source list with the self-loops appended, built a second time. -/
theorem sources_again (x1 : (⟨S2x3200000, .i32⟩ : BufTy).Contents (Elt F)) : val_main_v50 (F := F) x1 = val_main_v6 (F := F) x1 := rfl

/-- The target list with the self-loops appended, built a second time. -/
theorem targets_again (x1 : (⟨S2x3200000, .i32⟩ : BufTy).Contents (Elt F)) : val_main_v51 (F := F) x1 = val_main_v7 (F := F) x1 := rfl

/-- The row factors (reciprocal square roots of the in-degrees, zero off positive degrees), computed a second time. -/
theorem rowFactors_again (x1 : (⟨S2x3200000, .i32⟩ : BufTy).Contents (Elt F)) : val_main_v59 (F := F) x1 = val_main_v15 (F := F) x1 := rfl

/-- The sources with negative words wrapped by the node count: the copy the row gather reads is the copy the
    factor gather reads, -/
theorem wrappedSources_rows (x1 : (⟨S2x3200000, .i32⟩ : BufTy).Contents (Elt F)) : val_main_v35 (F := F) x1 = val_main_v20 (F := F) x1 := rfl

/-- and so are the second layer's two copies; -/
theorem wrappedSources_again (x1 : (⟨S2x3200000, .i32⟩ : BufTy).Contents (Elt F)) : val_main_v64 (F := F) x1 = val_main_v20 (F := F) x1 := rfl
theorem wrappedSources_rows_again (x1 : (⟨S2x3200000, .i32⟩ : BufTy).Contents (Elt F)) : val_main_v79 (F := F) x1 = val_main_v20 (F := F) x1 := rfl

/-- the wrapped targets likewise. -/
theorem wrappedTargets_again (x1 : (⟨S2x3200000, .i32⟩ : BufTy).Contents (Elt F)) : val_main_v71 (F := F) x1 = val_main_v27 (F := F) x1 := rfl

end Recomputed

/-! ## The names of the formulas -/

/-- A node's row factor: the reciprocal square root of its in-degree (self-loop counted), zero where the degree is
    not positive. -/
abbrev rowFactor (x1 : (⟨S2x3200000, .i32⟩ : BufTy).Contents (Elt Ideal)) : S100000.Idx → EReal := val_main_v15 (F := Ideal) x1
/-- Edge `e`'s source word, a negative word wrapped by the node count. -/
abbrev srcWord (x1 : (⟨S2x3200000, .i32⟩ : BufTy).Contents (Elt Ideal)) (e : Fin 3300000) : BitVec 32 := val_main_v20 (F := Ideal) x1 (ix1 e)
/-- Edge `e`'s target word as given (the scatter reads it signed, unwrapped and unclamped), -/
abbrev dstRawWord (x1 : (⟨S2x3200000, .i32⟩ : BufTy).Contents (Elt Ideal)) (e : Fin 3300000) : BitVec 32 := val_main_v7 (F := Ideal) x1 (ix1 e)
/-- and wrapped (the factor gather reads this one). -/
abbrev dstWord (x1 : (⟨S2x3200000, .i32⟩ : BufTy).Contents (Elt Ideal)) (e : Fin 3300000) : BitVec 32 := val_main_v27 (F := Ideal) x1 (ix1 e)
/-- The node a gather reads for a start word: the word read signed and clamped into the nodes. -/
abbrev nodeRow (b : BitVec 32) : Fin 100000 := clampRow 100000 (by decide) b

variable [Cert.KernelIdeal.Facts₀] [Cert.ReferenceIdeal.Facts₀]

/-! ## The layout stages at explicit coordinates -/

section Coordinates

variable {F : FTy → Type} [FloatOps F]

/-- A per-edge list as a one-column matrix, read at its row. -/
theorem srcColumn1 (x1 : (⟨S2x3200000, .i32⟩ : BufTy).Contents (Elt F)) (e : Fin 3300000) :
    val_main_v21 (F := F) x1 (ix2 e 0) = val_main_v20 (F := F) x1 (ix1 e) :=
  (val_main_v21_apply x1 (ix2 e 0)).trans (congrArg (val_main_v20 (F := F) x1) (funext fun a => match a with | ⟨0, _⟩ => rfl))
theorem dstColumn1 (x1 : (⟨S2x3200000, .i32⟩ : BufTy).Contents (Elt F)) (e : Fin 3300000) :
    val_main_v28 (F := F) x1 (ix2 e 0) = val_main_v27 (F := F) x1 (ix1 e) :=
  (val_main_v28_apply x1 (ix2 e 0)).trans (congrArg (val_main_v27 (F := F) x1) (funext fun a => match a with | ⟨0, _⟩ => rfl))
theorem srcRowsColumn1 (x1 : (⟨S2x3200000, .i32⟩ : BufTy).Contents (Elt F)) (e : Fin 3300000) :
    val_main_v36 (F := F) x1 (ix2 e 0) = val_main_v35 (F := F) x1 (ix1 e) :=
  (val_main_v36_apply x1 (ix2 e 0)).trans (congrArg (val_main_v35 (F := F) x1) (funext fun a => match a with | ⟨0, _⟩ => rfl))
theorem dstRawColumn1 (x1 : (⟨S2x3200000, .i32⟩ : BufTy).Contents (Elt F)) (e : Fin 3300000) :
    val_main_v42 (F := F) x1 (ix2 e 0) = val_main_v7 (F := F) x1 (ix1 e) :=
  (val_main_v42_apply x1 (ix2 e 0)).trans (congrArg (val_main_v7 (F := F) x1) (funext fun a => match a with | ⟨0, _⟩ => rfl))
theorem factorColumn1 (x1 : (⟨S2x3200000, .i32⟩ : BufTy).Contents (Elt F)) (e : Fin 3300000) :
    val_main_v38 (F := F) x1 (ix2 e 0) = val_main_v30 (F := F) x1 (ix1 e) :=
  (val_main_v38_apply x1 (ix2 e 0)).trans (congrArg (val_main_v30 (F := F) x1) (funext fun a => match a with | ⟨0, _⟩ => rfl))
theorem srcColumn2 (x1 : (⟨S2x3200000, .i32⟩ : BufTy).Contents (Elt F)) (e : Fin 3300000) :
    val_main_v65 (F := F) x1 (ix2 e 0) = val_main_v64 (F := F) x1 (ix1 e) :=
  (val_main_v65_apply x1 (ix2 e 0)).trans (congrArg (val_main_v64 (F := F) x1) (funext fun a => match a with | ⟨0, _⟩ => rfl))
theorem dstColumn2 (x1 : (⟨S2x3200000, .i32⟩ : BufTy).Contents (Elt F)) (e : Fin 3300000) :
    val_main_v72 (F := F) x1 (ix2 e 0) = val_main_v71 (F := F) x1 (ix1 e) :=
  (val_main_v72_apply x1 (ix2 e 0)).trans (congrArg (val_main_v71 (F := F) x1) (funext fun a => match a with | ⟨0, _⟩ => rfl))
theorem srcRowsColumn2 (x1 : (⟨S2x3200000, .i32⟩ : BufTy).Contents (Elt F)) (e : Fin 3300000) :
    val_main_v80 (F := F) x1 (ix2 e 0) = val_main_v79 (F := F) x1 (ix1 e) :=
  (val_main_v80_apply x1 (ix2 e 0)).trans (congrArg (val_main_v79 (F := F) x1) (funext fun a => match a with | ⟨0, _⟩ => rfl))
theorem dstRawColumn2 (x1 : (⟨S2x3200000, .i32⟩ : BufTy).Contents (Elt F)) (e : Fin 3300000) :
    val_main_v86 (F := F) x1 (ix2 e 0) = val_main_v51 (F := F) x1 (ix1 e) :=
  (val_main_v86_apply x1 (ix2 e 0)).trans (congrArg (val_main_v51 (F := F) x1) (funext fun a => match a with | ⟨0, _⟩ => rfl))
theorem factorColumn2 (x1 : (⟨S2x3200000, .i32⟩ : BufTy).Contents (Elt F)) (e : Fin 3300000) :
    val_main_v82 (F := F) x1 (ix2 e 0) = val_main_v74 (F := F) x1 (ix1 e) :=
  (val_main_v82_apply x1 (ix2 e 0)).trans (congrArg (val_main_v74 (F := F) x1) (funext fun a => match a with | ⟨0, _⟩ => rfl))

/-- The per-edge factor spread along the features. -/
theorem factorSpread1 (x1 : (⟨S2x3200000, .i32⟩ : BufTy).Contents (Elt F)) (e : Fin 3300000) (k : Fin 32) :
    val_main_v39 (F := F) x1 (ix2 e k) = val_main_v38 (F := F) x1 (ix2 e 0) :=
  (val_main_v39_apply x1 (ix2 e k)).trans (congrArg (val_main_v38 (F := F) x1) (funext fun a => match a with | ⟨0, _⟩ => rfl | ⟨1, _⟩ => rfl))
theorem factorSpread2 (x1 : (⟨S2x3200000, .i32⟩ : BufTy).Contents (Elt F)) (e : Fin 3300000) (k : Fin 32) :
    val_main_v83 (F := F) x1 (ix2 e k) = val_main_v82 (F := F) x1 (ix2 e 0) :=
  (val_main_v83_apply x1 (ix2 e k)).trans (congrArg (val_main_v82 (F := F) x1) (funext fun a => match a with | ⟨0, _⟩ => rfl | ⟨1, _⟩ => rfl))

/-- A bias row spread along the nodes. -/
theorem biasSpread1 (x4 : (⟨S32, .f32⟩ : BufTy).Contents (Elt F)) (v : Fin 100000) (k : Fin 32) :
    val_main_v45 (F := F) x4 (ix2 v k) = x4 (ix1 k) := by
  rw [val_main_v45_apply, val_main_v44_apply]
  exact congrArg x4 (funext fun a => match a with | ⟨0, _⟩ => rfl)
theorem biasSpread2 (x6 : (⟨S32, .f32⟩ : BufTy).Contents (Elt F)) (v : Fin 100000) (k : Fin 32) :
    val_main_v89 (F := F) x6 (ix2 v k) = x6 (ix1 k) := by
  rw [val_main_v89_apply, val_main_v88_apply]
  exact congrArg x6 (funext fun a => match a with | ⟨0, _⟩ => rfl)

/-- The graph ids as a one-column matrix, read at its row. -/
theorem graphColumn_rows (x2 : (⟨S100000, .i32⟩ : BufTy).Contents (Elt F)) (n : Fin 100000) :
    val_main_v92 (F := F) x2 (ix2 n 0) = x2 (ix1 n) :=
  (val_main_v92_apply x2 (ix2 n 0)).trans (congrArg x2 (funext fun a => match a with | ⟨0, _⟩ => rfl))
theorem graphColumn_count (x2 : (⟨S100000, .i32⟩ : BufTy).Contents (Elt F)) (n : Fin 100000) :
    val_main_v96 (F := F) x2 (ix2 n 0) = x2 (ix1 n) :=
  (val_main_v96_apply x2 (ix2 n 0)).trans (congrArg x2 (funext fun a => match a with | ⟨0, _⟩ => rfl))

/-- The final bias spread along the graphs. -/
theorem finalBiasSpread (x8 : (⟨S1, .f32⟩ : BufTy).Contents (Elt F)) (g : Fin 2048) :
    val_main_v105 (F := F) x8 (ix2 g 0) = x8 (ix1 0) := by
  rw [val_main_v105_apply, val_main_v104_apply]
  exact congrArg x8 (funext fun a => match a with | ⟨0, _⟩ => rfl)

/-- The clamped node count of a graph spread along the features. -/
theorem countSpread (x2 : (⟨S100000, .i32⟩ : BufTy).Contents (Elt F)) (g : Fin 2048) (k : Fin 32) :
    val_main_v101 (F := F) x2 (ix2 g k) = val_main_v99 (F := F) x2 (ix1 g) := by
  rw [val_main_v101_apply, val_main_v100_apply]
  exact congrArg (val_main_v99 (F := F) x2) (funext fun a => match a with | ⟨0, _⟩ => rfl)

end Coordinates

/-! ## The constant fills over the extended reals -/

theorem zeroFill1 (i : S100000x32.Idx) : val_main_v41 (F := Ideal) i = 0 := by
  rw [val_main_v41_apply, val_main_cst_8_apply, Ideal.ofBits_def, Ideal.ofBits_zero_f32]
theorem zeroFill2 (i : S100000x32.Idx) : val_main_v85 (F := Ideal) i = 0 := by
  rw [val_main_v85_apply, val_main_cst_19_apply, Ideal.ofBits_def, Ideal.ofBits_zero_f32]
theorem zeroFillPool (i : S2048x32.Idx) : val_main_v91 (F := Ideal) i = 0 := by
  rw [val_main_v91_apply, val_main_cst_20_apply, Ideal.ofBits_def, Ideal.ofBits_zero_f32]
theorem zeroFillCount (i : S2048.Idx) : val_main_v95 (F := Ideal) i = 0 := by
  rw [val_main_v95_apply, val_main_cst_22_apply, Ideal.ofBits_def, Ideal.ofBits_zero_f32]
theorem oneFillNodes (i : S100000.Idx) : val_main_v94 (F := Ideal) i = 1 := by
  rw [val_main_v94_apply, val_main_cst_21_apply, Ideal.ofBits_def, Ideal.ofBits_one_f32]
theorem oneFillGraphs (i : S2048.Idx) : val_main_v98 (F := Ideal) i = 1 := by
  rw [val_main_v98_apply, val_main_cst_23_apply, Ideal.ofBits_def, Ideal.ofBits_one_f32]

/-! ## An accumulating scatter into zeros, read through what its operands hold -/

/-- The edge scatter-add of updates `upd` by the index column `idx` into an operand that is zero at `(v, k)`, when the
    column reads the list `t` and the updates' column `k` reads `u`: the sum of `u` over the edges whose `t`, read
    signed, is `v`. -/
theorem scatter_rows_into_zeros (x : S100000x32.Idx → EReal) (idx : IVec S3300000x1 32) (upd : S3300000x32.Idx → EReal)
    (t : Fin 3300000 → BitVec 32) (u : Fin 3300000 → EReal) (v : Fin 100000) (k : Fin 32)
    (hx : x (ix2 v k) = 0) (hidx : ∀ e, idx (ix2 e 0) = t e) (hupd : ∀ e, upd (ix2 e k) = u e) :
    Host.scatterAdd (F := Ideal) (φ := .f32) scatter_S100000x32_S3300000x1_S3300000x32_1_0_0_1 x idx upd (ix2 v k)
      = (0 : EReal) + ∑ e : Fin 3300000, if (t e).toInt = (v.val : ℤ) then u e else 0 := by
  refine ((congrFun (Ideal.hostScatterAdd_def _ HostSchedule.single x idx upd) (ix2 v k)).trans
    (scatterAdd_rows_apply x idx upd v k)).trans ?_
  rw [hx]
  refine congrArg (fun s => (0 : EReal) + s) (Finset.sum_congr rfl fun e _ => ?_)
  rw [hidx, hupd]

/-- The pooling scatter-add of node rows by the graph-id column into an operand that is zero at `(g, k)`. -/
theorem scatter_pool_rows_into_zeros (x : S2048x32.Idx → EReal) (idx : IVec S100000x1 32) (upd : S100000x32.Idx → EReal)
    (t : Fin 100000 → BitVec 32) (g : Fin 2048) (k : Fin 32)
    (hx : x (ix2 g k) = 0) (hidx : ∀ n, idx (ix2 n 0) = t n) :
    Host.scatterAdd (F := Ideal) (φ := .f32) scatter_S2048x32_S100000x1_S100000x32_1_0_0_1 x idx upd (ix2 g k)
      = (0 : EReal) + ∑ n : Fin 100000, if (t n).toInt = (g.val : ℤ) then upd (ix2 n k) else 0 := by
  refine ((congrFun (Ideal.hostScatterAdd_def _ HostSchedule.single x idx upd) (ix2 g k)).trans
    (scatterAdd_pool_rows_apply x idx upd g k)).trans ?_
  rw [hx]
  refine congrArg (fun s => (0 : EReal) + s) (Finset.sum_congr rfl fun n _ => ?_)
  rw [hidx]

/-- The pooling scatter-add of ones by the graph-id column into an operand that is zero at `g`: the graph's node count. -/
theorem scatter_pool_ones_into_zeros (x : S2048.Idx → EReal) (idx : IVec S100000x1 32) (upd : S100000.Idx → EReal)
    (t : Fin 100000 → BitVec 32) (g : Fin 2048)
    (hx : x (ix1 g) = 0) (hidx : ∀ n, idx (ix2 n 0) = t n) (hupd : ∀ n, upd (ix1 n) = 1) :
    Host.scatterAdd (F := Ideal) (φ := .f32) scatter_S2048_S100000x1_S100000_n_0_0_1 x idx upd (ix1 g)
      = (0 : EReal) + ∑ n : Fin 100000, if (t n).toInt = (g.val : ℤ) then (1 : EReal) else 0 := by
  refine ((congrFun (Ideal.hostScatterAdd_def _ HostSchedule.single x idx upd) (ix1 g)).trans
    (scatterAdd_pool_entries_apply x idx upd g)).trans ?_
  rw [hx]
  refine congrArg (fun s => (0 : EReal) + s) (Finset.sum_congr rfl fun n _ => ?_)
  rw [hidx, hupd]

/-- Layer 1: the gathered dense rows, -/
theorem gatheredRows1 (x0 : (⟨S100000x128, .f32⟩ : BufTy).Contents (Elt Ideal)) (x1 : (⟨S2x3200000, .i32⟩ : BufTy).Contents (Elt Ideal)) (x3 : (⟨S128x32, .f32⟩ : BufTy).Contents (Elt Ideal)) (e : Fin 3300000) (k : Fin 32) :
    val_main_v37 (F := Ideal) x0 x1 x3 (ix2 e k)
      = val_main_v4 (F := Ideal) x0 x3 (ix2 (nodeRow (val_main_v36 (F := Ideal) x1 (ix2 e 0))) k) := by
  unfold val_main_v37
  rw [ref_gather_rows_eq]
  exact gather_rows_apply _ _ e k

/-- the row factor gathered at the edge's source and at its target, -/
theorem factorAtSource1 (x1 : (⟨S2x3200000, .i32⟩ : BufTy).Contents (Elt Ideal)) (e : Fin 3300000) :
    val_main_v22 (F := Ideal) x1 (ix1 e) = val_main_v15 (F := Ideal) x1 (ix1 (nodeRow (val_main_v21 (F := Ideal) x1 (ix2 e 0)))) := by
  unfold val_main_v22
  exact gather_entries_apply _ _ e
theorem factorAtTarget1 (x1 : (⟨S2x3200000, .i32⟩ : BufTy).Contents (Elt Ideal)) (e : Fin 3300000) :
    val_main_v29 (F := Ideal) x1 (ix1 e) = val_main_v15 (F := Ideal) x1 (ix1 (nodeRow (val_main_v28 (F := Ideal) x1 (ix2 e 0)))) := by
  unfold val_main_v29
  exact gather_entries_apply _ _ e

/-- the edge's term: its source's dense row times the two row factors, -/
theorem edgeTerm1 (x0 : (⟨S100000x128, .f32⟩ : BufTy).Contents (Elt Ideal)) (x1 : (⟨S2x3200000, .i32⟩ : BufTy).Contents (Elt Ideal)) (x3 : (⟨S128x32, .f32⟩ : BufTy).Contents (Elt Ideal)) (e : Fin 3300000) (k : Fin 32) :
    val_main_v40 (F := Ideal) x0 x1 x3 (ix2 e k)
      = val_main_v4 (F := Ideal) x0 x3 (ix2 (nodeRow (srcWord x1 e)) k)
        * (rowFactor x1 (ix1 (nodeRow (srcWord x1 e))) * rowFactor x1 (ix1 (nodeRow (dstWord x1 e)))) := by
  rw [val_main_v40_apply, gatheredRows1, srcRowsColumn1, wrappedSources_rows, factorSpread1, factorColumn1, val_main_v30_apply,
    factorAtSource1, srcColumn1, factorAtTarget1, dstColumn1] <;>
    simp only [Ideal.mulf_def]

/-- The first layer before its relu, at node `v` and feature `k`. -/
theorem layer1_apply (x0 : (⟨S100000x128, .f32⟩ : BufTy).Contents (Elt Ideal)) (x1 : (⟨S2x3200000, .i32⟩ : BufTy).Contents (Elt Ideal)) (x3 : (⟨S128x32, .f32⟩ : BufTy).Contents (Elt Ideal)) (x4 : (⟨S32, .f32⟩ : BufTy).Contents (Elt Ideal))
    (v : Fin 100000) (k : Fin 32) :
    val_main_v46 (F := Ideal) x0 x1 x3 x4 (ix2 v k)
      = ((0 : EReal) + ∑ e : Fin 3300000, if (dstRawWord x1 e).toInt = (v.val : ℤ)
          then val_main_v4 (F := Ideal) x0 x3 (ix2 (nodeRow (srcWord x1 e)) k)
            * (rowFactor x1 (ix1 (nodeRow (srcWord x1 e))) * rowFactor x1 (ix1 (nodeRow (dstWord x1 e))))
          else 0) + x4 (ix1 k) := by
  rw [val_main_v46_apply, biasSpread1, Ideal.addf_def]
  exact congrArg (fun s : EReal => s + x4 (ix1 k))
    (scatter_rows_into_zeros (val_main_v41 (F := Ideal)) (val_main_v42 (F := Ideal) x1) (val_main_v40 (F := Ideal) x0 x1 x3)
      (fun e => dstRawWord x1 e) (fun e => val_main_v4 (F := Ideal) x0 x3 (ix2 (nodeRow (srcWord x1 e)) k)
        * (rowFactor x1 (ix1 (nodeRow (srcWord x1 e))) * rowFactor x1 (ix1 (nodeRow (dstWord x1 e)))))
      v k (zeroFill1 _) (fun e => dstRawColumn1 x1 e) (fun e => edgeTerm1 x0 x1 x3 e k))

/-- Layer 2: the gathered dense rows, -/
theorem gatheredRows2 (x0 : (⟨S100000x128, .f32⟩ : BufTy).Contents (Elt Ideal)) (x1 : (⟨S2x3200000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (e : Fin 3300000) (k : Fin 32) :
    val_main_v81 (F := Ideal) x0 x1 x3 x4 x5 (ix2 e k)
      = val_main_v48 (F := Ideal) x0 x1 x3 x4 x5 (ix2 (nodeRow (val_main_v80 (F := Ideal) x1 (ix2 e 0))) k) := by
  unfold val_main_v81
  rw [ref_gather_rows_eq]
  exact gather_rows_apply _ _ e k

/-- the row factor gathered at the edge's source and at its target, -/
theorem factorAtSource2 (x1 : (⟨S2x3200000, .i32⟩ : BufTy).Contents (Elt Ideal)) (e : Fin 3300000) :
    val_main_v66 (F := Ideal) x1 (ix1 e) = val_main_v59 (F := Ideal) x1 (ix1 (nodeRow (val_main_v65 (F := Ideal) x1 (ix2 e 0)))) := by
  unfold val_main_v66
  exact gather_entries_apply _ _ e
theorem factorAtTarget2 (x1 : (⟨S2x3200000, .i32⟩ : BufTy).Contents (Elt Ideal)) (e : Fin 3300000) :
    val_main_v73 (F := Ideal) x1 (ix1 e) = val_main_v59 (F := Ideal) x1 (ix1 (nodeRow (val_main_v72 (F := Ideal) x1 (ix2 e 0)))) := by
  unfold val_main_v73
  exact gather_entries_apply _ _ e

/-- the edge's term: its source's dense row times the two row factors, -/
theorem edgeTerm2 (x0 : (⟨S100000x128, .f32⟩ : BufTy).Contents (Elt Ideal)) (x1 : (⟨S2x3200000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (e : Fin 3300000) (k : Fin 32) :
    val_main_v84 (F := Ideal) x0 x1 x3 x4 x5 (ix2 e k)
      = val_main_v48 (F := Ideal) x0 x1 x3 x4 x5 (ix2 (nodeRow (srcWord x1 e)) k)
        * (rowFactor x1 (ix1 (nodeRow (srcWord x1 e))) * rowFactor x1 (ix1 (nodeRow (dstWord x1 e)))) := by
  rw [val_main_v84_apply, gatheredRows2, srcRowsColumn2, wrappedSources_rows_again, factorSpread2, factorColumn2, val_main_v74_apply,
    factorAtSource2, srcColumn2, factorAtTarget2, dstColumn2, wrappedSources_again, wrappedTargets_again, rowFactors_again] <;>
    simp only [Ideal.mulf_def]

/-- The second layer, at node `v` and feature `k`: the same sum over the same edges with the same factors, of the
    second dense layer's rows. -/
theorem layer2_apply (x0 : (⟨S100000x128, .f32⟩ : BufTy).Contents (Elt Ideal)) (x1 : (⟨S2x3200000, .i32⟩ : BufTy).Contents (Elt Ideal)) (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) (v : Fin 100000) (k : Fin 32) :
    val_main_v90 (F := Ideal) x0 x1 x3 x4 x5 x6 (ix2 v k)
      = ((0 : EReal) + ∑ e : Fin 3300000, if (dstRawWord x1 e).toInt = (v.val : ℤ)
          then val_main_v48 (F := Ideal) x0 x1 x3 x4 x5 (ix2 (nodeRow (srcWord x1 e)) k)
            * (rowFactor x1 (ix1 (nodeRow (srcWord x1 e))) * rowFactor x1 (ix1 (nodeRow (dstWord x1 e))))
          else 0) + x6 (ix1 k) := by
  rw [val_main_v90_apply, biasSpread2, Ideal.addf_def]
  exact congrArg (fun s : EReal => s + x6 (ix1 k))
    (scatter_rows_into_zeros (val_main_v85 (F := Ideal)) (val_main_v86 (F := Ideal) x1) (val_main_v84 (F := Ideal) x0 x1 x3 x4 x5)
      (fun e => dstRawWord x1 e) (fun e => val_main_v48 (F := Ideal) x0 x1 x3 x4 x5 (ix2 (nodeRow (srcWord x1 e)) k)
        * (rowFactor x1 (ix1 (nodeRow (srcWord x1 e))) * rowFactor x1 (ix1 (nodeRow (dstWord x1 e)))))
      v k (zeroFill2 _) (fun e => (dstRawColumn2 x1 e).trans (congrFun (targets_again x1) (ix1 e))) (fun e => edgeTerm2 x0 x1 x3 x4 x5 e k))

/-- The network's result for graph `g`: the graph's summed second-layer rows over its node count (at least one),
    against the final weight column, plus the final bias. -/
theorem result_apply (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x32, .f32⟩ : BufTy).Contents (Elt Ideal))
    (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (g : Fin 2048) :
    val_main_v106 (F := Ideal) x0 x1 x2 x3 x4 x5 x6 x7 x8 (ix2 g 0)
      = (∑ k : Fin 32, Ideal.div
            ((0 : EReal) + ∑ n : Fin 100000, if (x2 (ix1 n)).toInt = (g.val : ℤ) then val_main_v90 (F := Ideal) x0 x1 x3 x4 x5 x6 (ix2 n k) else 0)
            (max ((0 : EReal) + ∑ n : Fin 100000, if (x2 (ix1 n)).toInt = (g.val : ℤ) then (1 : EReal) else 0) 1)
          * x7 (ix2 k 0)) + x8 (ix1 0) := by
  rw [val_main_v106_apply, finalBiasSpread, Ideal.addf_def, val_main_v103_apply]
  refine congrArg (fun s : EReal => s + x8 (ix1 0)) (Finset.sum_congr rfl fun k _ => ?_)
  have hl : lidx_main_v103 (ix2 g 0) k = ix2 g k := funext fun a => match a with | ⟨0, _⟩ => rfl | ⟨1, _⟩ => rfl
  have hr : ridx_main_v103 (ix2 g 0) k = ix2 k 0 := funext fun a => match a with | ⟨0, _⟩ => rfl | ⟨1, _⟩ => rfl
  rw [hl, hr, val_main_v102_apply, Ideal.hostDivf_def, countSpread, val_main_v99_apply, Ideal.maximumf_def, oneFillGraphs]
  exact congrArg (fun s : EReal => s * x7 (ix2 k 0)) (congrArg₂ Ideal.div
    (scatter_pool_rows_into_zeros (val_main_v91 (F := Ideal)) (val_main_v92 (F := Ideal) x2) (val_main_v90 (F := Ideal) x0 x1 x3 x4 x5 x6)
      (fun n => x2 (ix1 n)) g k (zeroFillPool _) (fun n => graphColumn_rows x2 n))
    (congrArg (fun s : EReal => max s 1)
      (scatter_pool_ones_into_zeros (val_main_v95 (F := Ideal)) (val_main_v96 (F := Ideal) x2) (val_main_v94 (F := Ideal))
        (fun n => x2 (ix1 n)) g (zeroFillCount _) (fun n => graphColumn_count x2 n) (fun n => oneFillNodes _))))

end Cert.ReferenceIdeal.Formula

end
-- ==== Proof.Finite.lean ====
import proofs.«405506_j40140764349028_2_alg».proof.Pre_finite_inputs
import proofs.«405506_j40140764349028_2_alg».proof.Proof.LayerAlgebra
import Idealize.ShloMosaic.Lib.ReduceAll
import Idealize.ShloMosaic.Lib.ValueIdx
import Idealize.ShloMosaic.PureOps.Ideal.Laws

/-! Finiteness. The law that joins the two programs distributes a row's factor over a sum of edge rows; over the extended
reals that holds for finite data only. Here: the stated precondition (every float argument's entries have absolute value
below +∞) gives every entry as a real number; products, sums, maxima and finite sums of reals are reals, hence so is every
entry of a dense layer and of a rectified affine step; and a row's factor — the reciprocal square root of its degree where
the degree is positive, zero elsewhere — is a real whatever the degree. -/

noncomputable section

namespace Cert.Finite

open Idealize.ShloMosaic Idealize.ShloMosaic.ValueIdx
open scoped BigOperators

/-! ## Reals are closed under the layer's arithmetic -/

/-- Zero is a real. -/
theorem real_zero : ∃ r : ℝ, (0 : EReal) = (r : EReal) := ⟨0, rfl⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem real_sum {ι : Type} (s : Finset ι) (f : ι → EReal) (hf : ∀ i ∈ s, ∃ r : ℝ, f i = (r : EReal)) :
    ∃ r : ℝ, ∑ i ∈ s, f i = (r : EReal) := by
  classical
  choose! g hg using hf
  exact ⟨∑ i ∈ s, g i, (Finset.sum_congr rfl hg).trans (Cert.LayerAlgebra.coe_sum s g)⟩

/-- An entry of a dense layer over real data is a real: Σ_j x[p,j]·w[j,q]. -/
theorem real_dense_apply {m n k : Nat} (x : (⟨2, ![m, n]⟩ : Shape).Idx → EReal) (w : (⟨2, ![n, k]⟩ : Shape).Idx → EReal)
    (hx : ∀ i, ∃ r : ℝ, x i = (r : EReal)) (hw : ∀ i, ∃ r : ℝ, w i = (r : EReal)) (p : Fin m) (q : Fin k) :
    ∃ r : ℝ, ∑ j : Fin n, x (ix2 p j) * w (ix2 j q) = (r : EReal) :=
  real_sum _ _ fun j _ => real_mul (hx _) (hw _)

/-- The same at an index of the result. -/
theorem real_dense {m n k : Nat} (x : (⟨2, ![m, n]⟩ : Shape).Idx → EReal) (w : (⟨2, ![n, k]⟩ : Shape).Idx → EReal)
    (hx : ∀ i, ∃ r : ℝ, x i = (r : EReal)) (hw : ∀ i, ∃ r : ℝ, w i = (r : EReal)) (i : (⟨2, ![m, k]⟩ : Shape).Idx) :
    ∃ r : ℝ, ∑ j : Fin n, x (ix2 (i 0) j) * w (ix2 j (i 1)) = (r : EReal) :=
  real_sum _ _ fun j _ => real_mul (hx _) (hw _)

/-- A rectified affine step of reals is a real: max(s·d + b, 0). -/
theorem real_relu_affine {s d b : EReal} (hs : ∃ r : ℝ, s = (r : EReal)) (hd : ∃ r : ℝ, d = (r : EReal))
    (hb : ∃ r : ℝ, b = (r : EReal)) : ∃ r : ℝ, max (s * d + b) 0 = (r : EReal) :=
  real_max (real_add (real_mul hs hd) hb) real_zero

/-! ## A row's factor is a real whatever its degree -/

/-- The factor of a row of degree d — the reciprocal square root of d where d > 0, zero elsewhere — is a real:
    a positive real's reciprocal root is a real, +∞'s is 0, and every other degree is sent to 0. -/
theorem rowFactor_real (d : EReal) :
    ∃ r : ℝ, Scalar.select (Ideal.cmp .ogt d 0) (Ideal.rsqrt d) (0 : EReal) = (r : EReal) := by
  induction d using EReal.rec with
  | bot =>
    have hc : Ideal.cmp .ogt (⊥ : EReal) 0 = 0#1 := by simp [Ideal.cmp]
    exact ⟨0, by rw [hc]; rfl⟩
  | coe r =>
    by_cases hr : 0 < r
    · have hc : Ideal.cmp .ogt (r : EReal) 0 = 1#1 := by simp [Ideal.cmp, hr]
      refine ⟨(Real.sqrt r)⁻¹, ?_⟩
      rw [hc, Ideal.rsqrt_coe, if_neg (not_lt.2 hr.le), if_neg hr.ne']
      rfl
    · have hc : Ideal.cmp .ogt (r : EReal) 0 = 0#1 := by simp [Ideal.cmp, hr]
      exact ⟨0, by rw [hc]; rfl⟩
  | top =>
    have hc : Ideal.cmp .ogt (⊤ : EReal) 0 = 1#1 := by simp [Ideal.cmp]
    exact ⟨0, by rw [hc, Ideal.rsqrt_top]; rfl⟩

/-- The same for a whole array as the programs spell it: a select on degree > zeros between the reciprocal square
    roots and zeros, the zeros any arrays that are zero at every index. -/
theorem rowFactor_array_real {s : Shape} (deg z z' : FVec Ideal s .f32) (hz : ∀ i, z i = 0) (hz' : ∀ i, z' i = 0) (i : s.Idx) :
    ∃ r : ℝ, select (cmpf (F := Ideal) .ogt deg z) (Host.rsqrt deg) z' i = (r : EReal) := by
  rw [select_apply, cmpf_apply, hz, hz']
  exact rowFactor_real (deg i)

/-! ## From the stated precondition to real entries -/

section Pre

open Cert.Pre_finite_inputs

variable [Cert.Pre_finite_inputs.Facts]

/-- An extended real whose absolute value is below +∞ is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have h' : Ideal.cmp .olt (max x (-x)) ⊤ = 1#1 := h
  induction x using EReal.rec with
  | bot => simp [Ideal.cmp] at h'
  | coe r => exact ⟨r, rfl⟩
  | top => simp [Ideal.cmp] at h'

/-- The stated precondition gives every entry of every float argument as a real. -/
theorem real_of_pre (x0 : FVec Ideal S100000x128 .f32) (x1 : IVec S2x3200000 32) (x2 : IVec S100000 32)
    (x3 : FVec Ideal S128x32 .f32) (x4 : FVec Ideal S32 .f32) (x5 : FVec Ideal S32x32 .f32) (x6 : FVec Ideal S32 .f32)
    (x7 : FVec Ideal S32x1 .f32) (x8 : FVec Ideal S1 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) ∧ (∀ i, ∃ r : ℝ, x7 i = (r : EReal))
      ∧ (∀ i, ∃ r : ℝ, x8 i = (r : EReal)) := by
  haveI : Subsingleton S_.Idx := ⟨fun a b => funext fun d => d.elim0⟩
  have h0 := congrFun h ix0
  dsimp only [fn, fn_part1] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  refine ⟨fun i => ?_, fun i => ?_, fun i => ?_, fun i => ?_, fun i => ?_, fun i => ?_, fun i => ?_⟩
  · exact real_of_abs_lt_top _ (Host.reduce_andi_all _ _ _ _ _ e0 i)
  · exact real_of_abs_lt_top _ (Host.reduce_andi_all _ _ _ _ _ e3 i)
  · exact real_of_abs_lt_top _ (Host.reduce_andi_all _ _ _ _ _ e4 i)
  · exact real_of_abs_lt_top _ (Host.reduce_andi_all _ _ _ _ _ e5 i)
  · exact real_of_abs_lt_top _ (Host.reduce_andi_all _ _ _ _ _ e6 i)
  · exact real_of_abs_lt_top _ (Host.reduce_andi_all _ _ _ _ _ e7 i)
  · exact real_of_abs_lt_top _ (Host.reduce_andi_all _ _ _ _ _ e8 i)

end Pre

end Cert.Finite

end
-- ==== Proof.TargetRow.lean ====
import proofs.«405506_j40140764349028_2_alg».proof.Proof.RefReadP
import proofs.«405506_j40140764349028_2_alg».proof.Proof.HostIndexing
import Idealize.ShloMosaic.Lib.ValueIdx

/-! An edge summed into node v gathers its target's factor at row v. The reference sums an edge's message into the row
its raw target word names, read signed and not clamped: the edge counts for node v exactly when that word is v as an
integer, so the word is nonnegative and below the node count. It gathers the target's row factor at the WRAPPED word
(a negative word has the node count added), read signed and clamped into the table. On a word that is a node both
the wrap and the clamp are the identity: the gathered row is v. -/

noncomputable section

namespace Cert.Join

open Idealize.ShloMosaic Idealize.ShloMosaic.ValueIdx

/-- Wrapping a negative index by the node count leaves a nonnegative word alone. -/
theorem wrap_of_nonneg (b : BitVec 32) (h : 0 ≤ b.toInt) :
    Scalar.select (IntOp.cmpi .slt b 0#32) (IntOp.addi b 100000#32) b = b := by
  have hlt : b.slt 0#32 = false := by
    rw [BitVec.slt_eq_decide, BitVec.toInt_zero]
    exact decide_eq_false (by omega)
  have hc : IntOp.cmpi .slt b 0#32 = 0#1 := by
    show BitVec.ofBool (b.slt 0#32) = 0#1
    rw [hlt]; rfl
  rw [hc, select_zero]

/-- A word that is the node v as a signed integer clamps to v. -/
theorem clampRow_of_toInt (b : BitVec 32) (v : Fin 100000) (h : b.toInt = (v.val : ℤ)) :
    Cert.HostIndexing.clampRow 100000 (by decide) b = v := by
  apply Fin.ext
  show min b.toInt.toNat (100000 - 1) = v.val
  have := v.isLt
  omega

variable [Cert.ReferenceIdeal.Facts₀]

/-- The row at which the reference gathers the target's factor of an edge whose raw target word is the node v: v. -/
theorem target_row (ei : IVec Cert.ReferenceIdeal.S2x3200000 32) (e : Fin 3300000) (v : Fin 100000)
    (h : (Cert.ReferenceIdeal.ReadP.val_main_v7 (F := Ideal) ei (ix1 e)).toInt = (v.val : ℤ)) :
    Cert.HostIndexing.clampRow 100000 (by decide) (Cert.ReferenceIdeal.ReadP.val_main_v27 (F := Ideal) ei (ix1 e)) = v := by
  have hw : Cert.ReferenceIdeal.ReadP.val_main_v27 (F := Ideal) ei (ix1 e)
      = Cert.ReferenceIdeal.ReadP.val_main_v7 (F := Ideal) ei (ix1 e) := by
    rw [Cert.ReferenceIdeal.ReadP.val_main_v27_apply, Cert.ReferenceIdeal.ReadP.val_main_v24_apply,
      Cert.ReferenceIdeal.ReadP.val_main_v26_apply, Cert.ReferenceIdeal.ReadP.val_main_v23_apply,
      Cert.ReferenceIdeal.ReadP.val_main_v25_apply, Cert.ReferenceIdeal.ReadP.val_main_c_4_apply,
      Cert.ReferenceIdeal.ReadP.val_main_c_5_apply]
    exact wrap_of_nonneg _ (by rw [h]; exact Int.natCast_nonneg _)
  rw [hw]
  exact clampRow_of_toInt _ v h

end Cert.Join

end
-- ==== Proof.JoinLayer2.lean ====
import proofs.«405506_j40140764349028_2_alg».proof.Proof.KiHost
import proofs.«405506_j40140764349028_2_alg».proof.Proof.KiVal1
import proofs.«405506_j40140764349028_2_alg».proof.Proof.JoinCore
import proofs.«405506_j40140764349028_2_alg».proof.Proof.RefFormula
import proofs.«405506_j40140764349028_2_alg».proof.Proof.Finite
import proofs.«405506_j40140764349028_2_alg».proof.Proof.JoinDefs
import proofs.«405506_j40140764349028_2_alg».proof.Proof.TargetRow

/-! The second graph-convolution layer, kernel against reference, at the exact instance.

The kernel enters region 2 with the aggregate of what region 1 left: region 1's array is the second dense layer of the
rectified first layer, each row already scaled by its node's factor; the host gathers those rows by source, sums them
by raw target, and region 2 scales row v by v's factor once more and adds the bias. The reference gathers the
unscaled rows, multiplies each edge's row by the product of its two ends' factors, sums by raw target and adds the
bias. Given that the two agree on the first layer before its rectification, and that the entries involved are real
numbers, they agree on the second layer, entry by entry. -/

set_option maxRecDepth 16384

noncomputable section

namespace Cert.Join

open Cert.KernelIdeal Cert.KernelIdeal.Facts₀ Cert.KernelIdeal.Hand
open Idealize.ShloMosaic Idealize.ShloMosaic.TcCoe Idealize.ShloMosaic.ValueIdx
open Cert.HostIndexing Cert.Finite
open Cert.ReferenceIdeal.ReadP (val_main_v7 val_main_v15 val_main_v20 val_main_v27 val_main_v46 val_main_v47 val_main_v48 val_main_v90)
open scoped BigOperators

variable [Cert.KernelIdeal.Facts₀] [Cert.ReferenceIdeal.Facts₀]

namespace Layer2

/-! ## Small readings -/

/-- A list of indices as a column, read at row e. -/
theorem asColumn_apply (s : IVec S3300000 32) (e : Fin 3300000) : asColumn s (ix2 e 0) = s (ix1 e) :=
  broadcastInDim_apply _ bcast_S3300000_S3300000x1_0 s (ix2 e 0) (ix1 e) (fun a => match a with
    | ⟨0, _⟩ => by show e.val = if (3300000 : Nat) = 1 then 0 else e.val; rw [if_neg (by decide)])

/-- A vector of 100000 entries as a column, read at row r. -/
theorem column_apply {α : Type} (x : S100000.Idx → α) (r : Fin 100000) :
    shapeCast S100000x1 x shapeCasts_S100000_S100000x1 (ix2 r 0) = x (ix1 r) :=
  shapeCast_apply x shapeCasts_S100000_S100000x1 (ix2 r 0) (ix1 r) (by
    rewrite [Shape.rowMajor_val_two, Shape.rowMajor_val_one]
    show r.val = r.val * 1 + 0
    omega)

/-- A vector of 32 entries as a row, read at column k. -/
theorem row_apply {α : Type} (x : S32.Idx → α) (k : Fin 32) :
    shapeCast S1x32 x shapeCasts_S32_S1x32 (ix2 0 k) = x (ix1 k) :=
  shapeCast_apply x shapeCasts_S32_S1x32 (ix2 0 k) (ix1 k) (by
    rewrite [Shape.rowMajor_val_two, Shape.rowMajor_val_one]
    show k.val = 0 * 32 + k.val
    omega)

/-- The scatter's operand of zeros is zero at every entry. -/
theorem zeros_apply (i : S100000x32.Idx) :
    broadcastInDim S100000x32 ![] bcast_S_S100000x32 (constant (F := Ideal) S_ .f32 0x00000000#32) i = 0 :=
  (broadcastInDim_apply _ bcast_S_S100000x32 (constant (F := Ideal) S_ .f32 0x00000000#32) i (fun a => a.elim0)
    (fun a => a.elim0)).trans Ideal.ofBits_zero_f32

/-- The second dense layer of the reference, entry (r, j): Σ_k max(pre[r,k], 0) · W2[k,j] with pre the first layer
    before its rectification. -/
theorem dense2_read (x0 : FVec Ideal S100000x128 .f32) (x1 : IVec S2x3200000 32) (x3 : FVec Ideal S128x32 .f32)
    (x4 : FVec Ideal S32 .f32) (x5 : FVec Ideal S32x32 .f32) (r : Fin 100000) (j : Fin 32) :
    val_main_v48 (F := Ideal) x0 x1 x3 x4 x5 (ix2 r j)
      = ∑ k : Fin 32, max (val_main_v46 (F := Ideal) x0 x1 x3 x4 (ix2 r k)) 0 * x5 (ix2 k j) := by
  rw [Cert.ReferenceIdeal.ReadP.val_main_v48_apply]
  refine Finset.sum_congr rfl fun k _ => ?_
  have el : Cert.ReferenceIdeal.ReadP.lidx_main_v48 (ix2 r j) k = ix2 r k := funext fun a => Fin.ext (by
    match a with
    | ⟨0, _⟩ => rfl
    | ⟨1, _⟩ => rfl)
  have er : Cert.ReferenceIdeal.ReadP.ridx_main_v48 (ix2 r j) k = ix2 k j := funext fun a => Fin.ext (by
    match a with
    | ⟨0, _⟩ => rfl
    | ⟨1, _⟩ => rfl)
  rw [el, er, Cert.ReferenceIdeal.ReadP.val_main_v47_apply, Cert.ReferenceIdeal.ReadP.val_main_call1_v0_apply,
    Cert.ReferenceIdeal.ReadP.val_main_call1_cst_apply, Ideal.maximumf_def, Ideal.ofBits_def, Ideal.ofBits_zero_f32]

/-- The degree's comparand and the factor's fallback, zeros over the nodes, are zero at every node. -/
theorem nodeZeros_apply (i : S100000.Idx) :
    broadcastInDim S100000 ![] bcast_S_S100000 (constant (F := Ideal) S_ .f32 0x00000000#32) i = 0 :=
  (broadcastInDim_apply _ bcast_S_S100000 (constant (F := Ideal) S_ .f32 0x00000000#32) i (fun a => a.elim0)
    (fun a => a.elim0)).trans Ideal.ofBits_zero_f32

/-- Every node's factor is a real number, whatever its degree. -/
theorem rowFactor_real (ei : IVec S2x3200000 32) (i : S100000.Idx) :
    ∃ r : ℝ, rowFactor (F := Ideal) ei i = (r : EReal) :=
  rowFactor_array_real (degree (F := Ideal) ei) _ _ nodeZeros_apply nodeZeros_apply i

/-! ## The two programs name the same index lists and the same factors -/

theorem sources_same (ei : IVec S2x3200000 32) : wrapped (srcIdx ei) = val_main_v20 (F := Ideal) ei := rfl
theorem targets_same (ei : IVec S2x3200000 32) : dstIdx ei = val_main_v7 (F := Ideal) ei := rfl
theorem factors_same (ei : IVec S2x3200000 32) : rowFactor (F := Ideal) ei = val_main_v15 (F := Ideal) ei := rfl

/-- A layer's aggregation at the exact instance is the host's accumulating scatter of the gathered rows. -/
theorem aggregate_ideal (ei : IVec S2x3200000 32) (h : FVec Ideal S100000x32 .f32) :
    aggregate (F := Ideal) ei h
      = Ideal.hostScatterAdd scatter_S100000x32_S3300000x1_S3300000x32_1_0_0_1
          (broadcastInDim S100000x32 ![] bcast_S_S100000x32 (constant (F := Ideal) S_ .f32 0x00000000#32))
          (asColumn (dstIdx ei))
          (Host.gather gather_S100000x32_S3300000x1_S3300000x32_1_0_n_n_0_1_132 h (asColumn (wrapped (srcIdx ei)))) :=
  rfl

end Layer2

open Layer2

variable (m : (ℓ : Loc nD τ sig) → Buf (Elt Ideal) ℓ) (c : Dev nD)

/-- What region 1 leaves, entry (r, j): the reference's second dense layer there, scaled by row r's factor `D r` —
    given that the two programs agree on the first layer before its rectification. -/
theorem left1_apply (D : S100000x1.Idx → EReal) (hD : D = E0 (F := Ideal) m c main_v15)
    (h1 : ∀ (v : Fin 100000) (k : Fin 32),
      affineRow (E1 (F := Ideal) m c main_v26) (E0 (F := Ideal) m c main_v15) (E1 (F := Ideal) m c main_v27) v k
        = val_main_v46 (F := Ideal) (m ((c : Thread nD τ).loc main_arg0)) (m ((c : Thread nD τ).loc main_arg1)) (m ((c : Thread nD τ).loc main_arg3)) (m ((c : Thread nD τ).loc main_arg4)) (ix2 v k))
    (r : Fin 100000) (j : Fin 32) :
    res1 (F := Ideal) m c (ix2 r j)
      = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r j) * D (ix2 r 0) := by
  subst hD
  show (dat1 (E1 (F := Ideal) m) c).arrAt 4 cfg1.N (ix2 r j) = _
  rw [final1, scaledDense1_apply, dense2_read]
  refine congrArg₂ (· * ·) (Finset.sum_congr rfl fun k _ => ?_) (congrFun (E1_v15 m c) (ix2 r 0))
  rw [← h1 r k]
  unfold affineRow
  rw [E1_v15, E1_arg5]

/-- THE SECOND LAYER AGREES, entry (v, k): region 2's aggregate scaled by v's factor plus the bias is the reference's
    second layer before pooling — given the first layer's agreement and that its entries are real. -/
theorem layer2_agree_of (hreal : RealArgs m c)
    (h1 : ∀ (v : Fin 100000) (k : Fin 32),
      affineRow (E1 (F := Ideal) m c main_v26) (E0 (F := Ideal) m c main_v15) (E1 (F := Ideal) m c main_v27) v k
        = val_main_v46 (F := Ideal) (m ((c : Thread nD τ).loc main_arg0)) (m ((c : Thread nD τ).loc main_arg1)) (m ((c : Thread nD τ).loc main_arg3)) (m ((c : Thread nD τ).loc main_arg4)) (ix2 v k))
    (hreal46 : ∀ i, ∃ r : ℝ, val_main_v46 (F := Ideal) (m ((c : Thread nD τ).loc main_arg0)) (m ((c : Thread nD τ).loc main_arg1)) (m ((c : Thread nD τ).loc main_arg3)) (m ((c : Thread nD τ).loc main_arg4)) i = (r : EReal))
    (v : Fin 100000) (k : Fin 32) :
    affineRow (E2 (F := Ideal) m c main_v38) (E0 (F := Ideal) m c main_v15) (E2 (F := Ideal) m c main_v39) v k
      = val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 v k) := by
  obtain ⟨-, -, -, hW2, -⟩ := hreal
  -- the factor column, as a function into the extended reals, is the reference's factors
  obtain ⟨D, hD⟩ : ∃ D : S100000x1.Idx → EReal, D = E0 (F := Ideal) m c main_v15 := ⟨_, rfl⟩
  have hDr : ∀ r : Fin 100000, D (ix2 r 0) = val_main_v15 (F := Ideal) (edges m c) (ix1 r) := fun r => by
    rw [hD, E0_v15, column_apply, factors_same]
  have hDreal : ∀ i, ∃ r : ℝ, D i = (r : EReal) := fun i => by
    obtain ⟨r, z, rfl⟩ : ∃ (r : Fin 100000) (z : Fin 1), i = ix2 r z := ⟨i 0, i 1, eq_ix2 i⟩
    obtain rfl : z = 0 := Subsingleton.elim _ _
    rw [hDr, ← factors_same]
    exact rowFactor_real _ _
  -- the second dense layer of the reference, as a function into the extended reals, has real entries
  obtain ⟨H, hH⟩ : ∃ H : S100000x32.Idx → EReal,
      H = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := ⟨_, rfl⟩
  have hHreal : ∀ i, ∃ r : ℝ, H i = (r : EReal) := fun i => by
    obtain ⟨r, j, rfl⟩ : ∃ (r : Fin 100000) (j : Fin 32), i = ix2 r j := ⟨i 0, i 1, eq_ix2 i⟩
    rw [hH, dense2_read]
    exact real_sum _ _ fun k _ => real_mul (real_max (hreal46 _) real_zero) (hW2 _)
  -- what region 1 left is those rows, each scaled by its node's factor
  have hleft : (res1 (F := Ideal) m c : S100000x32.Idx → EReal) = fun i => H i * D (ix2 (i 0) 0) := funext fun i => by
    obtain ⟨r, j, rfl⟩ : ∃ (r : Fin 100000) (j : Fin 32), i = ix2 r j := ⟨i 0, i 1, eq_ix2 i⟩
    rw [hH]
    exact left1_apply m c D hD h1 r j
  -- region 2's side: the aggregate is the host's scatter-add of the gathered, scaled rows
  have hL : affineRow (E2 (F := Ideal) m c main_v38) (E0 (F := Ideal) m c main_v15) (E2 (F := Ideal) m c main_v39) v k
      = Ideal.hostScatterAdd scatter_S100000x32_S3300000x1_S3300000x32_1_0_0_1
            (broadcastInDim S100000x32 ![] bcast_S_S100000x32 (constant (F := Ideal) S_ .f32 0x00000000#32))
            (asColumn (dstIdx (edges m c)))
            (Host.gather gather_S100000x32_S3300000x1_S3300000x32_1_0_n_n_0_1_132 (fun i => H i * D (ix2 (i 0) 0))
              (asColumn (wrapped (srcIdx (edges m c))))) (ix2 v k) * D (ix2 v 0)
          + (m ((c : Thread nD τ).loc main_arg6) : FVec Ideal S32 .f32) (ix1 k) := by
    unfold affineRow
    rw [← hD, E2_v38, E2_v39, row_apply, aggregate_ideal, hleft]
  -- the kernel's sum over the edges, by the layer law
  have hagg := Cert.JoinCore.layer_join H D hHreal hDreal _ zeros_apply (asColumn (dstIdx (edges m c)))
    (asColumn (wrapped (srcIdx (edges m c)))) (fun e => val_main_v27 (F := Ideal) (edges m c) (ix1 e))
    (fun e v he => target_row (edges m c) e v (by rw [asColumn_apply, targets_same] at he; exact he)) v k
  -- the reference's sum over the edges
  have href := Cert.ReferenceIdeal.Formula.layer2_apply (m ((c : Thread nD τ).loc main_arg0)) (m ((c : Thread nD τ).loc main_arg1)) (m ((c : Thread nD τ).loc main_arg3)) (m ((c : Thread nD τ).loc main_arg4)) (m ((c : Thread nD τ).loc main_arg5))
    (m ((c : Thread nD τ).loc main_arg6)) v k
  rw [← hH] at href
  refine hL.trans (Eq.trans ?_ href.symm)
  refine congrArg₂ (· + ·) (hagg.trans ?_) rfl
  refine congrArg ((0 : EReal) + ·) (Finset.sum_congr rfl fun e _ => ?_)
  rw [asColumn_apply, asColumn_apply, targets_same, sources_same, hDr, hDr]

end Cert.Join

end
-- ==== Proof.JoinLayers.lean ====
import proofs.«405506_j40140764349028_2_alg».proof.Proof.KiHost
import proofs.«405506_j40140764349028_2_alg».proof.Proof.KiVal0
import proofs.«405506_j40140764349028_2_alg».proof.Proof.KiVal1
import proofs.«405506_j40140764349028_2_alg».proof.Proof.JoinCore
import proofs.«405506_j40140764349028_2_alg».proof.Proof.RefFormula
import proofs.«405506_j40140764349028_2_alg».proof.Proof.Finite
import proofs.«405506_j40140764349028_2_alg».proof.Proof.TargetRow
import proofs.«405506_j40140764349028_2_alg».proof.Proof.JoinDefs
import proofs.«405506_j40140764349028_2_alg».proof.Proof.JoinLayer2

/-! The two graph-convolution layers of the kernel program against the reference's, at the exact instance.
Both programs compute the edge indices and the row factors dis = rsqrt(in-degree) by the same operations on the
edge array, so those stages are one function. Region 0 leaves x·W1 scaled by dis row-wise; the host aggregates it
over the edges; region 1 scales the aggregate by dis again, adds the bias — at that point the kernel holds what the
reference's first layer holds before its relu (the layer law) — rectifies, applies W2 and scales by dis; the host
aggregates again, and scaling by dis and adding the second bias gives the reference's second layer. -/

set_option maxRecDepth 16384

noncomputable section

namespace Cert.Join

open Idealize.ShloMosaic Idealize.ShloMosaic.TcCoe Idealize.ShloMosaic.ValueIdx
open Idealize.SL Idealize.SL.Sem
open Cert.HostIndexing
open scoped BigOperators

/-! ## The index and factor stages are the reference's -/

section Stages
variable {F : FTy → Type} [FloatOps F]

/-- The kernel program's wrapped source indices are the reference's. -/
theorem wrappedSources_eq (ei : IVec Cert.KernelIdeal.S2x3200000 32) :
    Cert.KernelIdeal.Hand.wrapped (Cert.KernelIdeal.Hand.srcIdx ei) = Cert.ReferenceIdeal.ReadP.val_main_v20 (F := F) ei := rfl

/-- The raw target indices likewise. -/
theorem targets_eq (ei : IVec Cert.KernelIdeal.S2x3200000 32) :
    Cert.KernelIdeal.Hand.dstIdx ei = Cert.ReferenceIdeal.ReadP.val_main_v7 (F := F) ei := rfl

/-- The row factors likewise. -/
theorem rowFactor_eq (ei : IVec Cert.KernelIdeal.S2x3200000 32) :
    Cert.KernelIdeal.Hand.rowFactor (F := F) ei = Cert.ReferenceIdeal.ReadP.val_main_v15 (F := F) ei := rfl

end Stages

/-! ## Small readings at an index -/

section Readings
open Cert.KernelIdeal Cert.KernelIdeal.Hand
variable [Cert.ReferenceIdeal.Facts₀]

/-- A word vector laid out as a column, read at an entry. -/
theorem asColumn_apply (s : IVec S3300000 32) (e : Fin 3300000) : asColumn s (ix2 e 0) = s (ix1 e) := by
  unfold asColumn
  exact broadcastInDim_apply _ Cert.KernelIdeal.Facts₀.bcast_S3300000_S3300000x1_0 s (ix2 e 0) (ix1 e) (fun a => match a with
    | ⟨0, _⟩ => by show e.val = if (3300000 : Nat) = 1 then 0 else e.val; rw [if_neg (by decide)])

/-- The aggregation starts from zeros. -/
theorem zeros_apply (i : S100000x32.Idx) :
    broadcastInDim S100000x32 ![] Cert.KernelIdeal.Facts₀.bcast_S_S100000x32 (constant (F := Ideal) S_ .f32 0x00000000#32) i = (0 : EReal) := by
  rw [broadcastInDim_apply _ Cert.KernelIdeal.Facts₀.bcast_S_S100000x32 _ i ix0 (fun a => a.elim0), constant_apply, Ideal.ofBits_zero_f32]

variable (m : (ℓ : Loc Cert.KernelIdeal.nD Cert.KernelIdeal.τ Cert.KernelIdeal.sig) → Buf (Elt Ideal) ℓ) (c : Dev Cert.KernelIdeal.nD)

/-- The row-factor column the regions read is the reference's row factor, entry by entry. -/
theorem factorColumn_apply (r : Fin 100000) :
    (E0 (F := Ideal) m c main_v15 : FVec Ideal S100000x1 .f32) (ix2 r 0)
      = Cert.ReferenceIdeal.ReadP.val_main_v15 (F := Ideal) (edges m c) (ix1 r) := by
  rw [E0_v15, ← rowFactor_eq (F := Ideal)]
  exact shapeCast_apply _ _ (ix2 r 0) (ix1 r) (by
    rw [Shape.rowMajor_val_two, Shape.rowMajor_val_one]
    show r.val = r.val * 1 + 0
    omega)

/-- Region 0's result is the reference's first dense layer, each row scaled by its factor. -/
theorem res0_eq :
    (res0 (F := Ideal) m c : FVec Ideal S100000x32 .f32)
      = fun i : S100000x32.Idx => Cert.ReferenceIdeal.ReadP.val_main_v4 (F := Ideal)
          (m ((c.tc : Thread Cert.KernelIdeal.nD Cert.KernelIdeal.τ).loc main_arg0))
          (m ((c.tc : Thread Cert.KernelIdeal.nD Cert.KernelIdeal.τ).loc main_arg3)) i
        * (E0 (F := Ideal) m c main_v15 : FVec Ideal S100000x1 .f32) (ix2 (i 0) 0) := by
  have h := final0 (E0 (F := Ideal) m) c
  rw [E0_arg0, E0_arg3] at h
  refine (show (res0 (F := Ideal) m c : FVec Ideal S100000x32 .f32) = _ from h).trans ?_
  funext i
  unfold scaledDense0
  rw [Cert.ReferenceIdeal.ReadP.val_main_v4_apply]
  refine congrArg (· * _) (Finset.sum_congr rfl fun k _ => ?_)
  refine congrArg₂ (· * ·) (congrArg _ (funext fun a => Fin.ext (by match a with | ⟨0, _⟩ => rfl | ⟨1, _⟩ => rfl)))
    (congrArg _ (funext fun a => Fin.ext (by match a with | ⟨0, _⟩ => rfl | ⟨1, _⟩ => rfl)))

end Readings

/-! ## The first layer -/

section Layer1
open Cert.KernelIdeal Cert.KernelIdeal.Hand

variable (m : (ℓ : Loc Cert.KernelIdeal.nD Cert.KernelIdeal.τ Cert.KernelIdeal.sig) → Buf (Elt Ideal) ℓ) (c : Dev Cert.KernelIdeal.nD)

/-- The zeros the degree is compared with and selected against. -/
theorem zerosRow_apply (i : S100000.Idx) :
    broadcastInDim S100000 ![] Cert.KernelIdeal.Facts₀.bcast_S_S100000 (constant (F := Ideal) S_ .f32 0x00000000#32) i = (0 : EReal) := by
  rw [broadcastInDim_apply _ Cert.KernelIdeal.Facts₀.bcast_S_S100000 _ i ix0 (fun a => a.elim0), constant_apply, Ideal.ofBits_zero_f32]

/-- Every entry of the first dense layer is a real number. -/
theorem dense1_real (hreal : RealArgs m c) (i : S100000x32.Idx) :
    ∃ r : ℝ, Cert.ReferenceIdeal.ReadP.val_main_v4 (F := Ideal)
      (m ((c.tc : Thread Cert.KernelIdeal.nD Cert.KernelIdeal.τ).loc main_arg0))
      (m ((c.tc : Thread Cert.KernelIdeal.nD Cert.KernelIdeal.τ).loc main_arg3)) i = (r : EReal) := by
  rw [Cert.ReferenceIdeal.ReadP.val_main_v4_apply]
  exact Cert.Finite.real_sum _ _ fun k _ => Cert.Finite.real_mul (hreal.1 _) (hreal.2.1 _)

/-- Every row factor is a real number, whatever the degree. -/
theorem factor_real (i : S100000x1.Idx) :
    ∃ r : ℝ, (E0 (F := Ideal) m c main_v15 : FVec Ideal S100000x1 .f32) i = (r : EReal) := by
  obtain ⟨r, u, rfl⟩ : ∃ (r : Fin 100000) (u : Fin 1), i = ix2 r u := ⟨i 0, i 1, eq_ix2 i⟩
  obtain rfl : u = 0 := Subsingleton.elim _ _
  rw [factorColumn_apply, ← rowFactor_eq (F := Ideal)]
  unfold Cert.KernelIdeal.Hand.rowFactor
  exact Cert.Finite.rowFactor_array_real _ _ _ zerosRow_apply zerosRow_apply _

/-- The bias row the region reads is the bias vector, entry by entry. -/
theorem biasRow1_apply (k : Fin 32) :
    (E1 (F := Ideal) m c main_v27 : FVec Ideal S1x32 .f32) (ix2 0 k)
      = m ((c.tc : Thread Cert.KernelIdeal.nD Cert.KernelIdeal.τ).loc main_arg4) (ix1 k) := by
  rw [E1_v27]
  exact shapeCast_apply _ _ (ix2 0 k) (ix1 k) (by
    rw [Shape.rowMajor_val_two, Shape.rowMajor_val_one]
    show k.val = 0 * 32 + k.val
    omega)

/-- Equal first summands give equal sums. -/
theorem add_left_eq {a a' b : EReal} (h : a = a') : a + b = a' + b := h ▸ rfl

/-- Every row factor of the reference is a real number. -/
theorem refFactor_real (ei : IVec S2x3200000 32) (j : S100000.Idx) :
    ∃ r : ℝ, Cert.ReferenceIdeal.ReadP.val_main_v15 (F := Ideal) ei j = (r : EReal) := by
  rw [← rowFactor_eq (F := Ideal)]
  unfold Cert.KernelIdeal.Hand.rowFactor
  exact Cert.Finite.rowFactor_array_real _ _ _ zerosRow_apply zerosRow_apply _

/-- An extended real equal to one that is a real number is a real number. -/
theorem real_of_eq {a b : EReal} (h : a = b) (hb : ∃ r : ℝ, b = (r : EReal)) : ∃ r : ℝ, a = (r : EReal) := h ▸ hb

/-- Equal left factors give equal products; equal summands give equal sums. -/
theorem mul_right_eq {a a' b : EReal} (h : a = a') : a * b = a' * b := h ▸ rfl
theorem add_eq_add {a a' b b' : EReal} (h : a = a') (h' : b = b') : a + b = a' + b' := h ▸ h' ▸ rfl

/-- Two sums over the edges into a node agree when their target words and their terms agree edge by edge. -/
theorem edgeSum_congr (t t' : Fin 3300000 → BitVec 32) (u u' : Fin 3300000 → EReal) (v : Fin 100000)
    (ht : ∀ e, t e = t' e) (hu : ∀ e, u e = u' e) :
    (0 : EReal) + ∑ e : Fin 3300000, (if (t e).toInt = (v.val : ℤ) then u e else 0)
      = (0 : EReal) + ∑ e : Fin 3300000, (if (t' e).toInt = (v.val : ℤ) then u' e else 0) := by
  refine congrArg (fun s => (0 : EReal) + s) (Finset.sum_congr rfl fun e _ => ?_)
  rw [ht, hu]

/-- The target column the scatter reads holds the reference's raw target words, -/
theorem targetColumn_apply (ei : IVec S2x3200000 32) (e : Fin 3300000) :
    asColumn (dstIdx ei) (ix2 e 0) = Cert.ReferenceIdeal.ReadP.val_main_v7 (F := Ideal) ei (ix1 e) :=
  (asColumn_apply _ e).trans (congrFun (targets_eq (F := Ideal) ei) (ix1 e))

/-- and the source column the gather reads holds the reference's wrapped source words. -/
theorem sourceColumn_apply (ei : IVec S2x3200000 32) (e : Fin 3300000) :
    asColumn (wrapped (srcIdx ei)) (ix2 e 0) = Cert.ReferenceIdeal.ReadP.val_main_v20 (F := Ideal) ei (ix1 e) :=
  (asColumn_apply _ e).trans (congrFun (wrappedSources_eq (F := Ideal) ei) (ix1 e))

open Cert.ReferenceIdeal.Formula in
/-- One edge's term of the kernel program's sum is the reference's: the dense row `h` at the source's node, times the
    factors at the source's node and at the target's, the factor column `d` holding the reference's row factors. -/
theorem edgeTerm_agree (h : S100000x32.Idx → EReal) (d : S100000x1.Idx → EReal) (ei : IVec S2x3200000 32)
    (hd : ∀ r : Fin 100000, d (ix2 r 0) = Cert.ReferenceIdeal.ReadP.val_main_v15 (F := Ideal) ei (ix1 r))
    (e : Fin 3300000) (k : Fin 32) :
    h (ix2 (clampRow 100000 (by decide) (asColumn (wrapped (srcIdx ei)) (ix2 e 0))) k)
        * (d (ix2 (clampRow 100000 (by decide) (asColumn (wrapped (srcIdx ei)) (ix2 e 0))) 0)
          * d (ix2 (clampRow 100000 (by decide) (Cert.ReferenceIdeal.ReadP.val_main_v27 (F := Ideal) ei (ix1 e))) 0))
      = h (ix2 (nodeRow (srcWord ei e)) k)
        * (rowFactor ei (ix1 (nodeRow (srcWord ei e))) * rowFactor ei (ix1 (nodeRow (dstWord ei e)))) := by
  rw [sourceColumn_apply, hd, hd]

open Cert.ReferenceIdeal.Formula in
/-- One edge's term of the reference's sum is a real number. -/
theorem edgeTerm_real (hreal : RealArgs m c) (v : Fin 100000) (k : Fin 32) (e : Fin 3300000) :
    ∃ r : ℝ, (if (dstRawWord (m ((c.tc : Thread Cert.KernelIdeal.nD Cert.KernelIdeal.τ).loc main_arg1)) e).toInt = (v.val : ℤ) then Cert.ReferenceIdeal.ReadP.val_main_v4 (F := Ideal) (m ((c.tc : Thread Cert.KernelIdeal.nD Cert.KernelIdeal.τ).loc main_arg0)) (m ((c.tc : Thread Cert.KernelIdeal.nD Cert.KernelIdeal.τ).loc main_arg3)) (ix2 (nodeRow (srcWord (m ((c.tc : Thread Cert.KernelIdeal.nD Cert.KernelIdeal.τ).loc main_arg1)) e)) k)
        * (rowFactor (m ((c.tc : Thread Cert.KernelIdeal.nD Cert.KernelIdeal.τ).loc main_arg1)) (ix1 (nodeRow (srcWord (m ((c.tc : Thread Cert.KernelIdeal.nD Cert.KernelIdeal.τ).loc main_arg1)) e))) * rowFactor (m ((c.tc : Thread Cert.KernelIdeal.nD Cert.KernelIdeal.τ).loc main_arg1)) (ix1 (nodeRow (dstWord (m ((c.tc : Thread Cert.KernelIdeal.nD Cert.KernelIdeal.τ).loc main_arg1)) e)))) else 0) = (r : EReal) := by
  split
  · exact Cert.Finite.real_mul (dense1_real m c hreal _)
      (Cert.Finite.real_mul (refFactor_real _ _) (refFactor_real _ _))
  · exact Cert.Finite.real_zero

/-- The host's accumulating scatter over the extended reals is the exact one, at any shapes. -/
theorem scatterAdd_ideal_apply {s si su : Shape} {w : Nat} (d : ScatterDims s si su) (x : FVec Ideal s .f32) (idx : IVec si w)
    (upd : FVec Ideal su .f32) (i : s.Idx) :
    Host.scatterAdd (F := Ideal) d x idx upd i = Ideal.hostScatterAdd d x idx upd i := rfl

/-- A layer's aggregation over the extended reals is the exact accumulating scatter of the gathered rows. -/
theorem aggregate_ideal (ei : IVec S2x3200000 32) (h : FVec Ideal S100000x32 .f32) (i : S100000x32.Idx) :
    aggregate (F := Ideal) ei h i
      = Ideal.hostScatterAdd Cert.KernelIdeal.scatter_S100000x32_S3300000x1_S3300000x32_1_0_0_1
          (broadcastInDim S100000x32 ![] Cert.KernelIdeal.Facts₀.bcast_S_S100000x32 (constant (F := Ideal) S_ .f32 0x00000000#32))
          (asColumn (dstIdx ei))
          (Host.gather Cert.KernelIdeal.gather_S100000x32_S3300000x1_S3300000x32_1_0_n_n_0_1_132 h (asColumn (wrapped (srcIdx ei)))) i :=
  scatterAdd_ideal_apply _ _ _ _ i

/-- THE FIRST LAYER: the kernel program's aggregate, scaled by the node's factor and biased, is the reference's
    first layer before its relu. The aggregate is the scatter-add of the gathered rows of region 0's result; the
    layer law turns it, scaled, into the sum over the edges into the node; that sum is the reference's, edge by edge. -/
theorem layer1_agree (hreal : RealArgs m c) (v : Fin 100000) (k : Fin 32) :
    affineRow (E1 (F := Ideal) m c main_v26) (E0 (F := Ideal) m c main_v15) (E1 (F := Ideal) m c main_v27) v k
      = Cert.ReferenceIdeal.ReadP.val_main_v46 (F := Ideal)
          (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg3))
          (m ((c.tc : Thread Cert.KernelIdeal.nD Cert.KernelIdeal.τ).loc main_arg4)) (ix2 v k) :=
  have hagg := Cert.JoinCore.layer_join
    (Cert.ReferenceIdeal.ReadP.val_main_v4 (F := Ideal) (m ((c.tc : Thread Cert.KernelIdeal.nD Cert.KernelIdeal.τ).loc main_arg0)) (m ((c.tc : Thread Cert.KernelIdeal.nD Cert.KernelIdeal.τ).loc main_arg3)))
    (E0 (F := Ideal) m c main_v15) (dense1_real m c hreal) (factor_real m c)
    (broadcastInDim S100000x32 ![] Cert.KernelIdeal.Facts₀.bcast_S_S100000x32 (constant (F := Ideal) S_ .f32 0x00000000#32)) zeros_apply
    (asColumn (dstIdx (edges m c))) (asColumn (wrapped (srcIdx (edges m c))))
    (fun e => Cert.ReferenceIdeal.ReadP.val_main_v27 (F := Ideal) (edges m c) (ix1 e))
    (fun e v' h => target_row (edges m c) e v' (by rwa [asColumn_apply, targets_eq (F := Ideal)] at h)) v k
  (add_eq_add
      ((mul_right_eq ((congrFun ((E1_v26 m c).trans (congrArg (aggregate (F := Ideal) (edges m c)) (res0_eq m c))) (ix2 v k)).trans
          (aggregate_ideal _ _ _))).trans
        (hagg.trans (edgeSum_congr _ _ _ _ v (fun e => targetColumn_apply (edges m c) e)
          (fun e => edgeTerm_agree (Cert.ReferenceIdeal.ReadP.val_main_v4 (F := Ideal) (m ((c.tc : Thread Cert.KernelIdeal.nD Cert.KernelIdeal.τ).loc main_arg0)) (m ((c.tc : Thread Cert.KernelIdeal.nD Cert.KernelIdeal.τ).loc main_arg3))) (E0 (F := Ideal) m c main_v15) (edges m c) (factorColumn_apply m c) e k))))
      (biasRow1_apply m c k)).trans
    (Cert.ReferenceIdeal.Formula.layer1_apply _ _ _ _ v k).symm

/-- Every entry of the reference's first layer before its relu is a real number: a finite sum of products of reals,
    plus a real bias. -/
theorem layer1_real (hreal : RealArgs m c) (i : S100000x32.Idx) :
    ∃ r : ℝ, Cert.ReferenceIdeal.ReadP.val_main_v46 (F := Ideal)
          (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg3))
          (m ((c.tc : Thread Cert.KernelIdeal.nD Cert.KernelIdeal.τ).loc main_arg4)) i = (r : EReal) := by
  obtain ⟨v, k, rfl⟩ : ∃ (v : Fin 100000) (k : Fin 32), i = ix2 v k := ⟨i 0, i 1, eq_ix2 i⟩
  exact real_of_eq (Cert.ReferenceIdeal.Formula.layer1_apply _ _ _ _ v k)
    (Cert.Finite.real_add (Cert.Finite.real_add Cert.Finite.real_zero
      (Cert.Finite.real_sum _ _ fun e _ => edgeTerm_real m c hreal v k e)) (hreal.2.2.1 _))

end Layer1

/-! ## The second layer -/

section SecondLayer
open Cert.KernelIdeal Cert.KernelIdeal.Hand

variable (m : (ℓ : Loc Cert.KernelIdeal.nD Cert.KernelIdeal.τ Cert.KernelIdeal.sig) → Buf (Elt Ideal) ℓ) (c : Dev Cert.KernelIdeal.nD)

/-- THE SECOND LAYER: the kernel program's second aggregate, scaled by the node's factor and biased, is the reference's
    second layer — the two programs agreeing on the first layer before its relu, whose entries are real numbers. -/
theorem layer2_agree (hreal : RealArgs m c) (v : Fin 100000) (k : Fin 32) :
    affineRow (E2 (F := Ideal) m c main_v38) (E0 (F := Ideal) m c main_v15) (E2 (F := Ideal) m c main_v39) v k
      = Cert.ReferenceIdeal.ReadP.val_main_v90 (F := Ideal)
          (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg3))
          (m ((c.tc : Thread Cert.KernelIdeal.nD Cert.KernelIdeal.τ).loc main_arg4))
          (m ((c.tc : Thread Cert.KernelIdeal.nD Cert.KernelIdeal.τ).loc main_arg5))
          (m ((c.tc : Thread Cert.KernelIdeal.nD Cert.KernelIdeal.τ).loc main_arg6)) (ix2 v k) :=
  layer2_agree_of m c hreal (fun v k => layer1_agree m c hreal v k) (fun i => layer1_real m c hreal i) v k

end SecondLayer

end Cert.Join

end
-- ==== Proof.KiVal2Pay.lean ====
import proofs.«405506_j40140764349028_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! Region 2's arithmetic at the exact instance, entry by entry: the one-hot matrix of a block's graph ids, the
block's contribution to the per-graph sums and counts (a product contracted over the block's ROWS on both sides),
and the final projection of the per-graph means. -/

set_option maxRecDepth 16384

noncomputable section

namespace Cert.KernelIdeal.Hand

open Cert.KernelIdeal Cert.KernelIdeal.Gen
open Idealize.ShloMosaic Idealize.ShloMosaic.ValueIdx
open scoped BigOperators

/-! ## The products' operand indices, axis by axis -/

/-! The pooling products contract the ROW axis of both operands: entry (g, k) reads the left operand at (r, g) and
the right one at (r, k). -/

theorem pool2_lhs_free (i : S2048x32.Idx) (q : dot_S2000x2048_S2000x32_S2048x32_0_0_1_1_n_n.contr.Idx) :
    (dot_S2000x2048_S2000x32_S2048x32_0_0_1_1_n_n.lhsIdx i q 1).val = (i 0).val := by
  unfold DotDims.lhsIdx
  rw [dif_neg (show ¬(1 : Fin S2000x2048.rank) ∈ dot_S2000x2048_S2000x32_S2048x32_0_0_1_1_n_n.lhsBatch by decide),
    dif_pos (show (1 : Fin S2000x2048.rank) ∈ dot_S2000x2048_S2000x32_S2048x32_0_0_1_1_n_n.lhsNonContracting by decide)]
  rfl
theorem pool2_lhs_contr (i : S2048x32.Idx) (q : dot_S2000x2048_S2000x32_S2048x32_0_0_1_1_n_n.contr.Idx) :
    (dot_S2000x2048_S2000x32_S2048x32_0_0_1_1_n_n.lhsIdx i q 0).val = (q ⟨0, by decide⟩).val :=
  dot_S2000x2048_S2000x32_S2048x32_0_0_1_1_n_n.lhsIdx_val_of_single rfl i q
theorem pool2_rhs_contr (i : S2048x32.Idx) (q : dot_S2000x2048_S2000x32_S2048x32_0_0_1_1_n_n.contr.Idx) :
    (dot_S2000x2048_S2000x32_S2048x32_0_0_1_1_n_n.rhsIdx i q 0).val = (q ⟨0, by decide⟩).val :=
  dot_S2000x2048_S2000x32_S2048x32_0_0_1_1_n_n.rhsIdx_val_of_single rfl i q
theorem pool2_rhs_free (i : S2048x32.Idx) (q : dot_S2000x2048_S2000x32_S2048x32_0_0_1_1_n_n.contr.Idx) :
    (dot_S2000x2048_S2000x32_S2048x32_0_0_1_1_n_n.rhsIdx i q 1).val = (i 1).val := by
  unfold DotDims.rhsIdx
  rw [dif_neg (show ¬(1 : Fin S2000x32.rank) ∈ dot_S2000x2048_S2000x32_S2048x32_0_0_1_1_n_n.rhsBatch by decide),
    dif_pos (show (1 : Fin S2000x32.rank) ∈ dot_S2000x2048_S2000x32_S2048x32_0_0_1_1_n_n.rhsNonContracting by decide)]
  rfl

theorem count2_lhs_free (i : S2048x1.Idx) (q : dot_S2000x2048_S2000x1_S2048x1_0_0_1_1_n_n.contr.Idx) :
    (dot_S2000x2048_S2000x1_S2048x1_0_0_1_1_n_n.lhsIdx i q 1).val = (i 0).val := by
  unfold DotDims.lhsIdx
  rw [dif_neg (show ¬(1 : Fin S2000x2048.rank) ∈ dot_S2000x2048_S2000x1_S2048x1_0_0_1_1_n_n.lhsBatch by decide),
    dif_pos (show (1 : Fin S2000x2048.rank) ∈ dot_S2000x2048_S2000x1_S2048x1_0_0_1_1_n_n.lhsNonContracting by decide)]
  rfl
theorem count2_lhs_contr (i : S2048x1.Idx) (q : dot_S2000x2048_S2000x1_S2048x1_0_0_1_1_n_n.contr.Idx) :
    (dot_S2000x2048_S2000x1_S2048x1_0_0_1_1_n_n.lhsIdx i q 0).val = (q ⟨0, by decide⟩).val :=
  dot_S2000x2048_S2000x1_S2048x1_0_0_1_1_n_n.lhsIdx_val_of_single rfl i q
theorem count2_rhs_contr (i : S2048x1.Idx) (q : dot_S2000x2048_S2000x1_S2048x1_0_0_1_1_n_n.contr.Idx) :
    (dot_S2000x2048_S2000x1_S2048x1_0_0_1_1_n_n.rhsIdx i q 0).val = (q ⟨0, by decide⟩).val :=
  dot_S2000x2048_S2000x1_S2048x1_0_0_1_1_n_n.rhsIdx_val_of_single rfl i q
theorem count2_rhs_free (i : S2048x1.Idx) (q : dot_S2000x2048_S2000x1_S2048x1_0_0_1_1_n_n.contr.Idx) :
    (dot_S2000x2048_S2000x1_S2048x1_0_0_1_1_n_n.rhsIdx i q 1).val = (i 1).val := by
  unfold DotDims.rhsIdx
  rw [dif_neg (show ¬(1 : Fin S2000x1.rank) ∈ dot_S2000x2048_S2000x1_S2048x1_0_0_1_1_n_n.rhsBatch by decide),
    dif_pos (show (1 : Fin S2000x1.rank) ∈ dot_S2000x2048_S2000x1_S2048x1_0_0_1_1_n_n.rhsNonContracting by decide)]
  rfl

/-! The projection is an ordinary product: entry (g, j) reads the left operand at (g, k), the right one at (k, j). -/

theorem proj2_lhs_free (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide),
    dif_pos (show (0 : Fin S2048x32.rank) ∈ dot_S2048x32_S32x1_S2048x1_1_0_0_1_n_n.lhsNonContracting by decide)]
  rfl
theorem proj2_lhs_contr (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem proj2_rhs_contr (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem proj2_rhs_free (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide),
    dif_pos (show (1 : Fin S32x1.rank) ∈ dot_S2048x32_S32x1_S2048x1_1_0_0_1_n_n.rhsNonContracting by decide)]
  rfl

/-- The block's contribution to the per-graph sums, entry (g, k): Σ_r a[r,g]·b[r,k] over the block's 2000 rows. -/
theorem pool2_matmul_apply {φ₁ φ₂ : FTy} (a : FVec Ideal S2000x2048 φ₁) (b : FVec Ideal S2000x32 φ₂) (g : Fin 2048) (k : Fin 32) :
    matmul (F := Ideal) dot_S2000x2048_S2000x32_S2048x32_0_0_1_1_n_n none a b (constant (F := Ideal) S2048x32 .f32 0x00000000#32) (ix2 g k)
      = ∑ r : Fin 2000, a (ix2 r g) * b (ix2 r k) := by
  simp only [matmul]
  rw [Ideal.matmul_constant_zero_apply, ← Equiv.sum_comp (contrEquiv1 dot_S2000x2048_S2000x32_S2048x32_0_0_1_1_n_n 2000 rfl rfl).symm]
  refine Finset.sum_congr rfl fun r _ => ?_
  have hr := contrEquiv1_symm_val dot_S2000x2048_S2000x32_S2048x32_0_0_1_1_n_n 2000 rfl rfl r
  have el : dot_S2000x2048_S2000x32_S2048x32_0_0_1_1_n_n.lhsIdx (ix2 g k) ((contrEquiv1 dot_S2000x2048_S2000x32_S2048x32_0_0_1_1_n_n 2000 rfl rfl).symm r) = ix2 r g := funext fun a => Fin.ext (by
    match a with
    | ⟨0, _⟩ => exact (pool2_lhs_contr _ _).trans hr
    | ⟨1, _⟩ => exact pool2_lhs_free _ _)
  have er : dot_S2000x2048_S2000x32_S2048x32_0_0_1_1_n_n.rhsIdx (ix2 g k) ((contrEquiv1 dot_S2000x2048_S2000x32_S2048x32_0_0_1_1_n_n 2000 rfl rfl).symm r) = ix2 r k := funext fun a => Fin.ext (by
    match a with
    | ⟨0, _⟩ => exact (pool2_rhs_contr _ _).trans hr
    | ⟨1, _⟩ => exact pool2_rhs_free _ _)
  rw [el, er]

/-- The block's contribution to the per-graph counts, entry (g, 0): Σ_r a[r,g]·b[r,0]. -/
theorem count2_matmul_apply {φ₁ φ₂ : FTy} (a : FVec Ideal S2000x2048 φ₁) (b : FVec Ideal S2000x1 φ₂) (g : Fin 2048) (j : Fin 1) :
    matmul (F := Ideal) dot_S2000x2048_S2000x1_S2048x1_0_0_1_1_n_n none a b (constant (F := Ideal) S2048x1 .f32 0x00000000#32) (ix2 g j)
      = ∑ r : Fin 2000, a (ix2 r g) * b (ix2 r j) := by
  simp only [matmul]
  rw [Ideal.matmul_constant_zero_apply, ← Equiv.sum_comp (contrEquiv1 dot_S2000x2048_S2000x1_S2048x1_0_0_1_1_n_n 2000 rfl rfl).symm]
  refine Finset.sum_congr rfl fun r _ => ?_
  have hr := contrEquiv1_symm_val dot_S2000x2048_S2000x1_S2048x1_0_0_1_1_n_n 2000 rfl rfl r
  have el : dot_S2000x2048_S2000x1_S2048x1_0_0_1_1_n_n.lhsIdx (ix2 g j) ((contrEquiv1 dot_S2000x2048_S2000x1_S2048x1_0_0_1_1_n_n 2000 rfl rfl).symm r) = ix2 r g := funext fun a => Fin.ext (by
    match a with
    | ⟨0, _⟩ => exact (count2_lhs_contr _ _).trans hr
    | ⟨1, _⟩ => exact count2_lhs_free _ _)
  have er : dot_S2000x2048_S2000x1_S2048x1_0_0_1_1_n_n.rhsIdx (ix2 g j) ((contrEquiv1 dot_S2000x2048_S2000x1_S2048x1_0_0_1_1_n_n 2000 rfl rfl).symm r) = ix2 r j := funext fun a => Fin.ext (by
    match a with
    | ⟨0, _⟩ => exact (count2_rhs_contr _ _).trans hr
    | ⟨1, _⟩ => exact count2_rhs_free _ _)
  rw [el, er]

/-- The projection, entry (g, 0): Σ_k a[g,k]·b[k,0]. -/
theorem proj2_matmul_apply {φ₁ φ₂ : FTy} (a : FVec Ideal S2048x32 φ₁) (b : FVec Ideal S32x1 φ₂) (g : Fin 2048) (j : Fin 1) :
    matmul (F := Ideal) dot_S2048x32_S32x1_S2048x1_1_0_0_1_n_n none a b (constant (F := Ideal) S2048x1 .f32 0x00000000#32) (ix2 g j)
      = ∑ k : Fin 32, a (ix2 g k) * b (ix2 k j) := by
  simp only [matmul]
  rw [Ideal.matmul_constant_zero_apply, ← Equiv.sum_comp (contrEquiv1 dot_S2048x32_S32x1_S2048x1_1_0_0_1_n_n 32 rfl rfl).symm]
  refine Finset.sum_congr rfl fun k _ => ?_
  have hk := contrEquiv1_symm_val dot_S2048x32_S32x1_S2048x1_1_0_0_1_n_n 32 rfl rfl k
  have el : dot_S2048x32_S32x1_S2048x1_1_0_0_1_n_n.lhsIdx (ix2 g j) ((contrEquiv1 dot_S2048x32_S32x1_S2048x1_1_0_0_1_n_n 32 rfl rfl).symm k) = ix2 g k := funext fun a => Fin.ext (by
    match a with
    | ⟨0, _⟩ => exact proj2_lhs_free _ _
    | ⟨1, _⟩ => exact (proj2_lhs_contr _ _).trans hk)
  have er : dot_S2048x32_S32x1_S2048x1_1_0_0_1_n_n.rhsIdx (ix2 g j) ((contrEquiv1 dot_S2048x32_S32x1_S2048x1_1_0_0_1_n_n 32 rfl rfl).symm k) = ix2 k j := funext fun a => Fin.ext (by
    match a with
    | ⟨0, _⟩ => exact (proj2_rhs_contr _ _).trans hk
    | ⟨1, _⟩ => exact proj2_rhs_free _ _)
  rw [el, er]

/-! ## Spreading a column, a row, or a single entry -/

theorem spreadCol_2000x2048 {α : Type} (x : S2000x1.Idx → α) (r : Fin 2000) (g : Fin 2048) :
    broadcastTo S2000x2048 x broadcasts_S2000x1_S2000x2048 (ix2 r g) = x (ix2 r 0) :=
  broadcastTo_apply x broadcasts_S2000x1_S2000x2048 (ix2 r g) (ix2 r 0) (fun a => by
    match a with
    | ⟨0, _⟩ => rfl
    | ⟨1, _⟩ => rfl)
theorem spreadRow_2000x2048 {α : Type} (x : S1x2048.Idx → α) (r : Fin 2000) (g : Fin 2048) :
    broadcastTo S2000x2048 x broadcasts_S1x2048_S2000x2048 (ix2 r g) = x (ix2 0 g) :=
  broadcastTo_apply x broadcasts_S1x2048_S2000x2048 (ix2 r g) (ix2 0 g) (fun a => by
    match a with
    | ⟨0, _⟩ => rfl
    | ⟨1, _⟩ => rfl)
theorem spreadCol_2000x32 {α : Type} (x : S2000x1.Idx → α) (r : Fin 2000) (k : Fin 32) :
    broadcastTo S2000x32 x broadcasts_S2000x1_S2000x32 (ix2 r k) = x (ix2 r 0) :=
  broadcastTo_apply x broadcasts_S2000x1_S2000x32 (ix2 r k) (ix2 r 0) (fun a => by
    match a with
    | ⟨0, _⟩ => rfl
    | ⟨1, _⟩ => rfl)
theorem spreadRow_2000x32 {α : Type} (x : S1x32.Idx → α) (r : Fin 2000) (k : Fin 32) :
    broadcastTo S2000x32 x broadcasts_S1x32_S2000x32 (ix2 r k) = x (ix2 0 k) :=
  broadcastTo_apply x broadcasts_S1x32_S2000x32 (ix2 r k) (ix2 0 k) (fun a => by
    match a with
    | ⟨0, _⟩ => rfl
    | ⟨1, _⟩ => rfl)
theorem spreadCol_2048x32 {α : Type} (x : S2048x1.Idx → α) (g : Fin 2048) (k : Fin 32) :
    broadcastTo S2048x32 x broadcasts_S2048x1_S2048x32 (ix2 g k) = x (ix2 g 0) :=
  broadcastTo_apply x broadcasts_S2048x1_S2048x32 (ix2 g k) (ix2 g 0) (fun a => by
    match a with
    | ⟨0, _⟩ => rfl
    | ⟨1, _⟩ => rfl)
theorem spreadOne_2048x1 {α : Type} (x : S1x1.Idx → α) (g : Fin 2048) (j : Fin 1) :
    broadcastTo S2048x1 x broadcasts_S1x1_S2048x1 (ix2 g j) = x (ix2 0 0) :=
  broadcastTo_apply x broadcasts_S1x1_S2048x1 (ix2 g j) (ix2 0 0) (fun a => by
    match a with
    | ⟨0, _⟩ => rfl
    | ⟨1, _⟩ => rfl)

/-! ## The one-hot matrix -/

/-- The test "these two words are equal", widened unsigned to 32 bits and read as a number: 1 or 0. -/
theorem indicator2 (a b : BitVec 32) :
    FloatOps.sitofp (F := Ideal) .f32 ((IntOp.cmpi .eq a b).setWidth 32) = if a = b then (1 : EReal) else 0 := by
  by_cases h : a = b
  · have hc : IntOp.cmpi .eq a b = 1#1 := by
      unfold IntOp.cmpi
      show BitVec.ofBool (a == b) = 1#1
      rw [beq_iff_eq.mpr h]; rfl
    rw [if_pos h, hc]
    show ((((1#1 : BitVec 1).setWidth 32).toInt : ℝ) : EReal) = 1
    rw [show ((1#1 : BitVec 1).setWidth 32).toInt = 1 by decide]
    norm_num
  · have hc : IntOp.cmpi .eq a b = 0#1 := by
      unfold IntOp.cmpi
      show BitVec.ofBool (a == b) = 0#1
      rw [beq_eq_false_iff_ne.mpr h]; rfl
    rw [if_neg h, hc]
    show ((((0#1 : BitVec 1).setWidth 32).toInt : ℝ) : EReal) = 0
    rw [show ((0#1 : BitVec 1).setWidth 32).toInt = 0 by decide]
    norm_num

/-- The one-hot entry (r, g): 1 where row r's graph id is the word of g, else 0. -/
theorem oneHot2_apply (ids : Vec Ideal S2000x1 .i32) (r : Fin 2000) (g : Fin 2048) :
    k2_pay4 (F := Ideal) ids (ix2 r g) = if ids (ix2 r 0) = BitVec.ofNat 32 g.val then (1 : EReal) else 0 := by
  unfold k2_pay4
  rw [truncf_apply, sitofp_apply, extui_apply]
  show FloatOps.sitofp (F := Ideal) .f32 ((IntOp.cmpi .eq
      (broadcastTo S2000x2048 (shapeCast S2000x1 ids shapeCasts_S2000x1_S2000x1) broadcasts_S2000x1_S2000x2048 (ix2 r g))
      (broadcastTo S2000x2048 (iota .tc S1x2048 32 [1] iota_S1x2048_d1_w32) broadcasts_S1x2048_S2000x2048 (ix2 r g))).setWidth 32) = _
  rw [spreadCol_2000x2048, spreadRow_2000x2048, shapeCast_self, indicator2]
  show (if ids (ix2 r 0) = BitVec.ofNat 32 (0 * 2048 + g.val) then (1 : EReal) else 0) = _
  rw [Nat.zero_mul, Nat.zero_add]

/-! ## The accumulators' updates and the projection -/

/-- The sums are reset to zero, -/
theorem zeroSums2_apply (i : S2048x32.Idx) : k2_pay2 (F := Ideal) i = 0 := by
  unfold k2_pay2
  rw [shapeCast_self, broadcast_apply]
  exact Ideal.ofBits_zero_f32
/-- and so are the counts. -/
theorem zeroCounts2_apply (i : S2048x1.Idx) : k2_pay3 (F := Ideal) i = 0 := by
  unfold k2_pay3
  rw [shapeCast_self, broadcast_apply]
  exact Ideal.ofBits_zero_f32

/-- The sums after a block, entry (g, k): what they were, plus the block's rows s[r,k]·d[r] + b[k] summed over the
    rows r whose graph id is g. -/
theorem sums2_apply (s : Vec Ideal S2000x32 .f32) (d : Vec Ideal S2000x1 .f32) (b : Vec Ideal S1x32 .f32)
    (ids : Vec Ideal S2000x1 .i32) (acc : Vec Ideal S2048x32 .f32) (g : Fin 2048) (k : Fin 32) :
    k2_pay5 s d b ids acc (ix2 g k)
      = acc (ix2 g k) + ∑ r : Fin 2000, (if ids (ix2 r 0) = BitVec.ofNat 32 g.val then (1 : EReal) else 0)
          * (s (ix2 r k) * d (ix2 r 0) + b (ix2 0 k)) := by
  unfold k2_pay5
  rw [shapeCast_self, addf_apply, pool2_matmul_apply]
  refine congrArg (acc (ix2 g k) + ·) (Finset.sum_congr rfl fun r _ => ?_)
  rw [oneHot2_apply, truncf_apply, addf_apply, mulf_apply, spreadCol_2000x32, spreadRow_2000x32,
    shapeCast_self, shapeCast_self, shapeCast_self]

/-- The counts after a block, entry (g, 0): what they were, plus the number of the block's rows whose graph id is g. -/
theorem counts2_apply (ids : Vec Ideal S2000x1 .i32) (acc : Vec Ideal S2048x1 .f32) (g : Fin 2048) (j : Fin 1) :
    k2_pay6 ids acc (ix2 g j)
      = acc (ix2 g j) + ∑ r : Fin 2000, (if ids (ix2 r 0) = BitVec.ofNat 32 g.val then (1 : EReal) else 0) := by
  unfold k2_pay6
  rw [shapeCast_self, addf_apply, count2_matmul_apply]
  refine congrArg (acc (ix2 g j) + ·) (Finset.sum_congr rfl fun r _ => ?_)
  rw [oneHot2_apply, broadcast_apply]
  show _ * Ideal.ofBits .bf16 0x3F80#16 = _
  rw [Ideal.ofBits_one_bf16, mul_one]

/-- The projection of the means, entry (g, 0): Σ_k (S[g,k] / max(C[g], 1)) · wl[k] + bl. -/
theorem means2_apply (S : Vec Ideal S2048x32 .f32) (C : Vec Ideal S2048x1 .f32) (wl : Vec Ideal S32x1 .f32)
    (bl : Vec Ideal S1x1 .f32) (g : Fin 2048) (j : Fin 1) :
    k2_pay1 S C wl bl (ix2 g j)
      = (∑ k : Fin 32, Ideal.div (S (ix2 g k)) (max (C (ix2 g 0)) 1) * wl (ix2 k j)) + bl (ix2 0 0) := by
  unfold k2_pay1
  rw [addf_apply, proj2_matmul_apply, spreadOne_2048x1, shapeCast_self]
  refine congrArg (· + bl (ix2 0 0)) (Finset.sum_congr rfl fun k _ => ?_)
  rw [truncf_apply, truncf_apply, divf_apply, spreadCol_2048x32, maximumf_apply, broadcast_apply]
  show Ideal.div (S (ix2 g k)) (max (C (ix2 g 0)) (Ideal.ofBits .f32 0x3F800000#32)) * wl (ix2 k j) = _
  rw [Ideal.ofBits_one_f32]

end Cert.KernelIdeal.Hand

end
-- ==== Proof.KiVal2.lean ====
import proofs.«405506_j40140764349028_2_alg».proof.Proof.KiR2
import proofs.«405506_j40140764349028_2_alg».proof.Proof.KiVal2Pay
import Idealize.ShloMosaic.Lib.ValueIdx
import Idealize.ShloMosaic.Lib.ValueLayout
import Idealize.ShloMosaic.Lib.Pipeline.Value
import Idealize.ShloMosaic.PureOps.Ideal.Laws

/-! Region 2 at the exact instance: the array its one write-back (at the last of the 50 grid points) leaves is ONE function of the six arrays it reads — entry g holds Σ_k (S[g,k] / max(C[g], 1)) · wl[k] + bl, where S[g,k] sums s[n,k]·d[n] + b[k] over the nodes n whose graph id is g and C[g] counts them: the mean of each graph's rows through the final linear map. The two sums are accumulated block by block in the carried accumulators; over the extended reals the accumulation in blocks is the sum over all nodes. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-- The one-hot entry: 1 where a node's graph id is the word of g, else 0. -/
def hit (b : BitVec 32) (g : ℕ) : EReal := if b = BitVec.ofNat 32 g then 1 else 0

/-- Σ_k (S[g,k] / max(C[g], 1)) · wl[k] + bl with S and C the per-graph sums and counts. -/
def pooled2 (s : S100000x32.Idx → EReal) (d : S100000x1.Idx → EReal) (b : S1x32.Idx → EReal)
    (bt : S100000x1.Idx → BitVec 32) (wl : S32x1.Idx → EReal) (bl : S1x1.Idx → EReal) : S2048x1.Idx → EReal :=
  fun i => (∑ k : Fin 32,
      Ideal.div (∑ n : Fin 100000, hit (bt (ix2 n 0)) (i 0).val * (s (ix2 n k) * d (ix2 n 0) + b (ix2 0 k)))
        (max (∑ n : Fin 100000, hit (bt (ix2 n 0)) (i 0).val) 1) * wl (ix2 k 0)) + bl (ix2 0 0)

variable (V : (c : Dev nD) → (b : Ref sig .tc) → Buf (Elt Ideal) ((c : Thread nD τ).loc b))

/-! ## Node by node -/

/-- Node m's contribution to graph g's sum in column k (nothing past the last node). -/
def nodeTerm2 (s : S100000x32.Idx → EReal) (d : S100000x1.Idx → EReal) (b : S1x32.Idx → EReal)
    (bt : S100000x1.Idx → BitVec 32) (g : ℕ) (k : Fin 32) (m : ℕ) : EReal :=
  if h : m < 100000 then hit (bt (ix2 ⟨m, h⟩ 0)) g * (s (ix2 ⟨m, h⟩ k) * d (ix2 ⟨m, h⟩ 0) + b (ix2 0 k)) else 0

/-- Node m's contribution to graph g's count. -/
def nodeHit2 (bt : S100000x1.Idx → BitVec 32) (g : ℕ) (m : ℕ) : EReal :=
  if h : m < 100000 then hit (bt (ix2 ⟨m, h⟩ 0)) g else 0

/-- The sum over all nodes, counted by their numbers. -/
theorem nodeTerm2_sum (s : S100000x32.Idx → EReal) (d : S100000x1.Idx → EReal) (b : S1x32.Idx → EReal)
    (bt : S100000x1.Idx → BitVec 32) (g : ℕ) (k : Fin 32) :
    ∑ n : Fin 100000, hit (bt (ix2 n 0)) g * (s (ix2 n k) * d (ix2 n 0) + b (ix2 0 k))
      = ∑ m ∈ Finset.range 100000, nodeTerm2 s d b bt g k m :=
  (Finset.sum_congr rfl fun n _ => by unfold nodeTerm2; rw [dif_pos n.isLt]).trans
    (Fin.sum_univ_eq_sum_range (nodeTerm2 s d b bt g k) 100000)

theorem nodeHit2_sum (bt : S100000x1.Idx → BitVec 32) (g : ℕ) :
    ∑ n : Fin 100000, hit (bt (ix2 n 0)) g = ∑ m ∈ Finset.range 100000, nodeHit2 bt g m :=
  (Finset.sum_congr rfl fun n _ => by unfold nodeHit2; rw [dif_pos n.isLt]).trans
    (Fin.sum_univ_eq_sum_range (nodeHit2 bt g) 100000)

/-! ## The blocks, read off the arrays -/

/-- The windows' block indices, decided over the 50 points: the three row windows move with the point, every
    other window stays at its one block. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- A point's rows are nodes of the array. -/
theorem node_lt2 (t : Fin cfg2.N) (r : Fin 2000) : t.val * 2000 + r.val < 100000 := by
  have ht : t.val < 50 := t.isLt
  have hr : r.val < 2000 := r.isLt
  omega

/-- Row r of point t's block of the aggregated features is node t·2000 + r; -/
theorem featBlock2 (c : Dev nD) (t : Fin cfg2.N) (r : Fin 2000) (k : Fin 32) :
    iblk2 V c 0 t (ix2 r k) = V c main_v38 (ix2 ⟨t.val * 2000 + r.val, node_lt2 t r⟩ k) := by
  obtain ⟨e0, e1, -⟩ := blockIdx2 t
  show V c main_v38 (((cfg2.win 0).blk t).view.emb (ix2 r k)) = V c main_v38 _
  refine congrArg (V c main_v38) (funext fun a => Fin.ext ?_)
  match a with
  | ⟨0, _⟩ => show win2_0.index t (0 : Fin 2) * 2000 + 1 * r.val = t.val * 2000 + r.val; omega
  | ⟨1, _⟩ => show win2_0.index t (1 : Fin 2) * 32 + 1 * k.val = k.val; omega
/-- so for the row factors -/
theorem factorBlock2 (c : Dev nD) (t : Fin cfg2.N) (r : Fin 2000) :
    iblk2 V c 1 t (ix2 r 0) = V c main_v15 (ix2 ⟨t.val * 2000 + r.val, node_lt2 t r⟩ 0) := by
  obtain ⟨-, -, e0, e1, -⟩ := blockIdx2 t
  show V c main_v15 (((cfg2.win 1).blk t).view.emb (ix2 r 0)) = V c main_v15 _
  refine congrArg (V c main_v15) (funext fun a => Fin.ext ?_)
  match a with
  | ⟨0, _⟩ => show win2_1.index t (0 : Fin 2) * 2000 + 1 * r.val = t.val * 2000 + r.val; omega
  | ⟨1, _⟩ => show win2_1.index t (1 : Fin 2) * 1 + 1 * 0 = 0; omega
/-- and the graph ids; -/
theorem idBlock2 (c : Dev nD) (t : Fin cfg2.N) (r : Fin 2000) :
    iblk2 V c 3 t (ix2 r 0) = V c main_v40 (ix2 ⟨t.val * 2000 + r.val, node_lt2 t r⟩ 0) := by
  obtain ⟨-, -, -, -, -, -, e0, e1, -⟩ := blockIdx2 t
  show V c main_v40 (((cfg2.win 3).blk t).view.emb (ix2 r 0)) = V c main_v40 _
  refine congrArg (V c main_v40) (funext fun a => Fin.ext ?_)
  match a with
  | ⟨0, _⟩ => show win2_3.index t (0 : Fin 2) * 2000 + 1 * r.val = t.val * 2000 + r.val; omega
  | ⟨1, _⟩ => show win2_3.index t (1 : Fin 2) * 1 + 1 * 0 = 0; omega
/-- the bias row, the projection's weights and its bias are whole at every point. -/
theorem biasBlock2 (c : Dev nD) (t : Fin cfg2.N) (k : Fin 32) :
    iblk2 V c 2 t (ix2 0 k) = V c main_v39 (ix2 0 k) := by
  obtain ⟨-, -, -, -, e0, e1, -⟩ := blockIdx2 t
  show V c main_v39 (((cfg2.win 2).blk t).view.emb (ix2 0 k)) = V c main_v39 _
  refine congrArg (V c main_v39) (funext fun a => Fin.ext ?_)
  match a with
  | ⟨0, _⟩ => show win2_2.index t (0 : Fin 2) * 1 + 1 * 0 = 0; omega
  | ⟨1, _⟩ => show win2_2.index t (1 : Fin 2) * 32 + 1 * k.val = k.val; omega
theorem weightBlock2 (c : Dev nD) (t : Fin cfg2.N) (k : Fin 32) :
    iblk2 V c 4 t (ix2 k 0) = V c main_arg7 (ix2 k 0) := by
  obtain ⟨-, -, -, -, -, -, -, -, e0, e1, -⟩ := blockIdx2 t
  show V c main_arg7 (((cfg2.win 4).blk t).view.emb (ix2 k 0)) = V c main_arg7 _
  refine congrArg (V c main_arg7) (funext fun a => Fin.ext ?_)
  match a with
  | ⟨0, _⟩ => show win2_4.index t (0 : Fin 2) * 32 + 1 * k.val = k.val; omega
  | ⟨1, _⟩ => show win2_4.index t (1 : Fin 2) * 1 + 1 * 0 = 0; omega
theorem lastBiasBlock2 (c : Dev nD) (t : Fin cfg2.N) :
    iblk2 V c 5 t (ix2 0 0) = V c main_v41 (ix2 0 0) := by
  obtain ⟨-, -, -, -, -, -, -, -, -, -, e0, e1, -⟩ := blockIdx2 t
  show V c main_v41 (((cfg2.win 5).blk t).view.emb (ix2 0 0)) = V c main_v41 _
  refine congrArg (V c main_v41) (funext fun a => Fin.ext ?_)
  match a with
  | ⟨0, _⟩ => show win2_5.index t (0 : Fin 2) * 1 + 1 * 0 = 0; omega
  | ⟨1, _⟩ => show win2_5.index t (1 : Fin 2) * 1 + 1 * 0 = 0; omega

/-! ## The accumulators after each point -/

/-- A point's rows, summed: its 2000 nodes' contributions to graph g's sum in column k, -/
theorem blockSum2 (c : Dev nD) (t : Fin cfg2.N) (g : Fin 2048) (k : Fin 32)
    (s : Vec Ideal S2000x32 .f32) (d : Vec Ideal S2000x1 .f32) (b : Vec Ideal S1x32 .f32) (ids : Vec Ideal S2000x1 .i32)
    (hs : s = iblk2 V c 0 t) (hd : d = iblk2 V c 1 t) (hb : b = iblk2 V c 2 t) (hids : ids = iblk2 V c 3 t) :
    ∑ r : Fin 2000, (if ids (ix2 r 0) = BitVec.ofNat 32 g.val then (1 : EReal) else 0)
        * (s (ix2 r k) * d (ix2 r 0) + b (ix2 0 k))
      = ∑ x ∈ Finset.range 2000,
          nodeTerm2 (V c main_v38) (V c main_v15) (V c main_v39) (V c main_v40) g.val k (t.val * 2000 + x) :=
  (Finset.sum_congr rfl fun r _ => by
      subst hs hd hb hids
      unfold nodeTerm2 hit
      rw [dif_pos (node_lt2 t r), featBlock2, factorBlock2, idBlock2, biasBlock2]).trans
    (Fin.sum_univ_eq_sum_range
      (fun x => nodeTerm2 (V c main_v38) (V c main_v15) (V c main_v39) (V c main_v40) g.val k (t.val * 2000 + x)) 2000)

/-- and to its count. -/
theorem blockCount2 (c : Dev nD) (t : Fin cfg2.N) (g : Fin 2048) (ids : Vec Ideal S2000x1 .i32)
    (hids : ids = iblk2 V c 3 t) :
    ∑ r : Fin 2000, (if ids (ix2 r 0) = BitVec.ofNat 32 g.val then (1 : EReal) else 0)
      = ∑ x ∈ Finset.range 2000, nodeHit2 (V c main_v40) g.val (t.val * 2000 + x) :=
  (Finset.sum_congr rfl fun r _ => by
      subst hids
      unfold nodeHit2 hit
      rw [dif_pos (node_lt2 t r), idBlock2]).trans
    (Fin.sum_univ_eq_sum_range (fun x => nodeHit2 (V c main_v40) g.val (t.val * 2000 + x)) 2000)

/-- After point n the accumulators hold the sums and the counts over the first (n+1)·2000 nodes: the first point
    starts from zero, every later one adds its block to what the point before left. -/
theorem acc2_closed (c : Dev nD) : ∀ (n : ℕ) (hn : n < cfg2.N) (g : Fin 2048),
    (∀ k : Fin 32, (acc2 V c n hn).1 (ix2 g k)
        = ∑ m ∈ Finset.range ((n + 1) * 2000),
            nodeTerm2 (V c main_v38) (V c main_v15) (V c main_v39) (V c main_v40) g.val k m)
    ∧ (∀ j : Fin 1, (acc2 V c n hn).2 (ix2 g j)
        = ∑ m ∈ Finset.range ((n + 1) * 2000), nodeHit2 (V c main_v40) g.val m)
  | 0, hn, g => by
    constructor
    · intro k
      show k2_pay5 (iblk2 V c 0 ⟨0, hn⟩) (iblk2 V c 1 ⟨0, hn⟩) (iblk2 V c 2 ⟨0, hn⟩) (iblk2 V c 3 ⟨0, hn⟩)
        (k2_pay2 (F := Ideal)) (ix2 g k) = _
      rw [sums2_apply, zeroSums2_apply, zero_add, blockSum2 V c ⟨0, hn⟩ g k _ _ _ _ rfl rfl rfl rfl]
      show ∑ x ∈ Finset.range 2000, nodeTerm2 _ _ _ _ g.val k (0 * 2000 + x) = ∑ m ∈ Finset.range ((0 + 1) * 2000), _
      simp only [Nat.zero_mul, Nat.zero_add, Nat.one_mul]
    · intro j
      show k2_pay6 (iblk2 V c 3 ⟨0, hn⟩) (k2_pay3 (F := Ideal)) (ix2 g j) = _
      rw [counts2_apply, zeroCounts2_apply, zero_add, blockCount2 V c ⟨0, hn⟩ g _ rfl]
      show ∑ x ∈ Finset.range 2000, nodeHit2 _ g.val (0 * 2000 + x) = ∑ m ∈ Finset.range ((0 + 1) * 2000), _
      simp only [Nat.zero_mul, Nat.zero_add, Nat.one_mul]
  | n + 1, hn, g => by
    obtain ⟨ihS, ihC⟩ := acc2_closed c n (Nat.lt_of_succ_lt hn) g
    constructor
    · intro k
      show k2_pay5 (iblk2 V c 0 ⟨n + 1, hn⟩) (iblk2 V c 1 ⟨n + 1, hn⟩) (iblk2 V c 2 ⟨n + 1, hn⟩) (iblk2 V c 3 ⟨n + 1, hn⟩)
        (acc2 V c n (Nat.lt_of_succ_lt hn)).1 (ix2 g k) = _
      rw [sums2_apply, ihS k, blockSum2 V c ⟨n + 1, hn⟩ g k _ _ _ _ rfl rfl rfl rfl, show (n + 1 + 1) * 2000 = (n + 1) * 2000 + 2000 by omega, Finset.sum_range_add]
    · intro j
      show k2_pay6 (iblk2 V c 3 ⟨n + 1, hn⟩) (acc2 V c n (Nat.lt_of_succ_lt hn)).2 (ix2 g j) = _
      rw [counts2_apply, ihC j, blockCount2 V c ⟨n + 1, hn⟩ g _ rfl, show (n + 1 + 1) * 2000 = (n + 1) * 2000 + 2000 by omega, Finset.sum_range_add]

/-! ## The one write-back -/

/-- The output array is one block: a row-and-column index is in it iff each coordinate is in the block's range. -/
theorem mem_outBlock2 (t : Fin cfg2.N) (i : S2048x1.Idx) :
    i ∈ ((cfg2.win 6).blk t).view.set ↔ ∀ a : Fin 2, win2_6.index t a * S2048x1.size a ≤ (i a).val
      ∧ (i a).val < win2_6.index t a * S2048x1.size a + S2048x1.size a := by
  show i ∈ ((View.whole main_v42).slice (win2_6.rect t)).set ↔ _
  rw [View.set_slice_whole, Rect.mem_set_unit]
  exact Iff.rfl

/-- What the last point writes back is the pooled projection of the arrays as the region finds them. -/
theorem flushed2_eq (c : Dev nD) (t : Fin cfg2.N) (hf : (cfg2.win 6).flush t = true) :
    (dat2 V c).flushed 6 t = ((cfg2.win 6).blk t).view.read (Elt Ideal)
      (pooled2 (V c main_v38) (V c main_v15) (V c main_v39) (V c main_v40) (V c main_arg7) (V c main_v41)) := by
  have h49 : t.val = 49 := by
    have h := (flush2_6 t).mp hf
    have ht : t.val < 50 := t.isLt
    omega
  obtain ⟨-, -, -, -, -, -, -, -, -, -, -, -, e60, e61⟩ := blockIdx2 t
  show (cfg2.win 6).cut (grid2.coords t) ((dat2 V c).after 6 t) = _
  rw [after2_6]
  unfold out2_6
  funext j
  show k2_pay1 (acc2 V c t.val t.isLt).1 (acc2 V c t.val t.isLt).2 (iblk2 V c 4 t) (iblk2 V c 5 t) j
    = pooled2 (V c main_v38) (V c main_v15) (V c main_v39) (V c main_v40) (V c main_arg7) (V c main_v41)
        (((cfg2.win 6).blk t).view.emb j)
  obtain ⟨g, z, rfl⟩ : ∃ (g : Fin 2048) (z : Fin 1), j = ix2 g z := ⟨j 0, j 1, eq_ix2 j⟩
  obtain rfl : z = 0 := Subsingleton.elim _ _
  have hg : ((((cfg2.win 6).blk t).view.emb (ix2 g 0)) 0).val = g.val := by
    show win2_6.index t (0 : Fin 2) * 2048 + 1 * g.val = g.val; omega
  obtain ⟨hS, hC⟩ := acc2_closed V c t.val t.isLt g
  have hall : (t.val + 1) * 2000 = 100000 := by omega
  rw [hall] at hS hC
  rw [means2_apply]
  unfold pooled2
  rw [hg, lastBiasBlock2, hC 0, nodeHit2_sum]
  refine congrArg (· + V c main_v41 (ix2 0 0)) (Finset.sum_congr rfl fun k _ => ?_)
  rw [hS k, weightBlock2, nodeTerm2_sum]

/-- What region 2 leaves in its output array, as one function of the arrays it read. -/
theorem final2 (c : Dev nD) :
    (dat2 V c).arrAt 6 cfg2.N
      = pooled2 (V c main_v38) (V c main_v15) (V c main_v39) (V c main_v40) (V c main_arg7) (V c main_v41) := by
  refine (dat2 V c).arrAt_eq_of_cover 6 _ (fun t hf => flushed2_eq V c t hf) (fun i => ?_)
  have hi0 : (i 0).val < 2048 := (i 0).isLt
  have hi1 : (i 1).val < 1 := (i 1).isLt
  have hN : 49 < cfg2.N := by show 49 < 50; omega
  refine ⟨⟨49, hN⟩, (flush2_6 _).mpr rfl, ?_⟩
  obtain ⟨-, -, -, -, -, -, -, -, -, -, -, -, e60, e61⟩ := blockIdx2 ⟨49, hN⟩
  rw [mem_outBlock2]
  intro a
  match a with
  | ⟨0, _⟩ =>
    show win2_6.index ⟨49, hN⟩ (0 : Fin 2) * 2048 ≤ (i 0).val ∧ (i 0).val < win2_6.index ⟨49, hN⟩ (0 : Fin 2) * 2048 + 2048
    omega
  | ⟨1, _⟩ =>
    show win2_6.index ⟨49, hN⟩ (1 : Fin 2) * 1 ≤ (i 1).val ∧ (i 1).val < win2_6.index ⟨49, hN⟩ (1 : Fin 2) * 1 + 1
    omega

end Cert.KernelIdeal.Hand

end
-- ==== Proof.JoinResult.lean ====
import proofs.«405506_j40140764349028_2_alg».proof.Defs
import proofs.«405506_j40140764349028_2_alg».proof.Proof.Gen.Pre_finite_inputs
import proofs.«405506_j40140764349028_2_alg».proof.Proof.KiRun
import proofs.«405506_j40140764349028_2_alg».proof.Proof.KiHost
import proofs.«405506_j40140764349028_2_alg».proof.Proof.JoinDefs
import proofs.«405506_j40140764349028_2_alg».proof.Proof.JoinLayers
import proofs.«405506_j40140764349028_2_alg».proof.Proof.KiVal2
import proofs.«405506_j40140764349028_2_alg».proof.Proof.JoinCore
import proofs.«405506_j40140764349028_2_alg».proof.Proof.RefFormula
import proofs.«405506_j40140764349028_2_alg».proof.Proof.RefReadP
import proofs.«405506_j40140764349028_2_alg».proof.Proof.Finite
import Idealize.ShloMosaic.Lib.ValueIdx
import Idealize.ShloMosaic.Lib.ValueLayout
import Idealize.ShloMosaic.Lib.Pipeline.Value

/-! The two programs' results are one array. The kernel's last region leaves, for graph g, the mean over g's nodes of
the rows a[n,k] = s[n,k]·d[n] + b2[k] (s the second aggregation, d the row factors) through the final linear map; the
reference computes the same mean of its second layer's rows. The one-hot weighted sums over all nodes are the sums over
the nodes whose graph id reads g, the graph-id column, the last bias and the last weights are the arguments themselves
reshaped, and row by row the kernel's a[n,k] is the reference's second layer at (n, k). -/

set_option maxRecDepth 16384

noncomputable section

namespace Cert.Join

open Idealize.ShloMosaic Idealize.ShloMosaic.TcCoe Idealize.ShloMosaic.ValueIdx
open Idealize.SL Idealize.SL.Sem
open scoped BigOperators

/-! ## A vector read as a one-column matrix -/

/-- Entry (i, 0) of a length-a vector reshaped to [a, 1] is the vector's entry i. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The pooled projection over abstract arrays -/

/-- If a result array is the pooled projection of (s, d, b, bt, wl, bl), the graph-id column bt is the vector ids, the
    last bias bl is the vector BL, and row by row s·d + b is a, then it is the array whose entry g is the mean over
    the nodes with id g of a's rows through the final linear map — the form the reference's result has. -/
theorem pooled_join (ref ker : Cert.KernelIdeal.S2048x1.Idx → EReal)
    (s : Cert.KernelIdeal.S100000x32.Idx → EReal) (d : Cert.KernelIdeal.S100000x1.Idx → EReal) (b : Cert.KernelIdeal.S1x32.Idx → EReal)
    (bt : Cert.KernelIdeal.S100000x1.Idx → BitVec 32) (wl : Cert.KernelIdeal.S32x1.Idx → EReal) (bl : Cert.KernelIdeal.S1x1.Idx → EReal)
    (ids : Cert.KernelIdeal.S100000.Idx → BitVec 32) (BL : Cert.KernelIdeal.S1.Idx → EReal) (a : Cert.KernelIdeal.S100000x32.Idx → EReal)
    (href : ∀ g : Fin 2048, ref (ix2 g 0)
      = (∑ k : Fin 32, Ideal.div
            ((0 : EReal) + ∑ n : Fin 100000, if (ids (ix1 n)).toInt = (g.val : ℤ) then a (ix2 n k) else 0)
            (max ((0 : EReal) + ∑ n : Fin 100000, if (ids (ix1 n)).toInt = (g.val : ℤ) then (1 : EReal) else 0) 1)
          * wl (ix2 k 0)) + BL (ix1 0))
    (hker : ker = Cert.KernelIdeal.Hand.pooled2 s d b bt wl bl)
    (hbt : ∀ n : Fin 100000, bt (ix2 n 0) = ids (ix1 n)) (hbl : bl (ix2 0 0) = BL (ix1 0))
    (hrow : ∀ (n : Fin 100000) (k : Fin 32), s (ix2 n k) * d (ix2 n 0) + b (ix2 0 k) = a (ix2 n k)) :
    ref = ker := by
  subst hker
  funext i
  obtain ⟨g, z, rfl⟩ : ∃ (g : Fin 2048) (z : Fin 1), i = ix2 g z := ⟨i 0, i 1, eq_ix2 i⟩
  obtain rfl : z = 0 := Subsingleton.elim _ _
  rw [href g]
  show _ = (∑ k : Fin 32, Ideal.div
        (∑ n : Fin 100000, (if bt (ix2 n 0) = BitVec.ofNat 32 g.val then (1 : EReal) else 0)
          * (s (ix2 n k) * d (ix2 n 0) + b (ix2 0 k)))
        (max (∑ n : Fin 100000, (if bt (ix2 n 0) = BitVec.ofNat 32 g.val then (1 : EReal) else 0)) 1) * wl (ix2 k 0))
      + bl (ix2 0 0)
  have hrows : ∀ k : Fin 32,
      (∑ n : Fin 100000, (if bt (ix2 n 0) = BitVec.ofNat 32 g.val then (1 : EReal) else 0)
          * (s (ix2 n k) * d (ix2 n 0) + b (ix2 0 k)))
        = (0 : EReal) + ∑ n : Fin 100000, if (ids (ix1 n)).toInt = (g.val : ℤ) then a (ix2 n k) else 0 := by
    intro k
    have h1 : (∑ n : Fin 100000, (if bt (ix2 n 0) = BitVec.ofNat 32 g.val then (1 : EReal) else 0)
          * (s (ix2 n k) * d (ix2 n 0) + b (ix2 0 k)))
        = ∑ n : Fin 100000, (if bt (ix2 n 0) = BitVec.ofNat 32 g.val then (1 : EReal) else 0) * a (ix2 n k) :=
      Finset.sum_congr rfl fun n _ => by rw [hrow n k]
    rw [h1, Cert.JoinCore.pool_rows_join a bt g k]
    refine congrArg ((0 : EReal) + ·) (Finset.sum_congr rfl fun n _ => ?_)
    rw [hbt n]
  have hcount : (∑ n : Fin 100000, (if bt (ix2 n 0) = BitVec.ofNat 32 g.val then (1 : EReal) else 0))
        = (0 : EReal) + ∑ n : Fin 100000, if (ids (ix1 n)).toInt = (g.val : ℤ) then (1 : EReal) else 0 := by
    rw [Cert.JoinCore.pool_counts_join bt g]
    refine congrArg ((0 : EReal) + ·) (Finset.sum_congr rfl fun n _ => ?_)
    rw [hbt n]
  rw [hbl, hcount]
  refine congrArg (· + BL (ix1 0)) (Finset.sum_congr rfl fun k _ => ?_)
  rw [hrows k]

/-! ## The arguments are real -/

/-- The stated precondition gives every float argument's entries as reals. -/
theorem realArgs_of_pre (m : (ℓ : Loc Cert.KernelIdeal.nD Cert.KernelIdeal.τ Cert.KernelIdeal.sig) → Buf (Elt Ideal) ℓ) (hpre : Cert.Pre_KernelIdeal m) (c : Dev Cert.KernelIdeal.nD) : RealArgs m c :=
  Cert.Finite.real_of_pre _ _ _ _ _ _ _ _ _ (hpre c)

/-! ## The join -/

/-- THE JOIN: on finite arguments that agree, the reference's result term and what the kernel's last region leaves
    are one array. -/
theorem result_join (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.ValueP.res_main_v106 m' c = Cert.KernelIdeal.Hand.res2 (F := Ideal) m c := by
  have hreal := realArgs_of_pre m hpre c
  rw [Cert.ReferenceIdeal.ReadP.val_main_v106_eq]
  obtain ⟨h0, h1, h2, h3, h4, h5, h6, h7, h8⟩ := hagree c
  rw [h0, h1, h2, h3, h4, h5, h6, h7, h8]
  have hker : Cert.KernelIdeal.Hand.res2 (F := Ideal) m c
      = Cert.KernelIdeal.Hand.pooled2 (Cert.KernelIdeal.Hand.E2 (F := Ideal) m c Cert.KernelIdeal.main_v38) (Cert.KernelIdeal.Hand.E0 (F := Ideal) m c Cert.KernelIdeal.main_v15)
          (Cert.KernelIdeal.Hand.E2 (F := Ideal) m c Cert.KernelIdeal.main_v39) (Cert.KernelIdeal.Hand.E2 (F := Ideal) m c Cert.KernelIdeal.main_v40)
          (m ((c.tc : Thread Cert.KernelIdeal.nD Cert.KernelIdeal.τ).loc Cert.KernelIdeal.main_arg7)) (Cert.KernelIdeal.Hand.E2 (F := Ideal) m c Cert.KernelIdeal.main_v41) := by
    unfold Cert.KernelIdeal.Hand.res2
    rw [Cert.KernelIdeal.Hand.final2 (Cert.KernelIdeal.Hand.E2 (F := Ideal) m) c, Cert.KernelIdeal.Hand.E2_v15 m c, Cert.KernelIdeal.Hand.E2_arg7 m c]
  exact pooled_join _ _ _ _ _ _ _ _ (m ((c.tc : Thread Cert.KernelIdeal.nD Cert.KernelIdeal.τ).loc Cert.KernelIdeal.main_arg2)) (m ((c.tc : Thread Cert.KernelIdeal.nD Cert.KernelIdeal.τ).loc Cert.KernelIdeal.main_arg8))
    (Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (fun g => Cert.ReferenceIdeal.Formula.result_apply _ _ _ _ _ _ _ _ _ g)
    hker
    (fun n => (congrFun (Cert.KernelIdeal.Hand.E2_v40 m c) (ix2 n 0)).trans (column_apply _ _ n 0))
    ((congrFun (Cert.KernelIdeal.Hand.E2_v41 m c) (ix2 0 0)).trans (column_apply _ _ 0 0))
    (fun n k => layer2_agree m c hreal n k)

end Cert.Join

end
-- ==== Proof.lean ====
import proofs.«405506_j40140764349028_2_alg».proof.Defs
import proofs.«405506_j40140764349028_2_alg».proof.Proof.Gen.Kernel
import proofs.«405506_j40140764349028_2_alg».proof.Proof.Gen.KernelIdeal
import proofs.«405506_j40140764349028_2_alg».proof.Proof.Gen.ReferenceIdeal
import proofs.«405506_j40140764349028_2_alg».proof.Proof.Gen.Pre_finite_inputs
import proofs.«405506_j40140764349028_2_alg».proof.Proof.KwRun
import proofs.«405506_j40140764349028_2_alg».proof.Proof.KiRun
import proofs.«405506_j40140764349028_2_alg».proof.Proof.KiRunNamed
import proofs.«405506_j40140764349028_2_alg».proof.Proof.RefRunP
import proofs.«405506_j40140764349028_2_alg».proof.Proof.RefReadP
import proofs.«405506_j40140764349028_2_alg».proof.Proof.JoinResult
import Idealize.ShloMosaic.Adequacy
import Idealize.ShloMosaic.Init

/-! The five claims. The two idealized programs compute one function of the nine arguments: the pooled, twice-aggregated
graph convolution followed by the final linear map. The kernel's frame is its run with nothing said of the result; the
reference's frame is its run with the result dropped; the algebraic claim states both runs over one result term. -/

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.res2 (F := Ideal) m c, Cert.KernelIdeal.Hand.named (F := Ideal) m ρ, ?_⟩
  exact (θ_run Cert.ReferenceIdeal.defs _ _).mono (fun _ h c => ⟨(h c).1.trans (Cert.Join.result_join m m' hpre hagree c), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
